-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_v48 : IVec S_ 1) (main_v50 : IVec S2x1600000 1) : IVec S_ 1 :=
  let main_c_19 : IVec S_ 32 := constantI S_ 32 100000#32
  let main_v51 : IVec S2x1600000 32 := broadcastInDim S2x1600000 ![] bcast_S_S2x1600000 main_c_19
  let main_v52 : IVec S2x1600000 1 := cmpi .slt main_arg1 main_v51
  let main_v53 : IVec S2x1600000 1 := andi main_v50 main_v52
  let main_c_20 : IVec S_ 1 := constantI S_ 1 1#1
  let main_v54 : IVec S_ 1 := (fun x v => Host.reduce IntOp.andi x v reducesTo_S2x1600000_S_d0_1 h_S_) main_v53 main_c_20
  let main_v55 : IVec S_ 1 := andi main_v48 main_v54
  main_v55

def fn_part2 {F : FTy → Type} [FloatOps F] (main_arg1 : IVec S2x1600000 32) (main_arg9 : FVec F S32 .f32) (main_arg10 : FVec F S32x1 .f32) (main_arg11 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg10
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2x1600000 32 := broadcastInDim S2x1600000 ![] bcast_S_S2x1600000 main_c_18
  let main_v50 : IVec S2x1600000 1 := cmpi .sge main_arg1 main_v49
  fn_part3 (F := F) main_arg1 main_v48 main_v50

def fn_part1 {F : FTy → Type} [FloatOps F] (main_arg1 : IVec S2x1600000 32) (main_arg6 : FVec F S64x64 .f32) (main_arg7 : FVec F S64 .f32) (main_arg8 : FVec F S64x32 .f32) (main_arg9 : FVec F S32 .f32) (main_arg10 : FVec F S32x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S128x64 .f32) (main_arg5 : FVec F S64 .f32) (main_arg6 : FVec F S64x64 .f32) (main_arg7 : FVec F S64 .f32) (main_arg8 : FVec F S64x32 .f32) (main_arg9 : FVec F S32 .f32) (main_arg10 : FVec F S32x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1x1 : Shape := ⟨2, ![1, 1]⟩
abbrev S1700000x64 : Shape := ⟨2, ![1700000, 64]⟩
abbrev S1x64 : Shape := ⟨2, ![1, 64]⟩
abbrev S100000x1 : Shape := ⟨2, ![100000, 1]⟩
abbrev S1x32 : Shape := ⟨2, ![1, 32]⟩
abbrev S64x1 : Shape := ⟨2, ![64, 1]⟩
abbrev S10000x1 : Shape := ⟨2, ![10000, 1]⟩

abbrev nBuf : Space → Nat
  | .hbm => 124
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S100000, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1, .i32⟩
  | .hbm, ⟨64, _⟩ => ⟨S_, .i32⟩
  | .hbm, ⟨65, _⟩ => ⟨S1700000x1, .i32⟩
  | .hbm, ⟨66, _⟩ => ⟨S1700000x1, .i1⟩
  | .hbm, ⟨67, _⟩ => ⟨S1x1, .i32⟩
  | .hbm, ⟨68, _⟩ => ⟨S1700000x1, .i32⟩
  | .hbm, ⟨69, _⟩ => ⟨S1700000x1, .i1⟩
  | .hbm, ⟨70, _⟩ => ⟨S1700000x1, .i1⟩
  | .hbm, ⟨71, _⟩ => ⟨S_, .i1⟩
  | .hbm, ⟨72, _⟩ => ⟨S1700000, .i1⟩
  | .hbm, ⟨73, _⟩ => ⟨S1700000x64, .f32⟩
  | .hbm, ⟨74, _⟩ => ⟨S1700000x64, .i1⟩
  | .hbm, ⟨75, _⟩ => ⟨S_, .f32⟩
  | .hbm, ⟨76, _⟩ => ⟨S1700000x64, .f32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1, .i32⟩
  | .hbm, ⟨97, _⟩ => ⟨S_, .i32⟩
  | .hbm, ⟨98, _⟩ => ⟨S1700000x1, .i32⟩
  | .hbm, ⟨99, _⟩ => ⟨S1700000x1, .i1⟩
  | .hbm, ⟨100, _⟩ => ⟨S1x1, .i32⟩
  | .hbm, ⟨101, _⟩ => ⟨S1700000x1, .i32⟩
  | .hbm, ⟨102, _⟩ => ⟨S1700000x1, .i1⟩
  | .hbm, ⟨103, _⟩ => ⟨S1700000x1, .i1⟩
  | .hbm, ⟨104, _⟩ => ⟨S_, .i1⟩
  | .hbm, ⟨105, _⟩ => ⟨S1700000, .i1⟩
  | .hbm, ⟨106, _⟩ => ⟨S1700000x64, .f32⟩
  | .hbm, ⟨107, _⟩ => ⟨S1700000x64, .i1⟩
  | .hbm, ⟨108, _⟩ => ⟨S_, .f32⟩
  | .hbm, ⟨109, _⟩ => ⟨S1700000x64, .f32⟩
  | .hbm, ⟨110, _⟩ => ⟨S1700000x64, .f32⟩
  | .hbm, ⟨111, _⟩ => ⟨S1700000x1, .f32⟩
  | .hbm, ⟨112, _⟩ => ⟨S1700000x64, .f32⟩
  | .hbm, ⟨113, _⟩ => ⟨S1700000x64, .f32⟩
  | .hbm, ⟨114, _⟩ => ⟨S_, .f32⟩
  | .hbm, ⟨115, _⟩ => ⟨S100000x64, .f32⟩
  | .hbm, ⟨116, _⟩ => ⟨S1700000x1, .i32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x1, .i32⟩
  | .hbm, ⟨121, _⟩ => ⟨S1x32, .f32⟩
  | .hbm, ⟨122, _⟩ => ⟨S1x1, .f32⟩
  | .hbm, ⟨123, _⟩ => ⟨S64x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .i32⟩
  | .local _ .vmem, ⟨23, _⟩ => ⟨S10000x1, .i32⟩
  | .local _ .vmem, ⟨24, _⟩ => ⟨S64x32, .f32⟩
  | .local _ .vmem, ⟨25, _⟩ => ⟨S1x32, .f32⟩
  | .local _ .vmem, ⟨26, _⟩ => ⟨S32x1, .f32⟩
  | .local _ .vmem, ⟨27, _⟩ => ⟨S1x1, .f32⟩
  | .local _ .vmem, ⟨28, _⟩ => ⟨S64x1, .f32⟩
  | .local _ .vmem, ⟨29, _⟩ => ⟨S64x64, .f32⟩
  | .local _ .vmem, ⟨30, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_6 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_cst_7 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_scratch0 : Ref sig .tc := ⟨.vmem, 29, rfl⟩
abbrev cc4_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  shapeCasts_S32_S1x32 : S32.ShapeCasts S1x32
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x32.size a ≤ S64x32.size a
  hwx4_2 : ∀ i : grid4.Coords, EltTy.bits .f32 = 32 ∨ (Rect.block (s := S64x32) S64x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x1.size a ≤ S32x1.size a
  hwx4_4 : ∀ i : grid4.Coords, EltTy.bits .f32 = 32 ∨ (Rect.block (s := S32x1) S32x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x1.size a ≤ S64x1.size a
  hwx4_6 : ∀ i : grid4.Coords, EltTy.bits .f32 = 32 ∨ (Rect.block (s := S64x1) S64x1.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S32x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v55) S64x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S100000, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x64, .f32⟩
  | .hbm, ⟨87, _⟩ => ⟨S1700000x1, .f32⟩
  | .hbm, ⟨88, _⟩ => ⟨S1700000x64, .f32⟩
  | .hbm, ⟨89, _⟩ => ⟨S1700000x64, .f32⟩
  | .hbm, ⟨90, _⟩ => ⟨S_, .f32⟩
  | .hbm, ⟨91, _⟩ => ⟨S100000x64, .f32⟩
  | .hbm, ⟨92, _⟩ => ⟨S1700000x1, .i32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S64x64, .f32⟩
  | .hbm, ⟨102, _⟩ => ⟨S100000x1, .i32⟩
  | .hbm, ⟨103, _⟩ => ⟨S64x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S64, .f32⟩
  | .hbm, ⟨108, _⟩ => ⟨S100000x1, .i32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64x1, .f32⟩
  | .hbm, ⟨114, _⟩ => ⟨S64x64, .f32⟩
  | .hbm, ⟨115, _⟩ => ⟨S64x64, .f32⟩
  | .hbm, ⟨116, _⟩ => ⟨S64x32, .f32⟩
  | .hbm, ⟨117, _⟩ => ⟨S1x32, .f32⟩
  | .hbm, ⟨118, _⟩ => ⟨S64x32, .f32⟩
  | .hbm, ⟨119, _⟩ => ⟨S64x32, .f32⟩
  | .hbm, ⟨120, _⟩ => ⟨S_, .f32⟩
  | .hbm, ⟨121, _⟩ => ⟨S64x32, .f32⟩
  | .hbm, ⟨122, _⟩ => ⟨S64x32, .f32⟩
  | .hbm, ⟨123, _⟩ => ⟨S64x1, .f32⟩
  | .hbm, ⟨124, _⟩ => ⟨S1x1, .f32⟩
  | .hbm, ⟨125, _⟩ => ⟨S64x1, .f32⟩
  | .hbm, ⟨126, _⟩ => ⟨S64x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_cst : Ref sig .tc := ⟨.hbm, 120, rfl⟩
abbrev main_call3_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.Reg0.lean ====
/-
  Region 0 of the program: the first dense projection, one row block of x (10000 × 128) times the whole weight
  matrix (128 × 64) per grid point, written to the matching row block of the result. Stated at a parameter V, the
  contents of the core's buffers when the region is entered.
-/
import proofs.«413692_j83004537962758_2_alg».proof.Proof.Gen.KernelIdeal.Launch
import proofs.«413692_j83004537962758_2_alg».proof.Proof.Gen.KernelIdeal.Skeleton
import proofs.«413692_j83004537962758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x128 := Rect.unit (s := S10000x128) ![0, 0] S10000x128.size inb_S10000x128_S10000x128_0_0
abbrev r0_w : Rect S128x64 := Rect.unit (s := S128x64) ![0, 0] S128x64.size inb_S128x64_S128x64_0_0
abbrev r0_o : Rect S10000x64 := Rect.unit (s := S10000x64) ![0, 0] S10000x64.size inb_S10000x64_S10000x64_0_0

/-- What the body leaves in the output window's buffer: the product of the row block and the weights, stored whole. -/
def out0_2 (x0 : Vec F S10000x128 .f32) (x1 : Vec F S128x64 .f32) : Vec F S10000x64 .f32 :=
  View.canon [⟨r0_o, k0_pay1 (View.ld x0 r0_x) (View.ld x1 r0_w)⟩]

/-- The proof data of the region on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The row block's staging buffer holds the block of x at every point: the window is an input the body leaves in
    place, its index map moves with the point and it is fetched wherever the index moved. -/
theorem rows_staged0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]
  · unfold Dat.fetched Dat.blockOf iblk0; rw [A_eq0]; rfl

/-- The weights' staging buffer holds the whole matrix at every point, although it is fetched at the first point
    only: the index map is constant, so an unfetched point finds what the previous one left, and the body leaves
    the matrix as it found it. -/
theorem weights_staged0 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A_eq0]
  · unfold Dat.fetched Dat.blockOf iblk0; rw [A_eq0]; rfl

/-- The single whole-block store covers the output buffer. -/
theorem store_covers0 (p : Vec F S10000x64 .f32) (y : S10000x64.Idx) :
    ∃ pc ∈ ([⟨r0_o, p⟩] : List (View.Piece (Elt F) S10000x64 .f32)), y ∈ pc.1.set :=
  View.cover_of_tiled [⟨r0_o, p⟩] S10000x64.size (by rfl) y

set_option maxHeartbeats 1000000 in
/-- The kernel on whole staging memrefs: with the row block at x, the weights at w and the output at anything, it
    runs to the continuation with both inputs as they were and the output at the stored product. -/
theorem sound_matmul0 (c : Dev nD) (E : Set ℕ) (i : grid0.Coords)
    (a1 : Memref sig .tc .vmem S10000x128 .f32) (h1 : a1.IsWhole)
    (a2 : Memref sig .tc .vmem S128x64 .f32) (h2 : a2.IsWhole)
    (a3 : Memref sig .tc .vmem S10000x64 .f32) (h3 : a3.IsWhole)
    (x : Vec F S10000x128 .f32) (w : Vec F S128x64 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (out0_2 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers0 _)

/-- What the body is called with at point t: the invariant, what the core owes, and the three current staging
    buffers at what they then hold. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debts, the inputs' buffers in place and the output's at the product. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks, so the kernel's triple applies; the invariant and
    the core's debts pass through unread. -/
theorem sound_at0 (c : Dev nD) (t : Fin cfg0.N) :
    pre0 V c t ⊢ wp frame (wpE (defs₀ (F := F)) Variants.none c none) Set.univ (bodyAt0 t) (fun _ => post0 V c t) := by
  unfold pre0 post0 bodyAt0
  simp only [rows_staged0, weights_staged0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_matmul0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_at0 V c t

end

end Cert.KernelIdeal.Hand

end
-- ==== Proof.Reg1.lean ====
/-
  Region 1 of the program: the bias and rectifier step after the first aggregation. Each grid point takes one row
  block (10000 × 64) of the aggregated messages, adds the bias row (1 × 64) to every row, takes the maximum with
  zero, and writes the result to the matching row block of the output. Stated at a parameter V, the contents of
  the core's buffers when the region is entered.
-/
import proofs.«413692_j83004537962758_2_alg».proof.Proof.Gen.KernelIdeal.Launch
import proofs.«413692_j83004537962758_2_alg».proof.Proof.Gen.KernelIdeal.Skeleton
import proofs.«413692_j83004537962758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S10000x64 := Rect.unit (s := S10000x64) ![0, 0] S10000x64.size inb_S10000x64_S10000x64_0_0
abbrev r1_b : Rect S1x64 := Rect.unit (s := S1x64) ![0, 0] S1x64.size inb_S1x64_S1x64_0_0
abbrev r1_o : Rect S10000x64 := Rect.unit (s := S10000x64) ![0, 0] S10000x64.size inb_S10000x64_S10000x64_0_0

/-- What the body leaves in the output window's buffer: the row block plus the bias row, cut off below at zero,
    stored whole. -/
def out1_2 (x0 : Vec F S10000x64 .f32) (x1 : Vec F S1x64 .f32) : Vec F S10000x64 .f32 :=
  View.canon [⟨r1_o, k1_pay1 (View.ld x0 r1_a) (View.ld x1 r1_b)⟩]

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The row block's staging buffer holds the point's row block of the aggregated messages, for any proof data whose
    array is the entry contents and whose body leaves that block in place: it is fetched at every point. -/
theorem rows_found1 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The bias row's staging buffer holds the bias row at every point, although it is fetched at the first point
    only: its block index never moves, and the body leaves the row in place. -/
theorem bias_found1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- The one store writes the whole output block, so it covers the output buffer. -/
theorem store_covers1 (p : Vec F S10000x64 .f32) (y : S10000x64.Idx) :
    ∃ pc ∈ ([⟨r1_o, p⟩] : List (View.Piece (Elt F) S10000x64 .f32)), y ∈ pc.1.set :=
  View.cover_of_tiled [⟨r1_o, p⟩] S10000x64.size (by rfl) y

set_option maxHeartbeats 1000000 in
/-- The body on whole staging memrefs: with the row block's buffer reading a, the bias row's reading b, and the
    output's holding anything, it runs to a state with the two inputs as they were and the output reading
    max (a + b broadcast down the rows) 0, stored whole. -/
theorem bias_relu_triple1 (c : Dev nD) (E : Set ℕ) (i : grid1.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (a : Vec F S10000x64 .f32) (b : Vec F S1x64 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (out1_2 a b)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%fa, %hfa, Ha⟩, ⟨%fb, %hfb, Hb⟩, ⟨%d, %fo, -, Ho⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (store_covers1 _)

theorem before1_0 (c : Dev nD) (t : Fin cfg1.N) (d) : (dat1 V c).before 0 t d = iblk1 V c 0 t :=
  rows_found1 V (dat1 V c) (A_eq1 V c 0) (after1_0 V c) t d
theorem before1_1 (c : Dev nD) (t : Fin cfg1.N) (d) : (dat1 V c).before 1 t d = iblk1 V c 1 t :=
  bias_found1 V (dat1 V c) (A_eq1 V c 1) (after1_1 V c) t d

/-- What the body is handed at point t: the invariant, the core's debts, and the three windows' current staging
    buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their blocks, so the triple applies; the invariant and the
    debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Hw, ⟨%d0, H0⟩, ⟨%d1, H1⟩, ⟨%d2, H2⟩⟩
  iapply (bias_relu_triple1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Reg2.lean ====
/-
  Region 2 of the program: the second dense projection, one row block of the hidden features (10000 × 64) times
  the whole weight matrix (64 × 64) per grid point, written to the matching row block of the result. Stated at a
  parameter V, the contents of the core's buffers when the region is entered.
-/
import proofs.«413692_j83004537962758_2_alg».proof.Proof.Gen.KernelIdeal.Launch
import proofs.«413692_j83004537962758_2_alg».proof.Proof.Gen.KernelIdeal.Skeleton
import proofs.«413692_j83004537962758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x64 := Rect.unit (s := S10000x64) ![0, 0] S10000x64.size inb_S10000x64_S10000x64_0_0
abbrev r2_w : Rect S64x64 := Rect.unit (s := S64x64) ![0, 0] S64x64.size inb_S64x64_S64x64_0_0
abbrev r2_o : Rect S10000x64 := Rect.unit (s := S10000x64) ![0, 0] S10000x64.size inb_S10000x64_S10000x64_0_0

/-- What the body leaves in the output window's buffer: the product of the row block and the weights, stored whole. -/
def out2_2 (x0 : Vec F S10000x64 .f32) (x1 : Vec F S64x64 .f32) : Vec F S10000x64 .f32 :=
  View.canon [⟨r2_o, k2_pay1 (View.ld x0 r2_x) (View.ld x1 r2_w)⟩]

/-- The proof data of the region on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The row block's staging buffer holds the block of the hidden features at every point: the window is an input
    the body leaves in place, its index map moves with the point and it is fetched wherever the index moved. -/
theorem rows_staged2 (c : Dev nD) (t : Fin cfg2.N) (d) : (dat2 V c).before 0 t d = iblk2 V c 0 t := by
  refine ((dat2 V c).before_in_eq_fetched 0 rfl (fun _ => rfl) (fun _ _ _ => rfl) (fun s => ?_) t d).trans ?_
  · rw [after2_0]; unfold Dat.blockOf iblk2; rw [A_eq2]
  · unfold Dat.fetched Dat.blockOf iblk2; rw [A_eq2]; rfl

/-- The square weight matrix's staging buffer holds the whole matrix at every point, although it is fetched at the
    first point only: the index map is constant, so an unfetched point finds what the previous one left, and the
    body leaves the matrix as it found it. -/
theorem weights_staged2 (c : Dev nD) (t : Fin cfg2.N) (d) : (dat2 V c).before 1 t d = iblk2 V c 1 t := by
  refine ((dat2 V c).before_in_eq_fetched 1 rfl (fun _ => rfl) (fun _ _ _ => rfl) (fun s => ?_) t d).trans ?_
  · rw [after2_1]; unfold Dat.blockOf iblk2; rw [A_eq2]
  · unfold Dat.fetched Dat.blockOf iblk2; rw [A_eq2]; rfl

/-- The single whole-block store covers the output buffer. -/
theorem store_covers2 (p : Vec F S10000x64 .f32) (y : S10000x64.Idx) :
    ∃ pc ∈ ([⟨r2_o, p⟩] : List (View.Piece (Elt F) S10000x64 .f32)), y ∈ pc.1.set :=
  View.cover_of_tiled [⟨r2_o, p⟩] S10000x64.size (by rfl) y

set_option maxHeartbeats 1000000 in
/-- The kernel on whole staging memrefs: with the row block at x, the weights at w and the output at anything, it
    runs to the continuation with both inputs as they were and the output at the stored product (the payload
    holds the reshape to the same shape that precedes the truncation). -/
theorem sound_matmul2 (c : Dev nD) (E : Set ℕ) (i : grid2.Coords)
    (a1 : Memref sig .tc .vmem S10000x64 .f32) (h1 : a1.IsWhole)
    (a2 : Memref sig .tc .vmem S64x64 .f32) (h2 : a2.IsWhole)
    (a3 : Memref sig .tc .vmem S10000x64 .f32) (h3 : a3.IsWhole)
    (x : Vec F S10000x64 .f32) (w : Vec F S64x64 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (out2_2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers2 _)

/-- What the body is called with at point t: the invariant, what the core owes, and the three current staging
    buffers at what they then hold. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same invariant and debts, the inputs' buffers in place and the output's at the product. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both inputs' buffers hold their blocks, so the kernel's triple applies; the invariant and
    the core's debts pass through unread. -/
theorem sound_at2 (c : Dev nD) (t : Fin cfg2.N) :
    pre2 V c t ⊢ wp frame (wpE (defs₀ (F := F)) Variants.none c none) Set.univ (bodyAt2 t) (fun _ => post2 V c t) := by
  unfold pre2 post2 bodyAt2
  simp only [rows_staged2, weights_staged2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_matmul2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_at2 V c t

end

end Cert.KernelIdeal.Hand

end
-- ==== Proof.Reg3.lean ====
/-
  Region 3 of the program: the bias and rectifier step after the second aggregation. Each grid point takes one row
  block (10000 × 64) of the aggregated messages, adds the bias row (1 × 64) to every row, takes the maximum with
  zero, and writes the result to the matching row block of the output. Stated at a parameter V, the contents of
  the core's buffers when the region is entered.
-/
import proofs.«413692_j83004537962758_2_alg».proof.Proof.Gen.KernelIdeal.Launch
import proofs.«413692_j83004537962758_2_alg».proof.Proof.Gen.KernelIdeal.Skeleton
import proofs.«413692_j83004537962758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S10000x64 := Rect.unit (s := S10000x64) ![0, 0] S10000x64.size inb_S10000x64_S10000x64_0_0
abbrev r3_b : Rect S1x64 := Rect.unit (s := S1x64) ![0, 0] S1x64.size inb_S1x64_S1x64_0_0
abbrev r3_o : Rect S10000x64 := Rect.unit (s := S10000x64) ![0, 0] S10000x64.size inb_S10000x64_S10000x64_0_0

/-- What the body leaves in the output window's buffer: the row block plus the bias row, cut off below at zero,
    stored whole. -/
def out3_2 (x0 : Vec F S10000x64 .f32) (x1 : Vec F S1x64 .f32) : Vec F S10000x64 .f32 :=
  View.canon [⟨r3_o, k3_pay1 (View.ld x0 r3_a) (View.ld x1 r3_b)⟩]

/-- The proof data of the region on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The row block's staging buffer holds the point's row block of the aggregated messages, for any proof data whose
    array is the entry contents and whose body leaves that block in place: it is fetched at every point. -/
theorem rows_found3 {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

/-- The bias row's staging buffer holds the bias row at every point, although it is fetched at the first point
    only: its block index never moves, and the body leaves the row in place. -/
theorem bias_found3 {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

/-- The one store writes the whole output block, so it covers the output buffer. -/
theorem store_covers3 (p : Vec F S10000x64 .f32) (y : S10000x64.Idx) :
    ∃ pc ∈ ([⟨r3_o, p⟩] : List (View.Piece (Elt F) S10000x64 .f32)), y ∈ pc.1.set :=
  View.cover_of_tiled [⟨r3_o, p⟩] S10000x64.size (by rfl) y

set_option maxHeartbeats 1000000 in
/-- The body on whole staging memrefs: with the row block's buffer reading a, the bias row's reading b, and the
    output's holding anything, it runs to a state with the two inputs as they were and the output reading
    max (a + b broadcast down the rows) 0, stored whole. -/
theorem bias_relu_triple3 (c : Dev nD) (E : Set ℕ) (i : grid3.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (a : Vec F S10000x64 .f32) (b : Vec F S1x64 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (out3_2 a b)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%fa, %hfa, Ha⟩, ⟨%fb, %hfb, Hb⟩, ⟨%d, %fo, -, Ho⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (store_covers3 _)

theorem before3_0 (c : Dev nD) (t : Fin cfg3.N) (d) : (dat3 V c).before 0 t d = iblk3 V c 0 t :=
  rows_found3 V (dat3 V c) (A_eq3 V c 0) (after3_0 V c) t d
theorem before3_1 (c : Dev nD) (t : Fin cfg3.N) (d) : (dat3 V c).before 1 t d = iblk3 V c 1 t :=
  bias_found3 V (dat3 V c) (A_eq3 V c 1) (after3_1 V c) t d

/-- What the body is handed at point t: the invariant, the core's debts, and the three windows' current staging
    buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two input buffers hold their blocks, so the triple applies; the invariant and the
    debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Hw, ⟨%d0, H0⟩, ⟨%d1, H1⟩, ⟨%d2, H2⟩⟩
  iapply (bias_relu_triple3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.Reg4.lean ====
/-
  Region 4 of the program: the mean pool over the graphs and the two-layer head. Ten grid points; at each the
  row block of node features (10000 × 64) and the matching block of graph ids (10000 × 1) are turned into the
  one-hot matrix of the ids against 0..63, whose transposed products with the features and with a column of ones
  are added to two carried buffers (the per-graph sums, 64 × 64, and the per-graph counts, 64 × 1); point 0 first
  resets both to zero; point 9, after its own addition, divides the sums by the counts (floored at one), applies the
  head and stores the 64 × 1 result. Stated at a parameter V, the contents of the core's buffers when the region is
  entered.
-/
import proofs.«413692_j83004537962758_2_alg».proof.Proof.Gen.KernelIdeal.Launch
import proofs.«413692_j83004537962758_2_alg».proof.Proof.Gen.KernelIdeal.Skeleton
import proofs.«413692_j83004537962758_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two carried buffers, whole. -/
abbrev sums4 : Memref sig .tc .vmem S64x64 .f32 := Memref.whole cc4_scratch0
abbrev cnts4 : Memref sig .tc .vmem S64x1 .f32 := Memref.whole cc4_scratch1

/-- The core's scoped buffers other than this region's staging buffers and its two carried buffers, each at some contents. -/
def keep4 (c : Dev nD) : sProp 𝕄 :=
  Pipeline.scopedRestBut (Ix := Unit) (Name := ℕ) (U := UR sig nD τ) (Lvl := ℕ) (Val := Elt F) spec4 c [cc4_scratch0, cc4_scratch1]

/-! ## Whole-buffer loads and stores -/

theorem zeros2_r4 : (![0, 0] : Fin 2 → ℕ) = fun _ => 0 := by funext a; fin_cases a <;> rfl

/-- Through the whole-shape rectangle at zero offsets a load reads the contents as they are, -/
theorem ld_whole_unit4 {S : Shape} {e : EltTy} {off : Fin S.rank → ℕ} (h : off = fun _ => 0) (inb : ∀ a, off a + S.size a ≤ S.size a)
    (X : S.Idx → Elt F e) : View.ld X (Rect.unit off S.size inb) = X := by
  subst h; funext x; show X ((Rect.whole S).emb x) = X x; rw [Rect.emb_whole_apply]

/-- every index lies in it, -/
theorem mem_whole_unit4 {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- and a store through it, last, leaves its payload whatever the earlier stores were. -/
theorem canon_whole_unit_cons4 {S : Shape} {e : EltTy} {off : Fin S.rank → ℕ} (h : off = fun _ => 0) (inb : ∀ a, off a + S.size a ≤ S.size a)
    (w : S.Idx → Elt F e) (L : List (View.Piece (Elt F) S e)) :
    View.canon ((⟨Rect.unit off S.size inb, w⟩ : View.Piece (Elt F) S e) :: L) = w := by
  subst h; funext y
  have e := View.canon_cons_emb (Val := Elt F) (Rect.whole S) w L y
  rw [Rect.emb_whole_apply] at e
  exact e

/-- A load of a whole buffer through the whole-shape rectangle reads its contents. -/
theorem readAt_whole_unit4 {S : Shape} {e : EltTy} (m : Memref sig .tc .vmem S e) (hm : m.IsWhole) {off : Fin S.rank → ℕ}
    (h : off = fun _ => 0) (inb : ∀ a, off a + S.size a ≤ S.size a) (X : S.Idx → Elt F e) :
    m.view.readAt (Elt F) (Rect.unit off S.size inb).toLoadRect (hm.unread X) = X := by
  rw [show m.view.readAt (Elt F) (Rect.unit off S.size inb).toLoadRect (hm.unread X) = View.ld (m.view.read (Elt F) (hm.unread X)) (Rect.unit off S.size inb) from rfl,
    hm.read_unread, ld_whole_unit4 h]

/-- After stores the last of which went through the whole-shape rectangle, the buffer reads that store's payload. -/
theorem read_writes_unit_cons4 {S : Shape} {e : EltTy} (m : Memref sig .tc .vmem S e) (f : m.view.ty.Contents (Elt F)) {off : Fin S.rank → ℕ}
    (h : off = fun _ => 0) (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, mem_whole_unit4 h inb y⟩), canon_whole_unit_cons4 h]

/-! ## The body's two conditions, in closed form over the grid -/

/-- The first condition (reset the carried buffers): the grid coordinate is 0. -/
abbrev isFirst4 (i : grid4.Coords) : Prop := (Scalar.cmpi .ne (Scalar.extui (Scalar.cmpi .eq (BitVec.ofNat 32 (i 0).val) 0#32)) 0#32) = 1#1
theorem isFirst4_iff : ∀ t : Fin cfg4.N, isFirst4 (grid4.coords t) ↔ t.val = 0 :=
  (by decide +kernel : ∀ t : Fin grid4.N, isFirst4 (grid4.coords t) ↔ t.val = 0)

/-- The second condition (apply the head): the grid coordinate is 9. -/
abbrev isLast4 (i : grid4.Coords) : Prop := k4_cond2 i = 1#1
theorem isLast4_iff : ∀ t : Fin cfg4.N, isLast4 (grid4.coords t) ↔ t.val = 9 :=
  (by decide +kernel : ∀ t : Fin grid4.N, isLast4 (grid4.coords t) ↔ t.val = 9)

/-- Where the result window is idle and where it is written back. -/
theorem live4_in : ∀ (w : Fin 7) (t : Fin cfg4.N), w.val < 6 → cfg4.idle w (grid4.coords t) = false := by decide +kernel
theorem idle4_6 : ∀ t : Fin cfg4.N, ¬isLast4 (grid4.coords t) → cfg4.idle 6 (grid4.coords t) = true := by decide +kernel
theorem noFlush4_6 : ∀ t : Fin cfg4.N, ¬isLast4 (grid4.coords t) → (cfg4.win 6).flush t = false := by decide +kernel
theorem live4_6 : ∀ t : Fin cfg4.N, isLast4 (grid4.coords t) → cfg4.idle 6 (grid4.coords t) = false := by decide +kernel

/-! ## The body on any whole memrefs, case by case -/

set_option maxHeartbeats 4000000 in
/-- At a point that is neither the first nor the last: the two blocks are read and left in place, the carried buffers
    go from (xs0, xs1) to the sums and counts with this block added. -/
theorem run4_mid (c : Dev nD) (i : grid4.Coords)
    (arg1 : Memref sig .tc .vmem S10000x64 .f32) (harg1 : arg1.IsWhole) (arg2 : Memref sig .tc .vmem S10000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S64x1 .f32) (harg9 : arg9.IsWhole)
    (hc0 : ¬isFirst4 i) (hc1 : ¬isLast4 i)
    (x0 : Vec F S10000x64 .f32) (x1 : Vec F S10000x1 .i32) (xs0 : Vec F S64x64 .f32) (xs1 : Vec F S64x1 .f32)
    (E : Set ℕ) (K : PUnit → sProp 𝕄) :
    iprop(owns (c : Thread nD τ) arg1 fullShare x0 ∗ owns (c : Thread nD τ) arg2 fullShare x1
        ∗ owns (c : Thread nD τ) arg8 fullShare xs0 ∗ owns (c : Thread nD τ) arg9 fullShare xs1
        ∗ (iprop(owns (c : Thread nD τ) arg1 fullShare x0 ∗ owns (c : Thread nD τ) arg2 fullShare x1
            ∗ owns (c : Thread nD τ) arg8 fullShare (k4_pay4 x0 x1 xs0) ∗ owns (c : Thread nD τ) arg9 fullShare (k4_pay5 x1 xs1)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [read_writes_unit_cons4 (S := S64x64) _ _ zeros2_r4, readAt_whole_unit4 (S := S10000x64) _ _ zeros2_r4, readAt_whole_unit4 (S := S10000x1) _ _ zeros2_r4, readAt_whole_unit4 (S := S64x64) _ _ zeros2_r4]
  iexists _; isplitr
  swap; · iexact HS1
  ipureintro
  rw [read_writes_unit_cons4 (S := S64x1) _ _ zeros2_r4, readAt_whole_unit4 (S := S10000x1) _ _ zeros2_r4, readAt_whole_unit4 (S := S64x1) _ _ zeros2_r4]

set_option maxHeartbeats 4000000 in
/-- At the first point: the carried buffers, found at anything, are reset to zero and then hold this block's sums
    and counts. -/
theorem run4_first (c : Dev nD) (i : grid4.Coords)
    (arg1 : Memref sig .tc .vmem S10000x64 .f32) (harg1 : arg1.IsWhole) (arg2 : Memref sig .tc .vmem S10000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S64x1 .f32) (harg9 : arg9.IsWhole)
    (hc0 : isFirst4 i) (hc1 : ¬isLast4 i)
    (x0 : Vec F S10000x64 .f32) (x1 : Vec F S10000x1 .i32)
    (E : Set ℕ) (K : PUnit → sProp 𝕄) :
    iprop(owns (c : Thread nD τ) arg1 fullShare x0 ∗ owns (c : Thread nD τ) arg2 fullShare x1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg8 fullShare (k4_pay4 x0 x1 (k4_pay1 (F := F))) ∗ owns (c : Thread nD τ) arg9 fullShare (k4_pay5 x1 (k4_pay2 (F := F)))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%ds0, %fs0, -, HS0⟩, ⟨%ds1, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    unfold run4_first.sl.v15 run4_first.sl.HS0_1
    rw [read_writes_unit_cons4 (S := S64x64) _ _ zeros2_r4, View.readCov_cons_toLoadRect,
      readAt_whole_unit4 (S := S10000x64) _ _ zeros2_r4, readAt_whole_unit4 (S := S10000x1) _ _ zeros2_r4]
  iexists _; isplitr
  swap; · iexact HS1
  ipureintro
  unfold run4_first.sl.v21 run4_first.sl.HS1_1
  rw [read_writes_unit_cons4 (S := S64x1) _ _ zeros2_r4, View.readCov_cons_toLoadRect, readAt_whole_unit4 (S := S10000x1) _ _ zeros2_r4]

set_option maxHeartbeats 4000000 in
/-- At the last point: as at a middle point, and then the head is applied to the carried buffers as just updated and
    to the four head operands, and its result stored whole into the result window's buffer, found at anything. -/
theorem run4_last (c : Dev nD) (i : grid4.Coords)
    (arg1 : Memref sig .tc .vmem S10000x64 .f32) (harg1 : arg1.IsWhole) (arg2 : Memref sig .tc .vmem S10000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S64x1 .f32) (harg9 : arg9.IsWhole)
    (hc0 : ¬isFirst4 i) (hc1 : isLast4 i)
    (x0 : Vec F S10000x64 .f32) (x1 : Vec F S10000x1 .i32) (x2 : Vec F S64x32 .f32) (x3 : Vec F S1x32 .f32) (x4 : Vec F S32x1 .f32) (x5 : Vec F S1x1 .f32)
    (xs0 : Vec F S64x64 .f32) (xs1 : Vec F S64x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k4_pay6 (k4_pay4 x0 x1 xs0) (k4_pay5 x1 xs1) x2 x3 x4 x5)
            ∗ owns (c : Thread nD τ) arg8 fullShare (k4_pay4 x0 x1 xs0) ∗ owns (c : Thread nD τ) arg9 fullShare (k4_pay5 x1 xs1)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    unfold run4_last.sl.v30 run4_last.sl.v31 run4_last.sl.HS0_1 run4_last.sl.HS1_1
    rw [read_writes_unit_cons4 (S := S64x1) _ _ zeros2_r4, View.readCov_cons_toLoadRect, View.readCov_cons_toLoadRect,
      readAt_whole_unit4 (S := S10000x64) _ _ zeros2_r4, readAt_whole_unit4 (S := S10000x1) _ _ zeros2_r4,
      readAt_whole_unit4 (S := S64x64) _ _ zeros2_r4, readAt_whole_unit4 (S := S64x1) _ _ zeros2_r4,
      readAt_whole_unit4 (S := S64x32) _ _ zeros2_r4, readAt_whole_unit4 (S := S1x32) _ _ zeros2_r4,
      readAt_whole_unit4 (S := S32x1) _ _ zeros2_r4, readAt_whole_unit4 (S := S1x1) _ _ zeros2_r4]
  isplitl [HS0]
  · iexists _; isplitr
    swap; · iexact HS0
    ipureintro
    unfold run4_last.sl.HS0_1
    rw [read_writes_unit_cons4 (S := S64x64) _ _ zeros2_r4, readAt_whole_unit4 (S := S10000x64) _ _ zeros2_r4,
      readAt_whole_unit4 (S := S10000x1) _ _ zeros2_r4, readAt_whole_unit4 (S := S64x64) _ _ zeros2_r4]
  iexists _; isplitr
  swap; · iexact HS1
  ipureintro
  unfold run4_last.sl.HS1_1
  rw [read_writes_unit_cons4 (S := S64x1) _ _ zeros2_r4, readAt_whole_unit4 (S := S10000x1) _ _ zeros2_r4, readAt_whole_unit4 (S := S64x1) _ _ zeros2_r4]

/-! ## The memrefs the body is called with -/
abbrev ms4_0 (t : Fin cfg4.N) : Memref sig .tc .vmem S10000x64 .f32 := win4_0.stage (cfg4.slots t 0)
abbrev ms4_1 (t : Fin cfg4.N) : Memref sig .tc .vmem S10000x1 .i32 := win4_1.stage (cfg4.slots t 1)
abbrev ms4_2 (t : Fin cfg4.N) : Memref sig .tc .vmem S64x32 .f32 := win4_2.stage (cfg4.slots t 2)
abbrev ms4_3 (t : Fin cfg4.N) : Memref sig .tc .vmem S1x32 .f32 := win4_3.stage (cfg4.slots t 3)
abbrev ms4_4 (t : Fin cfg4.N) : Memref sig .tc .vmem S32x1 .f32 := win4_4.stage (cfg4.slots t 4)
abbrev ms4_5 (t : Fin cfg4.N) : Memref sig .tc .vmem S1x1 .f32 := win4_5.stage (cfg4.slots t 5)
abbrev ms4_6 (t : Fin cfg4.N) : Memref sig .tc .vmem S64x1 .f32 := win4_6.stage (cfg4.slots t 6)

/-- Four conjuncts grouped from the left are the four grouped from the right. -/
theorem sep_regroup4 (A B R G : sProp 𝕄) : (iprop(((A ∗ B) ∗ R) ∗ G) : sProp 𝕄) = iprop(A ∗ B ∗ R ∗ G) := by
  refine Idealize.SL.BI.Entails.antisymm (show (iprop(((A ∗ B) ∗ R) ∗ G) : sProp 𝕄) ⊢ iprop(A ∗ B ∗ R ∗ G) from ?_)
    (show (iprop(A ∗ B ∗ R ∗ G) : sProp 𝕄) ⊢ iprop(((A ∗ B) ∗ R) ∗ G) from ?_)
  · iintro ⟨⟨⟨HA, HB⟩, HR⟩, Hg⟩
    isplitl [HA]; · iexact HA
    isplitl [HB]; · iexact HB
    isplitl [HR]; · iexact HR
    iexact Hg
  · iintro ⟨HA, HB, HR, Hg⟩
    isplitr [Hg]
    swap; · iexact Hg
    isplitr [HR]
    swap; · iexact HR
    isplitl [HA]; · iexact HA
    iexact HB

/-- The class invariant with the two carried buffers owned as memrefs at some contents. -/
theorem PhiA4_eq (c : Dev nD) :
    (Pipeline.ΦA spec4 c : sProp 𝕄)
      = iprop((∃ d, owns (c : Thread nD τ) sums4 fullShare d) ∗ (∃ d, owns (c : Thread nD τ) cnts4 fullShare d) ∗ keep4 (F := F) c ∗ (∃ r, prngReg c r)) := by
  unfold Pipeline.ΦA keep4
  rw [Pipeline.scopedRest_split_of_list spec4 c [cc4_scratch0, cc4_scratch1] (by decide) (by decide)]
  simp only [bigSepL_cons_cons, bigSepL_singleton, sums4, cnts4, owns_whole]
  exact sep_regroup4 _ _ _ _

section
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the two carried buffers hold after point n: the sums and the counts of the row blocks 0..n. -/
def accAt4 (c : Dev nD) : (n : ℕ) → n < cfg4.N → Vec F S64x64 .f32 × Vec F S64x1 .f32
  | 0, h => (k4_pay4 (iblk4 V c 0 ⟨0, h⟩) (iblk4 V c 1 ⟨0, h⟩) (k4_pay1 (F := F)), k4_pay5 (iblk4 V c 1 ⟨0, h⟩) (k4_pay2 (F := F)))
  | n + 1, h => (k4_pay4 (iblk4 V c 0 ⟨n + 1, h⟩) (iblk4 V c 1 ⟨n + 1, h⟩) (accAt4 c n (Nat.lt_of_succ_lt h)).1,
      k4_pay5 (iblk4 V c 1 ⟨n + 1, h⟩) (accAt4 c n (Nat.lt_of_succ_lt h)).2)

theorem accAt4_zero (c : Dev nD) (h : 0 < cfg4.N) :
    accAt4 V c 0 h = (k4_pay4 (iblk4 V c 0 ⟨0, h⟩) (iblk4 V c 1 ⟨0, h⟩) (k4_pay1 (F := F)), k4_pay5 (iblk4 V c 1 ⟨0, h⟩) (k4_pay2 (F := F))) := rfl

theorem accAt4_succ (c : Dev nD) (n : ℕ) (h : n + 1 < cfg4.N) :
    accAt4 V c (n + 1) h = (k4_pay4 (iblk4 V c 0 ⟨n + 1, h⟩) (iblk4 V c 1 ⟨n + 1, h⟩) (accAt4 V c n (Nat.lt_of_succ_lt h)).1,
      k4_pay5 (iblk4 V c 1 ⟨n + 1, h⟩) (accAt4 V c n (Nat.lt_of_succ_lt h)).2) := rfl

/-- The head's result from the carried buffers after point t and the four head operands' blocks there. -/
def head4 (c : Dev nD) (t : Fin cfg4.N) : Vec F S64x1 .f32 :=
  k4_pay6 (accAt4 V c t.val t.isLt).1 (accAt4 V c t.val t.isLt).2 (iblk4 V c 2 t) (iblk4 V c 3 t) (iblk4 V c 4 t) (iblk4 V c 5 t)

/-- The invariant before position n: before the first point the class invariant (every scoped buffer at anything);
    afterwards the two carried buffers at what the point before left, the other scoped buffers at anything, the
    generator register at some state. -/
def PhiS4 (c : Dev nD) : (n : ℕ) → n ≤ cfg4.N → sProp 𝕄
  | 0, _ => Pipeline.ΦA spec4 c
  | n + 1, hn => iprop(owns (c : Thread nD τ) sums4 fullShare (accAt4 V c n hn).1 ∗ owns (c : Thread nD τ) cnts4 fullShare (accAt4 V c n hn).2
      ∗ keep4 c ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) sums4 fullShare (accAt4 V c n hn).1 ∗ owns (c : Thread nD τ) cnts4 fullShare (accAt4 V c n hn).2
      ∗ keep4 c ∗ (∃ r, prngReg c r)) := rfl

theorem PhiS4_pos (c : Dev nD) (n : ℕ) (h : n ≤ cfg4.N) (hz : n ≠ 0) :
    PhiS4 V c n h = iprop(owns (c : Thread nD τ) sums4 fullShare (accAt4 V c (n - 1) (by omega)).1 ∗ owns (c : Thread nD τ) cnts4 fullShare (accAt4 V c (n - 1) (by omega)).2
      ∗ keep4 c ∗ (∃ r, prngReg c r)) := by
  cases n with
  | zero => exact absurd rfl hz
  | succ n => rfl

/-- The proof data of the region on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => head4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = head4 V c t := by dsimp only [dat4]

theorem N4_eq : cfg4.N = 10 := N_4

theorem after4_6_last (c : Dev nD) (t : Fin cfg4.N) (ht : t.val = 9) :
    (dat4 V c).after 6 t = k4_pay6 (accAt4 V c 9 (by rw [N4_eq]; decide)).1 (accAt4 V c 9 (by rw [N4_eq]; decide)).2
      (iblk4 V c 2 t) (iblk4 V c 3 t) (iblk4 V c 4 t) (iblk4 V c 5 t) := by
  rw [after4_6]; obtain ⟨n, hn⟩ := t; cases ht; rfl

theorem PhiS4_castSucc (c : Dev nD) (t : Fin cfg4.N) :
    (dat4 V c).Φ t.castSucc = PhiS4 V c t.val (Nat.le_of_lt t.isLt) := by
  dsimp only [dat4]; simp only [Fin.coe_castSucc]

/-! ## What the body finds in the input windows' buffers: their blocks, fetched at the point or not -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-- The carried buffers after the first point, and after a later one. -/
theorem accAt4_first (c : Dev nD) (t : Fin cfg4.N) (h : t.val = 0) :
    accAt4 V c t.val t.isLt = (k4_pay4 (iblk4 V c 0 t) (iblk4 V c 1 t) (k4_pay1 (F := F)), k4_pay5 (iblk4 V c 1 t) (k4_pay2 (F := F))) := by
  obtain ⟨n, hn⟩ := t
  cases n with
  | zero => rfl
  | succ n => exact absurd h (Nat.succ_ne_zero n)

theorem accAt4_later (c : Dev nD) (t : Fin cfg4.N) (h : t.val ≠ 0) :
    accAt4 V c t.val t.isLt = (k4_pay4 (iblk4 V c 0 t) (iblk4 V c 1 t) (accAt4 V c (t.val - 1) (Nat.lt_of_le_of_lt (Nat.sub_le _ _) t.isLt)).1,
      k4_pay5 (iblk4 V c 1 t) (accAt4 V c (t.val - 1) (Nat.lt_of_le_of_lt (Nat.sub_le _ _) t.isLt)).2) := by
  obtain ⟨n, hn⟩ := t
  cases n with
  | zero => exact absurd rfl h
  | succ n => rfl

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

/-- An input window's buffer is handed back at its block. -/
theorem leaves4_0 (c : Dev nD) (t : Fin cfg4.N) : (dat4 V c).leavesExact 0 t = owns (c : Thread nD τ) (ms4_0 t) fullShare (iblk4 V c 0 t) := by
  unfold Dat.leavesExact; rw [live4_in 0 t (by decide), after4_0]
theorem leaves4_1 (c : Dev nD) (t : Fin cfg4.N) : (dat4 V c).leavesExact 1 t = owns (c : Thread nD τ) (ms4_1 t) fullShare (iblk4 V c 1 t) := by
  unfold Dat.leavesExact; rw [live4_in 1 t (by decide), after4_1]
theorem leaves4_2 (c : Dev nD) (t : Fin cfg4.N) : (dat4 V c).leavesExact 2 t = owns (c : Thread nD τ) (ms4_2 t) fullShare (iblk4 V c 2 t) := by
  unfold Dat.leavesExact; rw [live4_in 2 t (by decide), after4_2]
theorem leaves4_3 (c : Dev nD) (t : Fin cfg4.N) : (dat4 V c).leavesExact 3 t = owns (c : Thread nD τ) (ms4_3 t) fullShare (iblk4 V c 3 t) := by
  unfold Dat.leavesExact; rw [live4_in 3 t (by decide), after4_3]
theorem leaves4_4 (c : Dev nD) (t : Fin cfg4.N) : (dat4 V c).leavesExact 4 t = owns (c : Thread nD τ) (ms4_4 t) fullShare (iblk4 V c 4 t) := by
  unfold Dat.leavesExact; rw [live4_in 4 t (by decide), after4_4]
theorem leaves4_5 (c : Dev nD) (t : Fin cfg4.N) : (dat4 V c).leavesExact 5 t = owns (c : Thread nD τ) (ms4_5 t) fullShare (iblk4 V c 5 t) := by
  unfold Dat.leavesExact; rw [live4_in 5 t (by decide), after4_5]
/-- The result window's buffer is handed back as found at every point but the last, and there at the head's result. -/
theorem leaves4_6_idle (c : Dev nD) (t : Fin cfg4.N) (h : ¬isLast4 (grid4.coords t)) :
    (dat4 V c).leavesExact 6 t = iprop(∃ d, owns (c : Thread nD τ) (ms4_6 t) fullShare ((dat4 V c).before 6 t d)) :=
  Dat.leavesExact_idle (dat4 V c) 6 t (idle4_6 t h) (noFlush4_6 t h)
theorem leaves4_6_last (c : Dev nD) (t : Fin cfg4.N) (h : isLast4 (grid4.coords t)) :
    (dat4 V c).leavesExact 6 t = owns (c : Thread nD τ) (ms4_6 t) fullShare (head4 V c t) := by
  unfold Dat.leavesExact; rw [live4_6 t h, after4_6]

set_option maxHeartbeats 4000000 in
/-- The body at any point: the input windows' buffers hold their blocks; the point is the first, a middle one or the
    last; the invariant hands the body the two carried buffers (at anything at the first point, else at what the point
    before left) and takes them back at this point's contents; the result window's buffer is handed back untouched
    except at the last point, where it holds the head's result. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5]
  have hN : t.val < 10 := lt_of_lt_of_eq t.isLt N4_eq
  by_cases h0 : t.val = 0
  · have hl : ¬t.val = 9 := by omega
    have hc0 : isFirst4 (grid4.coords t) := (isFirst4_iff t).mpr h0
    have hc1 : ¬isLast4 (grid4.coords t) := fun h => hl ((isLast4_iff t).mp h)
    rw [leaves4_6_idle V c t hc1, accAt4_first V c t h0]
    rw [PhiS4_castSucc V c t, PhiS4_zero V c _ _ h0, PhiA4_eq]
    iintro ⟨⟨HS0, HS1, Hkeep, Hg⟩, Ho, ⟨%d0, H0⟩, ⟨%d1, H1⟩, ⟨%d2, H2⟩, ⟨%d3, H3⟩, ⟨%d4, H4⟩, ⟨%d5, H5⟩, H6⟩
    iapply (run4_first c (grid4.coords t) _ _ _ _ _ _ _ _ _ _ _ _ _ _ _ _ _ _ hc0 hc1 (iblk4 V c 0 t) (iblk4 V c 1 t) Set.univ _)
    isplitl [H0]; · iexact H0
    isplitl [H1]; · iexact H1
    isplitl [HS0]; · iexact HS0
    isplitl [HS1]; · iexact HS1
    iintro ⟨H0, H1, HS0, HS1⟩
    isplitl [HS0 HS1 Hkeep Hg]
    · isplitl [HS0]; · iexact HS0
      isplitl [HS1]; · iexact HS1
      isplitl [Hkeep]; · iexact Hkeep
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hl : t.val = 9
    · have hc0 : ¬isFirst4 (grid4.coords t) := fun h => h0 ((isFirst4_iff t).mp h)
      have hc1 : isLast4 (grid4.coords t) := (isLast4_iff t).mpr hl
      rw [leaves4_6_last V c t hc1]; unfold head4
      rw [accAt4_later V c t h0]
      rw [PhiS4_castSucc V c t, PhiS4_pos V c _ _ h0]
      iintro ⟨⟨HS0, HS1, Hkeep, Hg⟩, Ho, ⟨%d0, H0⟩, ⟨%d1, H1⟩, ⟨%d2, H2⟩, ⟨%d3, H3⟩, ⟨%d4, H4⟩, ⟨%d5, H5⟩, ⟨%d6, H6⟩⟩
      iapply (run4_last c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hkeep Hg]
      · isplitl [HS0]; · iexact HS0
        isplitl [HS1]; · iexact HS1
        isplitl [Hkeep]; · iexact Hkeep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬isFirst4 (grid4.coords t) := fun h => h0 ((isFirst4_iff t).mp h)
      have hc1 : ¬isLast4 (grid4.coords t) := fun h => hl ((isLast4_iff t).mp h)
      rw [leaves4_6_idle V c t hc1, accAt4_later V c t h0]
      rw [PhiS4_castSucc V c t, PhiS4_pos V c _ _ h0]
      iintro ⟨⟨HS0, HS1, Hkeep, Hg⟩, Ho, ⟨%d0, H0⟩, ⟨%d1, H1⟩, ⟨%d2, H2⟩, ⟨%d3, H3⟩, ⟨%d4, H4⟩, ⟨%d5, H5⟩, H6⟩
      iapply (run4_mid c (grid4.coords t) _ _ _ _ _ _ _ _ _ _ _ _ _ _ _ _ _ _ hc0 hc1 (iblk4 V c 0 t) (iblk4 V c 1 t) _ _ Set.univ _)
      isplitl [H0]; · iexact H0
      isplitl [H1]; · iexact H1
      isplitl [HS0]; · iexact HS0
      isplitl [HS1]; · iexact HS1
      iintro ⟨H0, H1, HS0, HS1⟩
      isplitl [HS0 HS1 Hkeep Hg]
      · isplitl [HS0]; · iexact HS0
        isplitl [HS1]; · iexact HS1
        isplitl [Hkeep]; · iexact Hkeep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the carried buffers' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last, N4_eq]; decide), PhiA4_eq]
  iintro ⟨HS0, HS1, Hkeep, Hg⟩
  isplitl [HS0]; · iexists _; iexact HS0
  isplitl [HS1]; · iexists _; iexact HS1
  isplitl [Hkeep]; · iexact Hkeep
  iexact Hg

end

end Cert.KernelIdeal.Hand

end
-- ==== Proof.RunAll.lean ====
/-
  The run of the whole program. @main is thirteen items: three stretches of host operations, the first dense
  projection (region 0), two stretches, the first bias-and-rectify pass (region 1), the second projection (region 2),
  two stretches, the second bias-and-rectify pass (region 3), one stretch, and the pooled head (region 4). The contents
  of every buffer of a core are named at every boundary between two items: a fold from the launch memory, a host
  stretch taking a valuation to the one its operations leave, a region changing its windows' arrays to what its
  write-backs leave and nothing else. Every argument array is read back through the fold to its launch contents, each
  region is a segment from the fold before it to the fold after it, and the launch over the thirteen segments says
  that every execution terminates with every unscoped buffer at the last fold.
-/
import proofs.«413692_j83004537962758_2_alg».proof.Proof.Gen.KernelIdeal.Launch
import proofs.«413692_j83004537962758_2_alg».proof.Proof.Gen.KernelIdeal.Skeleton
import proofs.«413692_j83004537962758_2_alg».proof.Proof.Gen.KernelIdeal.Points
import proofs.«413692_j83004537962758_2_alg».proof.Proof.Gen.KernelIdeal.Regions
import proofs.«413692_j83004537962758_2_alg».proof.Proof.Reg0
import proofs.«413692_j83004537962758_2_alg».proof.Proof.Reg1
import proofs.«413692_j83004537962758_2_alg».proof.Proof.Reg2
import proofs.«413692_j83004537962758_2_alg».proof.Proof.Reg3
import proofs.«413692_j83004537962758_2_alg».proof.Proof.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a region leaves in a core's buffers -/

section RegionStep

variable {cfg : Cfg sig Λ₀} (c : Dev nD) (V : Valuation τ sig (Elt F))
  (dat : Dat τ (Elt F) Unit ℕ (UR sig nD τ) ℕ cfg c)

/-- The buffers of core `c` after a region entered at `V` with proof data `dat`: each of its windows' arrays at what the
    pipeline leaves there (an input as it was entered, an output with every write-back folded in), every other buffer
    as the region found it. -/
def afterRegion : Valuation τ sig (Elt F) :=
  Pipeline.withArrays cfg.spec c V fun w => dat.arrAt w cfg.N

theorem afterRegion_arr (hinj : Function.Injective (Pipeline.arrRef cfg.spec)) (w : Fin cfg.W) :
    afterRegion c V dat (Proc.devRef .tc (Pipeline.arrRef cfg.spec w)) = dat.arrAt w cfg.N := by
  unfold afterRegion; exact Pipeline.withArrays_arr cfg.spec hinj c _ _ w

theorem afterRegion_of_ne (b : Ref sig .tc) (hb : ∀ w, Pipeline.arrRef cfg.spec w ≠ b) :
    afterRegion c V dat (Proc.devRef .tc b) = V (Proc.devRef .tc b) := by
  unfold afterRegion; exact Pipeline.withArrays_of_ne cfg.spec c _ _ b hb

/-- An input window's array is left as it was entered, when the proof data read their entry contents off `V`. -/
theorem afterRegion_in (hinj : Function.Injective (Pipeline.arrRef cfg.spec))
    (hA : ∀ w, dat.A w = V (Proc.devRef .tc (Pipeline.arrRef cfg.spec w))) (w : Fin cfg.W) (hw : (cfg.win w).isOut = false) :
    afterRegion c V dat (Proc.devRef .tc (Pipeline.arrRef cfg.spec w)) = V (Proc.devRef .tc (Pipeline.arrRef cfg.spec w)) :=
  (afterRegion_arr c V dat hinj w).trans ((dat.arrAt_in w hw _).trans (hA w))

/-- Every buffer that is no output window's array keeps its contents. -/
theorem afterRegion_kept (hinj : Function.Injective (Pipeline.arrRef cfg.spec))
    (hA : ∀ w, dat.A w = V (Proc.devRef .tc (Pipeline.arrRef cfg.spec w))) (r : Ref sig .tc)
    (h : ∀ w, (cfg.win w).isOut = true → Pipeline.arrRef cfg.spec w ≠ r) :
    afterRegion c V dat (Proc.devRef .tc r) = V (Proc.devRef .tc r) := by
  by_cases hr : ∃ w, Pipeline.arrRef cfg.spec w = r
  · obtain ⟨w, rfl⟩ := hr
    cases hw : (cfg.win w).isOut
    · exact afterRegion_in c V dat hinj hA w hw
    · exact absurd rfl (h w hw)
  · exact afterRegion_of_ne c V dat r fun w e => hr ⟨w, e⟩

/-- A buffer that is no window's array keeps its contents (the form the exit of a region takes it in). -/
theorem afterRegion_rest (b : Ref sig .tc) (hb : b ∉ Finset.univ.image (Pipeline.arrRef cfg.spec)) :
    afterRegion c V dat (Proc.devRef .tc b) = V (Proc.devRef .tc b) :=
  afterRegion_of_ne c V dat b fun w e => hb (Finset.mem_image.mpr ⟨w, Finset.mem_univ _, e⟩)

end RegionStep

variable (m : (ℓ : Loc nD τ sig) → Buf (Elt F) ℓ) (ρ : Dev nD → PrngReg)

/-! ## The contents of a core's buffers at each boundary: a fold through @main

`WJ` is what the core's buffers hold after item J−1 (`W0` at launch). `VJ` is `WJ` read at the TensorCore's
references, for the five boundaries at which a region is entered. -/

/-- Core `c`'s buffers at launch. -/
abbrev W0 : Dev nD → Valuation τ sig (Elt F) := fun c b => (s₀ m ρ).mem ((c : Dev nD), b)

/-- After the first stretch: the edge mask and the constants. -/
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the second stretch: the masked edge weights. -/
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After the third stretch: the edge indices brought into range. Region 0 is entered here. -/
abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
abbrev V3 : (c : Dev nD) → (b : Ref sig .tc) → Buf (Elt F) ((c : Thread nD τ).loc b) := fun c b => W3 m ρ c b

/-- After region 0, the first projection: `main_v32` holds the projected rows. -/
def W4 (c : Dev nD) : Valuation τ sig (Elt F) := afterRegion c (W3 m ρ c) (dat0 (V3 m ρ) c)
theorem W4_arr (c : Dev nD) (w : Fin cfg0.W) :
    W4 m ρ c (Proc.devRef .tc (Pipeline.arrRef spec0 w)) = (dat0 (V3 m ρ) c).arrAt w cfg0.N :=
  afterRegion_arr c _ _ launch0.win.arr_inj w
theorem W4_out (c : Dev nD) : W4 m ρ c (Proc.devRef .tc main_v32) = (dat0 (V3 m ρ) c).arrAt 2 cfg0.N := W4_arr m ρ c 2
theorem W4_kept (c : Dev nD) (r : Ref sig .tc) (h : r ≠ main_v32) :
    W4 m ρ c (Proc.devRef .tc r) = W3 m ρ c (Proc.devRef .tc r) :=
  afterRegion_kept c _ _ launch0.win.arr_inj (A_eq0 (V3 m ρ) c) r fun w hw => match w, hw with
    | ⟨0, _⟩, hw => absurd hw Bool.false_ne_true
    | ⟨1, _⟩, hw => absurd hw Bool.false_ne_true
    | ⟨2, _⟩, _ => fun e => h e.symm

/-- After the fourth stretch: the first aggregation over the edges. -/
abbrev W5 : Dev nD → Valuation τ sig (Elt F) := fun c => StableHlo.after hostOps1 (W4 m ρ c)
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- After the fifth stretch: the first layer's operands laid out. Region 1 is entered here. -/
abbrev W6 : Dev nD → Valuation τ sig (Elt F) := fun c => StableHlo.after hostOps1_1 (W5 m ρ c)
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h
abbrev V6 : (c : Dev nD) → (b : Ref sig .tc) → Buf (Elt F) ((c : Thread nD τ).loc b) := fun c b => W6 m ρ c b

/-- After region 1, the first layer's bias and rectification: `main_v41` holds the first layer's activations.
    Region 2 is entered here. -/
def W7 (c : Dev nD) : Valuation τ sig (Elt F) := afterRegion c (W6 m ρ c) (dat1 (V6 m ρ) c)
theorem W7_arr (c : Dev nD) (w : Fin cfg1.W) :
    W7 m ρ c (Proc.devRef .tc (Pipeline.arrRef spec1 w)) = (dat1 (V6 m ρ) c).arrAt w cfg1.N :=
  afterRegion_arr c _ _ launch1.win.arr_inj w
theorem W7_out (c : Dev nD) : W7 m ρ c (Proc.devRef .tc main_v41) = (dat1 (V6 m ρ) c).arrAt 2 cfg1.N := W7_arr m ρ c 2
theorem W7_kept (c : Dev nD) (r : Ref sig .tc) (h : r ≠ main_v41) :
    W7 m ρ c (Proc.devRef .tc r) = W6 m ρ c (Proc.devRef .tc r) :=
  afterRegion_kept c _ _ launch1.win.arr_inj (A_eq1 (V6 m ρ) c) r fun w hw => match w, hw with
    | ⟨0, _⟩, hw => absurd hw Bool.false_ne_true
    | ⟨1, _⟩, hw => absurd hw Bool.false_ne_true
    | ⟨2, _⟩, _ => fun e => h e.symm
abbrev V7 : (c : Dev nD) → (b : Ref sig .tc) → Buf (Elt F) ((c : Thread nD τ).loc b) := fun c b => W7 m ρ c b

/-- After region 2, the second projection: `main_v42` holds the projected activations. -/
def W8 (c : Dev nD) : Valuation τ sig (Elt F) := afterRegion c (W7 m ρ c) (dat2 (V7 m ρ) c)
theorem W8_arr (c : Dev nD) (w : Fin cfg2.W) :
    W8 m ρ c (Proc.devRef .tc (Pipeline.arrRef spec2 w)) = (dat2 (V7 m ρ) c).arrAt w cfg2.N :=
  afterRegion_arr c _ _ launch2.win.arr_inj w
theorem W8_out (c : Dev nD) : W8 m ρ c (Proc.devRef .tc main_v42) = (dat2 (V7 m ρ) c).arrAt 2 cfg2.N := W8_arr m ρ c 2
theorem W8_kept (c : Dev nD) (r : Ref sig .tc) (h : r ≠ main_v42) :
    W8 m ρ c (Proc.devRef .tc r) = W7 m ρ c (Proc.devRef .tc r) :=
  afterRegion_kept c _ _ launch2.win.arr_inj (A_eq2 (V7 m ρ) c) r fun w hw => match w, hw with
    | ⟨0, _⟩, hw => absurd hw Bool.false_ne_true
    | ⟨1, _⟩, hw => absurd hw Bool.false_ne_true
    | ⟨2, _⟩, _ => fun e => h e.symm

/-- After the sixth stretch: the second aggregation over the edges. -/
abbrev W9 : Dev nD → Valuation τ sig (Elt F) := fun c => StableHlo.after hostOps3 (W8 m ρ c)
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-- After the seventh stretch: the second layer's operands laid out. Region 3 is entered here. -/
abbrev W10 : Dev nD → Valuation τ sig (Elt F) := fun c => StableHlo.after hostOps3_1 (W9 m ρ c)
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h
abbrev V10 : (c : Dev nD) → (b : Ref sig .tc) → Buf (Elt F) ((c : Thread nD τ).loc b) := fun c b => W10 m ρ c b

/-- After region 3, the second layer's bias and rectification: `main_v51` holds the node embeddings. -/
def W11 (c : Dev nD) : Valuation τ sig (Elt F) := afterRegion c (W10 m ρ c) (dat3 (V10 m ρ) c)
theorem W11_arr (c : Dev nD) (w : Fin cfg3.W) :
    W11 m ρ c (Proc.devRef .tc (Pipeline.arrRef spec3 w)) = (dat3 (V10 m ρ) c).arrAt w cfg3.N :=
  afterRegion_arr c _ _ launch3.win.arr_inj w
theorem W11_out (c : Dev nD) : W11 m ρ c (Proc.devRef .tc main_v51) = (dat3 (V10 m ρ) c).arrAt 2 cfg3.N := W11_arr m ρ c 2
theorem W11_kept (c : Dev nD) (r : Ref sig .tc) (h : r ≠ main_v51) :
    W11 m ρ c (Proc.devRef .tc r) = W10 m ρ c (Proc.devRef .tc r) :=
  afterRegion_kept c _ _ launch3.win.arr_inj (A_eq3 (V10 m ρ) c) r fun w hw => match w, hw with
    | ⟨0, _⟩, hw => absurd hw Bool.false_ne_true
    | ⟨1, _⟩, hw => absurd hw Bool.false_ne_true
    | ⟨2, _⟩, _ => fun e => h e.symm

/-- After the eighth stretch: the head's operands laid out. Region 4 is entered here. -/
abbrev W12 : Dev nD → Valuation τ sig (Elt F) := fun c => StableHlo.after hostOps4 (W11 m ρ c)
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h
abbrev V12 : (c : Dev nD) → (b : Ref sig .tc) → Buf (Elt F) ((c : Thread nD τ).loc b) := fun c b => W12 m ρ c b

/-- After region 4, the pooled head: `main_v55` holds the program's result. The last boundary. -/
def W13 (c : Dev nD) : Valuation τ sig (Elt F) := afterRegion c (W12 m ρ c) (dat4 (V12 m ρ) c)
theorem W13_arr (c : Dev nD) (w : Fin cfg4.W) :
    W13 m ρ c (Proc.devRef .tc (Pipeline.arrRef spec4 w)) = (dat4 (V12 m ρ) c).arrAt w cfg4.N :=
  afterRegion_arr c _ _ launch4.win.arr_inj w
theorem W13_out (c : Dev nD) : W13 m ρ c (Proc.devRef .tc main_v55) = (dat4 (V12 m ρ) c).arrAt 6 cfg4.N := W13_arr m ρ c 6
theorem W13_kept (c : Dev nD) (r : Ref sig .tc) (h : r ≠ main_v55) :
    W13 m ρ c (Proc.devRef .tc r) = W12 m ρ c (Proc.devRef .tc r) :=
  afterRegion_kept c _ _ launch4.win.arr_inj (A_eq4 (V12 m ρ) c) r fun w hw => match w, hw with
    | ⟨0, _⟩, hw => absurd hw Bool.false_ne_true
    | ⟨1, _⟩, hw => absurd hw Bool.false_ne_true
    | ⟨2, _⟩, hw => absurd hw Bool.false_ne_true
    | ⟨3, _⟩, hw => absurd hw Bool.false_ne_true
    | ⟨4, _⟩, hw => absurd hw Bool.false_ne_true
    | ⟨5, _⟩, hw => absurd hw Bool.false_ne_true
    | ⟨6, _⟩, _ => fun e => h e.symm

/-! ## A buffer no item writes ends as launched -/

/-- What each of the thirteen items may write: a host stretch its operations' results, a region its result. -/
abbrev writtenBy : List (List (Ref sig .tc)) :=
  [hostOps0_W, hostOps0_1_W, hostOps0_2_W, [main_v32], hostOps1_W, hostOps1_1_W, [main_v41], [main_v42],
   hostOps3_W, hostOps3_1_W, [main_v51], hostOps4_W, [main_v55]]

/-- A reference no item writes holds at the last boundary what it held at launch: the fold walked back item by item. -/
theorem W13_unwritten (c : Dev nD) (r : Ref sig .tc) (h : ∀ l ∈ (writtenBy : List (List (Ref sig .tc))), r ∉ l) :
    W13 m ρ c (Proc.devRef .tc r) = m ((c : Thread nD τ).loc r) := by
  simp only [writtenBy, List.forall_mem_cons] at h
  obtain ⟨h1, h2, h3, h4, h5, h6, h7, h8, h9, h10, h11, h12, h13, -⟩ := h
  calc W13 m ρ c (Proc.devRef .tc r)
    _ = W12 m ρ c (Proc.devRef .tc r) := W13_kept m ρ c r (List.ne_of_not_mem_cons h13)
    _ = W11 m ρ c (Proc.devRef .tc r) := W12_of m ρ c r h12
    _ = W10 m ρ c (Proc.devRef .tc r) := W11_kept m ρ c r (List.ne_of_not_mem_cons h11)
    _ = W9 m ρ c (Proc.devRef .tc r) := W10_of m ρ c r h10
    _ = W8 m ρ c (Proc.devRef .tc r) := W9_of m ρ c r h9
    _ = W7 m ρ c (Proc.devRef .tc r) := W8_kept m ρ c r (List.ne_of_not_mem_cons h8)
    _ = W6 m ρ c (Proc.devRef .tc r) := W7_kept m ρ c r (List.ne_of_not_mem_cons h7)
    _ = W5 m ρ c (Proc.devRef .tc r) := W6_of m ρ c r h6
    _ = W4 m ρ c (Proc.devRef .tc r) := W5_of m ρ c r h5
    _ = W3 m ρ c (Proc.devRef .tc r) := W4_kept m ρ c r (List.ne_of_not_mem_cons h4)
    _ = W2 m ρ c (Proc.devRef .tc r) := W3_of m ρ c r h3
    _ = W1 m ρ c (Proc.devRef .tc r) := W2_of m ρ c r h2
    _ = W0 m ρ c (Proc.devRef .tc r) := W1_of m ρ c r h1
    _ = m ((c : Thread nD τ).loc r) := rfl

/-! ### The twelve argument arrays: no host stretch writes one, and a region that reads one reads it through an input
    window -/

theorem W13_main_arg0 (c : Dev nD) : W13 m ρ c (Proc.devRef .tc main_arg0) = m ((c : Thread nD τ).loc main_arg0) :=
  W13_unwritten m ρ c main_arg0 (by decide)
theorem W13_main_arg1 (c : Dev nD) : W13 m ρ c (Proc.devRef .tc main_arg1) = m ((c : Thread nD τ).loc main_arg1) :=
  W13_unwritten m ρ c main_arg1 (by decide)
theorem W13_main_arg2 (c : Dev nD) : W13 m ρ c (Proc.devRef .tc main_arg2) = m ((c : Thread nD τ).loc main_arg2) :=
  W13_unwritten m ρ c main_arg2 (by decide)
theorem W13_main_arg3 (c : Dev nD) : W13 m ρ c (Proc.devRef .tc main_arg3) = m ((c : Thread nD τ).loc main_arg3) :=
  W13_unwritten m ρ c main_arg3 (by decide)
theorem W13_main_arg4 (c : Dev nD) : W13 m ρ c (Proc.devRef .tc main_arg4) = m ((c : Thread nD τ).loc main_arg4) :=
  W13_unwritten m ρ c main_arg4 (by decide)
theorem W13_main_arg5 (c : Dev nD) : W13 m ρ c (Proc.devRef .tc main_arg5) = m ((c : Thread nD τ).loc main_arg5) :=
  W13_unwritten m ρ c main_arg5 (by decide)
theorem W13_main_arg6 (c : Dev nD) : W13 m ρ c (Proc.devRef .tc main_arg6) = m ((c : Thread nD τ).loc main_arg6) :=
  W13_unwritten m ρ c main_arg6 (by decide)
theorem W13_main_arg7 (c : Dev nD) : W13 m ρ c (Proc.devRef .tc main_arg7) = m ((c : Thread nD τ).loc main_arg7) :=
  W13_unwritten m ρ c main_arg7 (by decide)
theorem W13_main_arg8 (c : Dev nD) : W13 m ρ c (Proc.devRef .tc main_arg8) = m ((c : Thread nD τ).loc main_arg8) :=
  W13_unwritten m ρ c main_arg8 (by decide)
theorem W13_main_arg9 (c : Dev nD) : W13 m ρ c (Proc.devRef .tc main_arg9) = m ((c : Thread nD τ).loc main_arg9) :=
  W13_unwritten m ρ c main_arg9 (by decide)
theorem W13_main_arg10 (c : Dev nD) : W13 m ρ c (Proc.devRef .tc main_arg10) = m ((c : Thread nD τ).loc main_arg10) :=
  W13_unwritten m ρ c main_arg10 (by decide)
theorem W13_main_arg11 (c : Dev nD) : W13 m ρ c (Proc.devRef .tc main_arg11) = m ((c : Thread nD τ).loc main_arg11) :=
  W13_unwritten m ρ c main_arg11 (by decide)

/-! ## The proof data family, and what rides beside the buffers -/

/-- Every pipeline's proof data, each at the contents its region is entered at. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V7 m ρ) c
  | ⟨3, _⟩ => fun c => dat3 (V10 m ρ) c
  | ⟨4, _⟩ => fun c => dat4 (V12 m ρ) c

/-- No variant, and no level assigned: no core owes another anything. -/
abbrev noVariants : Variants := Variants.none
abbrev noPairs : GSem nD τ sig → Finset Unit := fun _ => ∅
abbrev noLevel : GSem nD τ sig → Unit → ℕ := fun _ _ => 0

/-- What rides beside the buffers through every item: the core's generator register at some state (a region's
    invariant takes it in and gives it back), and the core owing nothing. -/
abbrev Ride (c : Dev nD) : sProp 𝕄 :=
  iprop((∃ r, prngReg c r) ∗ ∃ W, owes (c : Thread nD τ) (0 : CellTallies nD τ sig Unit) W)

/-- The thread state at a boundary: every unscoped buffer at the boundary's contents, and what rides along. -/
abbrev At (W : Dev nD → Valuation τ sig (Elt F)) (c : Dev nD) : sProp 𝕄 :=
  iprop(StableHlo.held (c : Thread nD τ) (Pipeline.ucRefs τ sig) (W c) ∗ Ride c)

/-- A host stretch as a segment from the boundary before it: it runs to the unscoped buffers at what its operations
    leave, which is the next boundary's contents by name. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A region as a segment between two boundaries -/

set_option backward.isDefEq.respectTransparency.types false in
/-- Region `p` of this program as a segment from the boundary `Wi` to the boundary `We`, given: its body obligation; that
    its proof data hold every input at the full share, owe nothing, bound the recorded pairs by nothing, and read their entry contents off `Wi`; that their
    invariant is entered from the class invariant and left to it; and that `We` has the region's arrays at what the
    pipeline leaves and agrees with `Wi` elsewhere. At entry the arrays are split out of the unscoped buffers, the
    generator register goes into the invariant; at exit both come back, the arrays at `We`. The kernel has no semaphore
    of its own, and no prefetched table. -/
def regionSeg (p : Fin 5) (lf : Pipeline.LaunchFacts (nD := nD) (τ := τ) cfgs p)
    (Wi We : Dev nD → Valuation τ sig (Elt F))
    (hbody : ∀ c, BodyObligation (pdats m ρ p c) (defs₀ (F := F)) noVariants () Set.univ)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Wi c (Proc.devRef .tc (Pipeline.arrRef (cfgs p).spec w)))
    (hΦin : ∀ c, Pipeline.ΦA (cfgs p).spec c ⊢ (pdats m ρ p c).Φ 0)
    (hΦout : ∀ c, (pdats m ρ p c).Φ (Fin.last (cfgs p).N) ⊢ Pipeline.ΦA (cfgs p).spec c)
    (hF : ∀ c w, (pdats m ρ p c).arrAt w (cfgs p).N = We c (Proc.devRef .tc (Pipeline.arrRef (cfgs p).spec w)))
    (hrest : ∀ c (b : Ref sig .tc), b ∉ Finset.univ.image (Pipeline.arrRef (cfgs p).spec) →
      We c (Proc.devRef .tc b) = Wi c (Proc.devRef .tc b)) :
    Pipeline.RegionSeg (pcfgs (F := F)) adm (pdats m ρ) () defs₀ noVariants noPairs noLevel p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noPairs noLevel p howed
  pre := At Wi
  post := At We
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun _ _ => Or.inl (by rw [hrec c 0]; exact Set.mem_univ _)
      iexact HO
    isplitl [Hp]; · iexact Hp
    iexact Hrest
  hin c := by
    iintro ⟨Hp, -, Hr⟩
    iapply (hΦin c)
    unfold Pipeline.ΦA
    isplitl [Hr]; · iexact Hr
    iexact Hp
  hout c := by
    rw [Pipeline.ownSems0_none]
    iintro Hinv
    ihave H := (hΦout c) $$ Hinv
    unfold Pipeline.ΦA
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => We c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-! ## The five regions -/

/-- Region 0, the first projection: from the third stretch's boundary to `W4`. -/
def reg0 : Pipeline.RegionSeg (pcfgs (F := F)) adm (pdats m ρ) () defs₀ noVariants noPairs noLevel 0 :=
  regionSeg m ρ 0 launch0 (W3 m ρ) (W4 m ρ) (fun c => body_obligation0 (V3 m ρ) c) (fun _ _ => rfl) (fun _ _ => rfl) (fun _ _ => rfl)
    (fun c => A_eq0 (V3 m ρ) c) (fun _ => .rfl) (fun _ => .rfl) (fun c w => (W4_arr m ρ c w).symm)
    (fun c => afterRegion_rest c _ _)

/-- Region 1, the first layer's bias and rectification: from the fifth stretch's boundary to `W7`. -/
def reg1 : Pipeline.RegionSeg (pcfgs (F := F)) adm (pdats m ρ) () defs₀ noVariants noPairs noLevel 1 :=
  regionSeg m ρ 1 launch1 (W6 m ρ) (W7 m ρ) (fun c => body_obligation1 (V6 m ρ) c) (fun _ _ => rfl) (fun _ _ => rfl) (fun _ _ => rfl)
    (fun c => A_eq1 (V6 m ρ) c) (fun _ => .rfl) (fun _ => .rfl) (fun c w => (W7_arr m ρ c w).symm)
    (fun c => afterRegion_rest c _ _)

/-- Region 2, the second projection: entered where region 1 leaves, to `W8`. -/
def reg2 : Pipeline.RegionSeg (pcfgs (F := F)) adm (pdats m ρ) () defs₀ noVariants noPairs noLevel 2 :=
  regionSeg m ρ 2 launch2 (W7 m ρ) (W8 m ρ) (fun c => body_obligation2 (V7 m ρ) c) (fun _ _ => rfl) (fun _ _ => rfl) (fun _ _ => rfl)
    (fun c => A_eq2 (V7 m ρ) c) (fun _ => .rfl) (fun _ => .rfl) (fun c w => (W8_arr m ρ c w).symm)
    (fun c => afterRegion_rest c _ _)

/-- Region 3, the second layer's bias and rectification: from the seventh stretch's boundary to `W11`. -/
def reg3 : Pipeline.RegionSeg (pcfgs (F := F)) adm (pdats m ρ) () defs₀ noVariants noPairs noLevel 3 :=
  regionSeg m ρ 3 launch3 (W10 m ρ) (W11 m ρ) (fun c => body_obligation3 (V10 m ρ) c) (fun _ _ => rfl) (fun _ _ => rfl) (fun _ _ => rfl)
    (fun c => A_eq3 (V10 m ρ) c) (fun _ => .rfl) (fun _ => .rfl) (fun c w => (W11_arr m ρ c w).symm)
    (fun c => afterRegion_rest c _ _)

/-- Region 4, the pooled head: from the eighth stretch's boundary to the last. Its invariant carries the running pooled
    sum between grid points; it is entered from the class invariant and left to it. -/
def reg4 : Pipeline.RegionSeg (pcfgs (F := F)) adm (pdats m ρ) () defs₀ noVariants noPairs noLevel 4 :=
  regionSeg m ρ 4 launch4 (W12 m ρ) (W13 m ρ) (fun c => body_obligation4 (V12 m ρ) c) (fun _ _ => rfl) (fun _ _ => rfl) (fun _ _ => rfl)
    (fun c => A_eq4 (V12 m ρ) c) (fun c => hin4 (V12 m ρ) c) (fun c => hout4 (V12 m ρ) c) (fun c w => (W13_arr m ρ c w).symm)
    (fun c => afterRegion_rest c _ _)

/-! ## @main as thirteen segments, and the launch -/

/-- @main's items in order: each host stretch from the boundary before it, each region between its two boundaries. -/
abbrev segs : List (Pipeline.Seg (pcfgs (F := F)) adm (pdats m ρ) () defs₀ noVariants noPairs noLevel) :=
  [ .host (hostSeg hostOps0 hostOps0_sub hostOps0_fresh (W0 m ρ)),
    .host (hostSeg hostOps0_1 hostOps0_1_sub hostOps0_1_fresh (W1 m ρ)),
    .host (hostSeg hostOps0_2 hostOps0_2_sub hostOps0_2_fresh (W2 m ρ)),
    .region (reg0 m ρ),
    .host (hostSeg hostOps1 hostOps1_sub hostOps1_fresh (W4 m ρ)),
    .host (hostSeg hostOps1_1 hostOps1_1_sub hostOps1_1_fresh (W5 m ρ)),
    .region (reg1 m ρ),
    .region (reg2 m ρ),
    .host (hostSeg hostOps3 hostOps3_sub hostOps3_fresh (W8 m ρ)),
    .host (hostSeg hostOps3_1 hostOps3_1_sub hostOps3_1_fresh (W9 m ρ)),
    .region (reg3 m ρ),
    .host (hostSeg hostOps4 hostOps4_sub hostOps4_fresh (W11 m ρ)),
    .region (reg4 m ρ) ]

/-- The last thread state beside the core owing nothing: every unscoped buffer at the last boundary's contents, the
    generator register at some state. -/
abbrev AtEnd (c : Dev nD) : sProp 𝕄 :=
  iprop(StableHlo.held (c : Thread nD τ) (Pipeline.ucRefs τ sig) (W13 m ρ c) ∗ ∃ r, prngReg c r)

/-- The last boundary's thread state, regrouped as the launch reads it: the buffers and the generator register beside
    the core owing nothing. -/
theorem at_end (c : Dev nD) :
    At (W13 m ρ) c ⊢ iprop(AtEnd m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN, at any post that follows from the last boundary: at the compiled mesh, from any memory with zero
    counters, every weakly fair execution of @main on the TensorCores terminates, nothing faulting, and every final
    memory has every unscoped buffer of every core at the last fold `W13`. @main is the chain of its items and the
    segments' run is the chain of their fragments; the thread states chain by name; the launch deals each core its
    unscoped buffers at the launch contents, its generator register and nothing owed; the last thread state is read
    against the final state. -/
theorem run_to {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ noVariants noPairs noLevel m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m ρ)) (Tₙ := AtEnd m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => at_end m ρ c⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- Every execution terminates with every unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  run_to m ρ fun _ h => h

/-- The twelve argument arrays, read off a final memory that has every unscoped buffer at the last fold. -/
theorem args_as_launched (s : MemSt nD τ sig (Elt F))
    (h : ∀ c : Dev nD, ∀ b ∈ Pipeline.ucRefs τ sig, s.mem (((c : Thread nD τ)).1, b) = W13 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11) :=
  ⟨(h c _ (mem_uc main_arg0 (by decide))).trans (W13_main_arg0 m ρ c),
   (h c _ (mem_uc main_arg1 (by decide))).trans (W13_main_arg1 m ρ c),
   (h c _ (mem_uc main_arg2 (by decide))).trans (W13_main_arg2 m ρ c),
   (h c _ (mem_uc main_arg3 (by decide))).trans (W13_main_arg3 m ρ c),
   (h c _ (mem_uc main_arg4 (by decide))).trans (W13_main_arg4 m ρ c),
   (h c _ (mem_uc main_arg5 (by decide))).trans (W13_main_arg5 m ρ c),
   (h c _ (mem_uc main_arg6 (by decide))).trans (W13_main_arg6 m ρ c),
   (h c _ (mem_uc main_arg7 (by decide))).trans (W13_main_arg7 m ρ c),
   (h c _ (mem_uc main_arg8 (by decide))).trans (W13_main_arg8 m ρ c),
   (h c _ (mem_uc main_arg9 (by decide))).trans (W13_main_arg9 m ρ c),
   (h c _ (mem_uc main_arg10 (by decide))).trans (W13_main_arg10 m ρ c),
   (h c _ (mem_uc main_arg11 (by decide))).trans (W13_main_arg11 m ρ c)⟩

/-- The frame: every execution terminates and every final memory holds each argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_to m ρ fun s h c => args_as_launched m ρ s h c

/-- The result: every execution terminates, every final memory holds in `main_v55` what the last fold names there,
    and each argument array as launched. -/
theorem result_all : θ_run defs (onTc (τ := τ) (main (F := F))) ⟨m, fun _ => 0, ρ⟩ (fun r => ∀ c : Dev nD,
      r.2.mem ((c.tc : Thread nD τ).loc main_v55) = W13 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_to m ρ fun s h c => ⟨h c _ (mem_uc main_v55 (by decide)), args_as_launched m ρ s h c⟩

end Cert.KernelIdeal.Hand

end
-- ==== Proof.KReg0.lean ====
/-
  Region 0 of the program: the first dense projection, one row block of x (10000 × 128) times the whole weight
  matrix (128 × 64) per grid point, written to the matching row block of the result. Stated at a parameter V, the
  contents of the core's buffers when the region is entered.
-/
import proofs.«413692_j83004537962758_2_alg».proof.Proof.Gen.Kernel.Launch
import proofs.«413692_j83004537962758_2_alg».proof.Proof.Gen.Kernel.Skeleton
import proofs.«413692_j83004537962758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x128 := Rect.unit (s := S10000x128) ![0, 0] S10000x128.size inb_S10000x128_S10000x128_0_0
abbrev r0_w : Rect S128x64 := Rect.unit (s := S128x64) ![0, 0] S128x64.size inb_S128x64_S128x64_0_0
abbrev r0_o : Rect S10000x64 := Rect.unit (s := S10000x64) ![0, 0] S10000x64.size inb_S10000x64_S10000x64_0_0

/-- What the body leaves in the output window's buffer: the product of the row block and the weights, stored whole. -/
def out0_2 (x0 : Vec F S10000x128 .f32) (x1 : Vec F S128x64 .f32) : Vec F S10000x64 .f32 :=
  View.canon [⟨r0_o, k0_pay1 (View.ld x0 r0_x) (View.ld x1 r0_w)⟩]

/-- The proof data of the region on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The row block's staging buffer holds the block of x at every point: the window is an input the body leaves in
    place, its index map moves with the point and it is fetched wherever the index moved. -/
theorem rows_staged0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]
  · unfold Dat.fetched Dat.blockOf iblk0; rw [A_eq0]; rfl

/-- The weights' staging buffer holds the whole matrix at every point, although it is fetched at the first point
    only: the index map is constant, so an unfetched point finds what the previous one left, and the body leaves
    the matrix as it found it. -/
theorem weights_staged0 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A_eq0]
  · unfold Dat.fetched Dat.blockOf iblk0; rw [A_eq0]; rfl

/-- The single whole-block store covers the output buffer. -/
theorem store_covers0 (p : Vec F S10000x64 .f32) (y : S10000x64.Idx) :
    ∃ pc ∈ ([⟨r0_o, p⟩] : List (View.Piece (Elt F) S10000x64 .f32)), y ∈ pc.1.set :=
  View.cover_of_tiled [⟨r0_o, p⟩] S10000x64.size (by rfl) y

set_option maxHeartbeats 1000000 in
/-- The kernel on whole staging memrefs: with the row block at x, the weights at w and the output at anything, it
    runs to the continuation with both inputs as they were and the output at the stored product. -/
theorem sound_matmul0 (c : Dev nD) (E : Set ℕ) (i : grid0.Coords)
    (a1 : Memref sig .tc .vmem S10000x128 .f32) (h1 : a1.IsWhole)
    (a2 : Memref sig .tc .vmem S128x64 .f32) (h2 : a2.IsWhole)
    (a3 : Memref sig .tc .vmem S10000x64 .f32) (h3 : a3.IsWhole)
    (x : Vec F S10000x128 .f32) (w : Vec F S128x64 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (out0_2 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers0 _)

/-- What the body is called with at point t: the invariant, what the core owes, and the three current staging
    buffers at what they then hold. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debts, the inputs' buffers in place and the output's at the product. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks, so the kernel's triple applies; the invariant and
    the core's debts pass through unread. -/
theorem sound_at0 (c : Dev nD) (t : Fin cfg0.N) :
    pre0 V c t ⊢ wp frame (wpE (defs₀ (F := F)) Variants.none c none) Set.univ (bodyAt0 t) (fun _ => post0 V c t) := by
  unfold pre0 post0 bodyAt0
  simp only [rows_staged0, weights_staged0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_matmul0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_at0 V c t

end

end Cert.Kernel.Hand

end
-- ==== Proof.KReg1.lean ====
/-
  Region 1 of the program: the bias and rectifier step after the first aggregation. Each grid point takes one row
  block (10000 × 64) of the aggregated messages, adds the bias row (1 × 64) to every row, takes the maximum with
  zero, and writes the result to the matching row block of the output. Stated at a parameter V, the contents of
  the core's buffers when the region is entered.
-/
import proofs.«413692_j83004537962758_2_alg».proof.Proof.Gen.Kernel.Launch
import proofs.«413692_j83004537962758_2_alg».proof.Proof.Gen.Kernel.Skeleton
import proofs.«413692_j83004537962758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S10000x64 := Rect.unit (s := S10000x64) ![0, 0] S10000x64.size inb_S10000x64_S10000x64_0_0
abbrev r1_b : Rect S1x64 := Rect.unit (s := S1x64) ![0, 0] S1x64.size inb_S1x64_S1x64_0_0
abbrev r1_o : Rect S10000x64 := Rect.unit (s := S10000x64) ![0, 0] S10000x64.size inb_S10000x64_S10000x64_0_0

/-- What the body leaves in the output window's buffer: the row block plus the bias row, cut off below at zero,
    stored whole. -/
def out1_2 (x0 : Vec F S10000x64 .f32) (x1 : Vec F S1x64 .f32) : Vec F S10000x64 .f32 :=
  View.canon [⟨r1_o, k1_pay1 (View.ld x0 r1_a) (View.ld x1 r1_b)⟩]

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The row block's staging buffer holds the point's row block of the aggregated messages, for any proof data whose
    array is the entry contents and whose body leaves that block in place: it is fetched at every point. -/
theorem rows_found1 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The bias row's staging buffer holds the bias row at every point, although it is fetched at the first point
    only: its block index never moves, and the body leaves the row in place. -/
theorem bias_found1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- The one store writes the whole output block, so it covers the output buffer. -/
theorem store_covers1 (p : Vec F S10000x64 .f32) (y : S10000x64.Idx) :
    ∃ pc ∈ ([⟨r1_o, p⟩] : List (View.Piece (Elt F) S10000x64 .f32)), y ∈ pc.1.set :=
  View.cover_of_tiled [⟨r1_o, p⟩] S10000x64.size (by rfl) y

set_option maxHeartbeats 1000000 in
/-- The body on whole staging memrefs: with the row block's buffer reading a, the bias row's reading b, and the
    output's holding anything, it runs to a state with the two inputs as they were and the output reading
    max (a + b broadcast down the rows) 0, stored whole. -/
theorem bias_relu_triple1 (c : Dev nD) (E : Set ℕ) (i : grid1.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (a : Vec F S10000x64 .f32) (b : Vec F S1x64 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (out1_2 a b)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%fa, %hfa, Ha⟩, ⟨%fb, %hfb, Hb⟩, ⟨%d, %fo, -, Ho⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (store_covers1 _)

theorem before1_0 (c : Dev nD) (t : Fin cfg1.N) (d) : (dat1 V c).before 0 t d = iblk1 V c 0 t :=
  rows_found1 V (dat1 V c) (A_eq1 V c 0) (after1_0 V c) t d
theorem before1_1 (c : Dev nD) (t : Fin cfg1.N) (d) : (dat1 V c).before 1 t d = iblk1 V c 1 t :=
  bias_found1 V (dat1 V c) (A_eq1 V c 1) (after1_1 V c) t d

/-- What the body is handed at point t: the invariant, the core's debts, and the three windows' current staging
    buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their blocks, so the triple applies; the invariant and the
    debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Hw, ⟨%d0, H0⟩, ⟨%d1, H1⟩, ⟨%d2, H2⟩⟩
  iapply (bias_relu_triple1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KReg2.lean ====
/-
  Region 2 of the program: the second dense projection, one row block of the hidden features (10000 × 64) times
  the whole weight matrix (64 × 64) per grid point, written to the matching row block of the result. Stated at a
  parameter V, the contents of the core's buffers when the region is entered.
-/
import proofs.«413692_j83004537962758_2_alg».proof.Proof.Gen.Kernel.Launch
import proofs.«413692_j83004537962758_2_alg».proof.Proof.Gen.Kernel.Skeleton
import proofs.«413692_j83004537962758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S10000x64 := Rect.unit (s := S10000x64) ![0, 0] S10000x64.size inb_S10000x64_S10000x64_0_0
abbrev r2_w : Rect S64x64 := Rect.unit (s := S64x64) ![0, 0] S64x64.size inb_S64x64_S64x64_0_0
abbrev r2_o : Rect S10000x64 := Rect.unit (s := S10000x64) ![0, 0] S10000x64.size inb_S10000x64_S10000x64_0_0

/-- What the body leaves in the output window's buffer: the product of the row block and the weights, stored whole. -/
def out2_2 (x0 : Vec F S10000x64 .f32) (x1 : Vec F S64x64 .f32) : Vec F S10000x64 .f32 :=
  View.canon [⟨r2_o, k2_pay1 (View.ld x0 r2_x) (View.ld x1 r2_w)⟩]

/-- The proof data of the region on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The row block's staging buffer holds the block of the hidden features at every point: the window is an input
    the body leaves in place, its index map moves with the point and it is fetched wherever the index moved. -/
theorem rows_staged2 (c : Dev nD) (t : Fin cfg2.N) (d) : (dat2 V c).before 0 t d = iblk2 V c 0 t := by
  refine ((dat2 V c).before_in_eq_fetched 0 rfl (fun _ => rfl) (fun _ _ _ => rfl) (fun s => ?_) t d).trans ?_
  · rw [after2_0]; unfold Dat.blockOf iblk2; rw [A_eq2]
  · unfold Dat.fetched Dat.blockOf iblk2; rw [A_eq2]; rfl

/-- The square weight matrix's staging buffer holds the whole matrix at every point, although it is fetched at the
    first point only: the index map is constant, so an unfetched point finds what the previous one left, and the
    body leaves the matrix as it found it. -/
theorem weights_staged2 (c : Dev nD) (t : Fin cfg2.N) (d) : (dat2 V c).before 1 t d = iblk2 V c 1 t := by
  refine ((dat2 V c).before_in_eq_fetched 1 rfl (fun _ => rfl) (fun _ _ _ => rfl) (fun s => ?_) t d).trans ?_
  · rw [after2_1]; unfold Dat.blockOf iblk2; rw [A_eq2]
  · unfold Dat.fetched Dat.blockOf iblk2; rw [A_eq2]; rfl

/-- The single whole-block store covers the output buffer. -/
theorem store_covers2 (p : Vec F S10000x64 .f32) (y : S10000x64.Idx) :
    ∃ pc ∈ ([⟨r2_o, p⟩] : List (View.Piece (Elt F) S10000x64 .f32)), y ∈ pc.1.set :=
  View.cover_of_tiled [⟨r2_o, p⟩] S10000x64.size (by rfl) y

set_option maxHeartbeats 1000000 in
/-- The kernel on whole staging memrefs: with the row block at x, the weights at w and the output at anything, it
    runs to the continuation with both inputs as they were and the output at the stored product (the payload
    holds the reshape to the same shape that precedes the truncation). -/
theorem sound_matmul2 (c : Dev nD) (E : Set ℕ) (i : grid2.Coords)
    (a1 : Memref sig .tc .vmem S10000x64 .f32) (h1 : a1.IsWhole)
    (a2 : Memref sig .tc .vmem S64x64 .f32) (h2 : a2.IsWhole)
    (a3 : Memref sig .tc .vmem S10000x64 .f32) (h3 : a3.IsWhole)
    (x : Vec F S10000x64 .f32) (w : Vec F S64x64 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (out2_2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers2 _)

/-- What the body is called with at point t: the invariant, what the core owes, and the three current staging
    buffers at what they then hold. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it returns: the same invariant and debts, the inputs' buffers in place and the output's at the product. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both inputs' buffers hold their blocks, so the kernel's triple applies; the invariant and
    the core's debts pass through unread. -/
theorem sound_at2 (c : Dev nD) (t : Fin cfg2.N) :
    pre2 V c t ⊢ wp frame (wpE (defs₀ (F := F)) Variants.none c none) Set.univ (bodyAt2 t) (fun _ => post2 V c t) := by
  unfold pre2 post2 bodyAt2
  simp only [rows_staged2, weights_staged2]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_matmul2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation2 (c : Dev nD) : BodyObligation (dat2 (F := F) V c) (defs₀ (F := F)) Variants.none () Set.univ := fun t => by
  rw [bigSep_W2, bigSep_W2]
  exact sound_at2 V c t

end

end Cert.Kernel.Hand

end
-- ==== Proof.KReg3.lean ====
/-
  Region 3 of the program: the bias and rectifier step after the second aggregation. Each grid point takes one row
  block (10000 × 64) of the aggregated messages, adds the bias row (1 × 64) to every row, takes the maximum with
  zero, and writes the result to the matching row block of the output. Stated at a parameter V, the contents of
  the core's buffers when the region is entered.
-/
import proofs.«413692_j83004537962758_2_alg».proof.Proof.Gen.Kernel.Launch
import proofs.«413692_j83004537962758_2_alg».proof.Proof.Gen.Kernel.Skeleton
import proofs.«413692_j83004537962758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S10000x64 := Rect.unit (s := S10000x64) ![0, 0] S10000x64.size inb_S10000x64_S10000x64_0_0
abbrev r3_b : Rect S1x64 := Rect.unit (s := S1x64) ![0, 0] S1x64.size inb_S1x64_S1x64_0_0
abbrev r3_o : Rect S10000x64 := Rect.unit (s := S10000x64) ![0, 0] S10000x64.size inb_S10000x64_S10000x64_0_0

/-- What the body leaves in the output window's buffer: the row block plus the bias row, cut off below at zero,
    stored whole. -/
def out3_2 (x0 : Vec F S10000x64 .f32) (x1 : Vec F S1x64 .f32) : Vec F S10000x64 .f32 :=
  View.canon [⟨r3_o, k3_pay1 (View.ld x0 r3_a) (View.ld x1 r3_b)⟩]

/-- The proof data of the region on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The row block's staging buffer holds the point's row block of the aggregated messages, for any proof data whose
    array is the entry contents and whose body leaves that block in place: it is fetched at every point. -/
theorem rows_found3 {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  rw [dat.before_in_eq_fetched 0 rfl (fun _ => rfl) (fun _ _ _ => rfl) hkeep t d]
  unfold Dat.fetched Dat.blockOf iblk3; rw [hA]; try rfl

/-- The bias row's staging buffer holds the bias row at every point, although it is fetched at the first point
    only: its block index never moves, and the body leaves the row in place. -/
theorem bias_found3 {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  rw [dat.before_in_eq_fetched 1 rfl (fun _ => rfl) (fun _ _ _ => rfl) hkeep t d]
  unfold Dat.fetched Dat.blockOf iblk3; rw [hA]; try rfl

/-- The one store writes the whole output block, so it covers the output buffer. -/
theorem store_covers3 (p : Vec F S10000x64 .f32) (y : S10000x64.Idx) :
    ∃ pc ∈ ([⟨r3_o, p⟩] : List (View.Piece (Elt F) S10000x64 .f32)), y ∈ pc.1.set :=
  View.cover_of_tiled [⟨r3_o, p⟩] S10000x64.size (by rfl) y

set_option maxHeartbeats 1000000 in
/-- The body on whole staging memrefs: with the row block's buffer reading a, the bias row's reading b, and the
    output's holding anything, it runs to a state with the two inputs as they were and the output reading
    max (a + b broadcast down the rows) 0, stored whole. -/
theorem bias_relu_triple3 (c : Dev nD) (E : Set ℕ) (i : grid3.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (a : Vec F S10000x64 .f32) (b : Vec F S1x64 .f32) (K : PUnit → sProp 𝕄) :
    iprop(owns (c : Thread nD τ) arg1 fullShare a ∗ owns (c : Thread nD τ) arg2 fullShare b
        ∗ (∃ d, owns (c : Thread nD τ) arg3 fullShare d)
        ∗ (iprop(owns (c : Thread nD τ) arg1 fullShare a ∗ owns (c : Thread nD τ) arg2 fullShare b
            ∗ owns (c : Thread nD τ) arg3 fullShare (out3_2 a b)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%fa, %hfa, Ha⟩, ⟨%fb, %hfb, Hb⟩, ⟨%d, %fo, -, Ho⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Ho
  ipureintro
  exact View.read_writes_eq_canon _ _ _ (store_covers3 _)

theorem before3_0 (c : Dev nD) (t : Fin cfg3.N) (d) : (dat3 V c).before 0 t d = iblk3 V c 0 t :=
  rows_found3 V (dat3 V c) (A_eq3 V c 0) (after3_0 V c) t d
theorem before3_1 (c : Dev nD) (t : Fin cfg3.N) (d) : (dat3 V c).before 1 t d = iblk3 V c 1 t :=
  bias_found3 V (dat3 V c) (A_eq3 V c 1) (after3_1 V c) t d

/-- What the body is handed at point t: the invariant, the core's debts, and the three windows' current staging
    buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two input buffers hold their blocks, so the triple applies; the invariant and the
    debts pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Hw, ⟨%d0, H0⟩, ⟨%d1, H1⟩, ⟨%d2, H2⟩⟩
  iapply (bias_relu_triple3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Hw]; · iexact Hw
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.KReg4.lean ====
/-
  Region 4 of the program: the mean pool over the graphs and the two-layer head. Ten grid points; at each the
  row block of node features (10000 × 64) and the matching block of graph ids (10000 × 1) are turned into the
  one-hot matrix of the ids against 0..63, whose transposed products with the features and with a column of ones
  are added to two carried buffers (the per-graph sums, 64 × 64, and the per-graph counts, 64 × 1); point 0 first
  resets both to zero; point 9, after its own addition, divides the sums by the counts (floored at one), applies the
  head and stores the 64 × 1 result. Stated at a parameter V, the contents of the core's buffers when the region is
  entered.
-/
import proofs.«413692_j83004537962758_2_alg».proof.Proof.Gen.Kernel.Launch
import proofs.«413692_j83004537962758_2_alg».proof.Proof.Gen.Kernel.Skeleton
import proofs.«413692_j83004537962758_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two carried buffers, whole. -/
abbrev sums4 : Memref sig .tc .vmem S64x64 .f32 := Memref.whole cc4_scratch0
abbrev cnts4 : Memref sig .tc .vmem S64x1 .f32 := Memref.whole cc4_scratch1

/-- The core's scoped buffers other than this region's staging buffers and its two carried buffers, each at some contents. -/
def keep4 (c : Dev nD) : sProp 𝕄 :=
  Pipeline.scopedRestBut (Ix := Unit) (Name := ℕ) (U := UR sig nD τ) (Lvl := ℕ) (Val := Elt F) spec4 c [cc4_scratch0, cc4_scratch1]

/-! ## Whole-buffer loads and stores -/

theorem zeros2_r4 : (![0, 0] : Fin 2 → ℕ) = fun _ => 0 := by funext a; fin_cases a <;> rfl

/-- Through the whole-shape rectangle at zero offsets a load reads the contents as they are, -/
theorem ld_whole_unit4 {S : Shape} {e : EltTy} {off : Fin S.rank → ℕ} (h : off = fun _ => 0) (inb : ∀ a, off a + S.size a ≤ S.size a)
    (X : S.Idx → Elt F e) : View.ld X (Rect.unit off S.size inb) = X := by
  subst h; funext x; show X ((Rect.whole S).emb x) = X x; rw [Rect.emb_whole_apply]

/-- every index lies in it, -/
theorem mem_whole_unit4 {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- and a store through it, last, leaves its payload whatever the earlier stores were. -/
theorem canon_whole_unit_cons4 {S : Shape} {e : EltTy} {off : Fin S.rank → ℕ} (h : off = fun _ => 0) (inb : ∀ a, off a + S.size a ≤ S.size a)
    (w : S.Idx → Elt F e) (L : List (View.Piece (Elt F) S e)) :
    View.canon ((⟨Rect.unit off S.size inb, w⟩ : View.Piece (Elt F) S e) :: L) = w := by
  subst h; funext y
  have e := View.canon_cons_emb (Val := Elt F) (Rect.whole S) w L y
  rw [Rect.emb_whole_apply] at e
  exact e

/-- A load of a whole buffer through the whole-shape rectangle reads its contents. -/
theorem readAt_whole_unit4 {S : Shape} {e : EltTy} (m : Memref sig .tc .vmem S e) (hm : m.IsWhole) {off : Fin S.rank → ℕ}
    (h : off = fun _ => 0) (inb : ∀ a, off a + S.size a ≤ S.size a) (X : S.Idx → Elt F e) :
    m.view.readAt (Elt F) (Rect.unit off S.size inb).toLoadRect (hm.unread X) = X := by
  rw [show m.view.readAt (Elt F) (Rect.unit off S.size inb).toLoadRect (hm.unread X) = View.ld (m.view.read (Elt F) (hm.unread X)) (Rect.unit off S.size inb) from rfl,
    hm.read_unread, ld_whole_unit4 h]

/-- After stores the last of which went through the whole-shape rectangle, the buffer reads that store's payload. -/
theorem read_writes_unit_cons4 {S : Shape} {e : EltTy} (m : Memref sig .tc .vmem S e) (f : m.view.ty.Contents (Elt F)) {off : Fin S.rank → ℕ}
    (h : off = fun _ => 0) (inb : ∀ a, off a + S.size a ≤ S.size a) (w : S.Idx → Elt F e) (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, mem_whole_unit4 h inb y⟩), canon_whole_unit_cons4 h]

/-! ## The body's two conditions, in closed form over the grid -/

/-- The first condition (reset the carried buffers): the grid coordinate is 0. -/
abbrev isFirst4 (i : grid4.Coords) : Prop := (Scalar.cmpi .ne (Scalar.extui (Scalar.cmpi .eq (BitVec.ofNat 32 (i 0).val) 0#32)) 0#32) = 1#1
theorem isFirst4_iff : ∀ t : Fin cfg4.N, isFirst4 (grid4.coords t) ↔ t.val = 0 :=
  (by decide +kernel : ∀ t : Fin grid4.N, isFirst4 (grid4.coords t) ↔ t.val = 0)

/-- The second condition (apply the head): the grid coordinate is 9. -/
abbrev isLast4 (i : grid4.Coords) : Prop := k4_cond2 i = 1#1
theorem isLast4_iff : ∀ t : Fin cfg4.N, isLast4 (grid4.coords t) ↔ t.val = 9 :=
  (by decide +kernel : ∀ t : Fin grid4.N, isLast4 (grid4.coords t) ↔ t.val = 9)

/-- Where the result window is idle and where it is written back. -/
theorem live4_in : ∀ (w : Fin 7) (t : Fin cfg4.N), w.val < 6 → cfg4.idle w (grid4.coords t) = false := by decide +kernel
theorem idle4_6 : ∀ t : Fin cfg4.N, ¬isLast4 (grid4.coords t) → cfg4.idle 6 (grid4.coords t) = true := by decide +kernel
theorem noFlush4_6 : ∀ t : Fin cfg4.N, ¬isLast4 (grid4.coords t) → (cfg4.win 6).flush t = false := by decide +kernel
theorem live4_6 : ∀ t : Fin cfg4.N, isLast4 (grid4.coords t) → cfg4.idle 6 (grid4.coords t) = false := by decide +kernel

/-! ## The body on any whole memrefs, case by case -/

set_option maxHeartbeats 4000000 in
/-- At a point that is neither the first nor the last: the two blocks are read and left in place, the carried buffers
    go from (xs0, xs1) to the sums and counts with this block added. -/
theorem run4_mid (c : Dev nD) (i : grid4.Coords)
    (arg1 : Memref sig .tc .vmem S10000x64 .f32) (harg1 : arg1.IsWhole) (arg2 : Memref sig .tc .vmem S10000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S64x1 .f32) (harg9 : arg9.IsWhole)
    (hc0 : ¬isFirst4 i) (hc1 : ¬isLast4 i)
    (x0 : Vec F S10000x64 .f32) (x1 : Vec F S10000x1 .i32) (xs0 : Vec F S64x64 .f32) (xs1 : Vec F S64x1 .f32)
    (E : Set ℕ) (K : PUnit → sProp 𝕄) :
    iprop(owns (c : Thread nD τ) arg1 fullShare x0 ∗ owns (c : Thread nD τ) arg2 fullShare x1
        ∗ owns (c : Thread nD τ) arg8 fullShare xs0 ∗ owns (c : Thread nD τ) arg9 fullShare xs1
        ∗ (iprop(owns (c : Thread nD τ) arg1 fullShare x0 ∗ owns (c : Thread nD τ) arg2 fullShare x1
            ∗ owns (c : Thread nD τ) arg8 fullShare (k4_pay4 x0 x1 xs0) ∗ owns (c : Thread nD τ) arg9 fullShare (k4_pay5 x1 xs1)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%fs0, %hfs0, HS0⟩, ⟨%fs1, %hfs1, HS1⟩, Hk⟩
  obtain rfl := harg1.eq_unread hf0; obtain rfl := harg2.eq_unread hf1
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [read_writes_unit_cons4 (S := S64x64) _ _ zeros2_r4, readAt_whole_unit4 (S := S10000x64) _ _ zeros2_r4, readAt_whole_unit4 (S := S10000x1) _ _ zeros2_r4, readAt_whole_unit4 (S := S64x64) _ _ zeros2_r4]
  iexists _; isplitr
  swap; · iexact HS1
  ipureintro
  rw [read_writes_unit_cons4 (S := S64x1) _ _ zeros2_r4, readAt_whole_unit4 (S := S10000x1) _ _ zeros2_r4, readAt_whole_unit4 (S := S64x1) _ _ zeros2_r4]

set_option maxHeartbeats 4000000 in
/-- At the first point: the carried buffers, found at anything, are reset to zero and then hold this block's sums
    and counts. -/
theorem run4_first (c : Dev nD) (i : grid4.Coords)
    (arg1 : Memref sig .tc .vmem S10000x64 .f32) (harg1 : arg1.IsWhole) (arg2 : Memref sig .tc .vmem S10000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S64x1 .f32) (harg9 : arg9.IsWhole)
    (hc0 : isFirst4 i) (hc1 : ¬isLast4 i)
    (x0 : Vec F S10000x64 .f32) (x1 : Vec F S10000x1 .i32)
    (E : Set ℕ) (K : PUnit → sProp 𝕄) :
    iprop(owns (c : Thread nD τ) arg1 fullShare x0 ∗ owns (c : Thread nD τ) arg2 fullShare x1
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg8 fullShare (k4_pay4 x0 x1 (k4_pay1 (F := F))) ∗ owns (c : Thread nD τ) arg9 fullShare (k4_pay5 x1 (k4_pay2 (F := F)))) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%ds0, %fs0, -, HS0⟩, ⟨%ds1, %fs1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    unfold run4_first.sl.v15 run4_first.sl.HS0_1
    rw [read_writes_unit_cons4 (S := S64x64) _ _ zeros2_r4, View.readCov_cons_toLoadRect,
      readAt_whole_unit4 (S := S10000x64) _ _ zeros2_r4, readAt_whole_unit4 (S := S10000x1) _ _ zeros2_r4]
  iexists _; isplitr
  swap; · iexact HS1
  ipureintro
  unfold run4_first.sl.v21 run4_first.sl.HS1_1
  rw [read_writes_unit_cons4 (S := S64x1) _ _ zeros2_r4, View.readCov_cons_toLoadRect, readAt_whole_unit4 (S := S10000x1) _ _ zeros2_r4]

set_option maxHeartbeats 4000000 in
/-- At the last point: as at a middle point, and then the head is applied to the carried buffers as just updated and
    to the four head operands, and its result stored whole into the result window's buffer, found at anything. -/
theorem run4_last (c : Dev nD) (i : grid4.Coords)
    (arg1 : Memref sig .tc .vmem S10000x64 .f32) (harg1 : arg1.IsWhole) (arg2 : Memref sig .tc .vmem S10000x1 .i32) (harg2 : arg2.IsWhole)
    (arg3 : Memref sig .tc .vmem S64x32 .f32) (harg3 : arg3.IsWhole) (arg4 : Memref sig .tc .vmem S1x32 .f32) (harg4 : arg4.IsWhole)
    (arg5 : Memref sig .tc .vmem S32x1 .f32) (harg5 : arg5.IsWhole) (arg6 : Memref sig .tc .vmem S1x1 .f32) (harg6 : arg6.IsWhole)
    (arg7 : Memref sig .tc .vmem S64x1 .f32) (harg7 : arg7.IsWhole) (arg8 : Memref sig .tc .vmem S64x64 .f32) (harg8 : arg8.IsWhole)
    (arg9 : Memref sig .tc .vmem S64x1 .f32) (harg9 : arg9.IsWhole)
    (hc0 : ¬isFirst4 i) (hc1 : isLast4 i)
    (x0 : Vec F S10000x64 .f32) (x1 : Vec F S10000x1 .i32) (x2 : Vec F S64x32 .f32) (x3 : Vec F S1x32 .f32) (x4 : Vec F S32x1 .f32) (x5 : Vec F S1x1 .f32)
    (xs0 : Vec F S64x64 .f32) (xs1 : Vec F S64x1 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k4_pay6 (k4_pay4 x0 x1 xs0) (k4_pay5 x1 xs1) x2 x3 x4 x5)
            ∗ owns (c : Thread nD τ) arg8 fullShare (k4_pay4 x0 x1 xs0) ∗ owns (c : Thread nD τ) arg9 fullShare (k4_pay5 x1 xs1)) -∗ K ⟨⟩))
      ⊢ wp frame (wpE (defs₀ (F := F)) Variants.none c none) E (cc4__pool_mlp_kernel i arg1 harg1 arg2 harg2 arg3 harg3 arg4 harg4 arg5 harg5 arg6 harg6 arg7 harg7 arg8 harg8 arg9 harg9) K := by
  simp only [cc4__pool_mlp_kernel_eq_skeleton]; unfold cc4__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hf4; obtain rfl := harg6.eq_unread hf5
  obtain rfl := harg8.eq_unread hfs0; obtain rfl := harg9.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    unfold run4_last.sl.v30 run4_last.sl.v31 run4_last.sl.HS0_1 run4_last.sl.HS1_1
    rw [read_writes_unit_cons4 (S := S64x1) _ _ zeros2_r4, View.readCov_cons_toLoadRect, View.readCov_cons_toLoadRect,
      readAt_whole_unit4 (S := S10000x64) _ _ zeros2_r4, readAt_whole_unit4 (S := S10000x1) _ _ zeros2_r4,
      readAt_whole_unit4 (S := S64x64) _ _ zeros2_r4, readAt_whole_unit4 (S := S64x1) _ _ zeros2_r4,
      readAt_whole_unit4 (S := S64x32) _ _ zeros2_r4, readAt_whole_unit4 (S := S1x32) _ _ zeros2_r4,
      readAt_whole_unit4 (S := S32x1) _ _ zeros2_r4, readAt_whole_unit4 (S := S1x1) _ _ zeros2_r4]
  isplitl [HS0]
  · iexists _; isplitr
    swap; · iexact HS0
    ipureintro
    unfold run4_last.sl.HS0_1
    rw [read_writes_unit_cons4 (S := S64x64) _ _ zeros2_r4, readAt_whole_unit4 (S := S10000x64) _ _ zeros2_r4,
      readAt_whole_unit4 (S := S10000x1) _ _ zeros2_r4, readAt_whole_unit4 (S := S64x64) _ _ zeros2_r4]
  iexists _; isplitr
  swap; · iexact HS1
  ipureintro
  unfold run4_last.sl.HS1_1
  rw [read_writes_unit_cons4 (S := S64x1) _ _ zeros2_r4, readAt_whole_unit4 (S := S10000x1) _ _ zeros2_r4, readAt_whole_unit4 (S := S64x1) _ _ zeros2_r4]

/-! ## The memrefs the body is called with -/
abbrev ms4_0 (t : Fin cfg4.N) : Memref sig .tc .vmem S10000x64 .f32 := win4_0.stage (cfg4.slots t 0)
abbrev ms4_1 (t : Fin cfg4.N) : Memref sig .tc .vmem S10000x1 .i32 := win4_1.stage (cfg4.slots t 1)
abbrev ms4_2 (t : Fin cfg4.N) : Memref sig .tc .vmem S64x32 .f32 := win4_2.stage (cfg4.slots t 2)
abbrev ms4_3 (t : Fin cfg4.N) : Memref sig .tc .vmem S1x32 .f32 := win4_3.stage (cfg4.slots t 3)
abbrev ms4_4 (t : Fin cfg4.N) : Memref sig .tc .vmem S32x1 .f32 := win4_4.stage (cfg4.slots t 4)
abbrev ms4_5 (t : Fin cfg4.N) : Memref sig .tc .vmem S1x1 .f32 := win4_5.stage (cfg4.slots t 5)
abbrev ms4_6 (t : Fin cfg4.N) : Memref sig .tc .vmem S64x1 .f32 := win4_6.stage (cfg4.slots t 6)

/-- Four conjuncts grouped from the left are the four grouped from the right. -/
theorem sep_regroup4 (A B R G : sProp 𝕄) : (iprop(((A ∗ B) ∗ R) ∗ G) : sProp 𝕄) = iprop(A ∗ B ∗ R ∗ G) := by
  refine Idealize.SL.BI.Entails.antisymm (show (iprop(((A ∗ B) ∗ R) ∗ G) : sProp 𝕄) ⊢ iprop(A ∗ B ∗ R ∗ G) from ?_)
    (show (iprop(A ∗ B ∗ R ∗ G) : sProp 𝕄) ⊢ iprop(((A ∗ B) ∗ R) ∗ G) from ?_)
  · iintro ⟨⟨⟨HA, HB⟩, HR⟩, Hg⟩
    isplitl [HA]; · iexact HA
    isplitl [HB]; · iexact HB
    isplitl [HR]; · iexact HR
    iexact Hg
  · iintro ⟨HA, HB, HR, Hg⟩
    isplitr [Hg]
    swap; · iexact Hg
    isplitr [HR]
    swap; · iexact HR
    isplitl [HA]; · iexact HA
    iexact HB

/-- The class invariant with the two carried buffers owned as memrefs at some contents. -/
theorem PhiA4_eq (c : Dev nD) :
    (Pipeline.ΦA spec4 c : sProp 𝕄)
      = iprop((∃ d, owns (c : Thread nD τ) sums4 fullShare d) ∗ (∃ d, owns (c : Thread nD τ) cnts4 fullShare d) ∗ keep4 (F := F) c ∗ (∃ r, prngReg c r)) := by
  unfold Pipeline.ΦA keep4
  rw [Pipeline.scopedRest_split_of_list spec4 c [cc4_scratch0, cc4_scratch1] (by decide) (by decide)]
  simp only [bigSepL_cons_cons, bigSepL_singleton, sums4, cnts4, owns_whole]
  exact sep_regroup4 _ _ _ _

section
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the two carried buffers hold after point n: the sums and the counts of the row blocks 0..n. -/
def accAt4 (c : Dev nD) : (n : ℕ) → n < cfg4.N → Vec F S64x64 .f32 × Vec F S64x1 .f32
  | 0, h => (k4_pay4 (iblk4 V c 0 ⟨0, h⟩) (iblk4 V c 1 ⟨0, h⟩) (k4_pay1 (F := F)), k4_pay5 (iblk4 V c 1 ⟨0, h⟩) (k4_pay2 (F := F)))
  | n + 1, h => (k4_pay4 (iblk4 V c 0 ⟨n + 1, h⟩) (iblk4 V c 1 ⟨n + 1, h⟩) (accAt4 c n (Nat.lt_of_succ_lt h)).1,
      k4_pay5 (iblk4 V c 1 ⟨n + 1, h⟩) (accAt4 c n (Nat.lt_of_succ_lt h)).2)

theorem accAt4_zero (c : Dev nD) (h : 0 < cfg4.N) :
    accAt4 V c 0 h = (k4_pay4 (iblk4 V c 0 ⟨0, h⟩) (iblk4 V c 1 ⟨0, h⟩) (k4_pay1 (F := F)), k4_pay5 (iblk4 V c 1 ⟨0, h⟩) (k4_pay2 (F := F))) := rfl

theorem accAt4_succ (c : Dev nD) (n : ℕ) (h : n + 1 < cfg4.N) :
    accAt4 V c (n + 1) h = (k4_pay4 (iblk4 V c 0 ⟨n + 1, h⟩) (iblk4 V c 1 ⟨n + 1, h⟩) (accAt4 V c n (Nat.lt_of_succ_lt h)).1,
      k4_pay5 (iblk4 V c 1 ⟨n + 1, h⟩) (accAt4 V c n (Nat.lt_of_succ_lt h)).2) := rfl

/-- The head's result from the carried buffers after point t and the four head operands' blocks there. -/
def head4 (c : Dev nD) (t : Fin cfg4.N) : Vec F S64x1 .f32 :=
  k4_pay6 (accAt4 V c t.val t.isLt).1 (accAt4 V c t.val t.isLt).2 (iblk4 V c 2 t) (iblk4 V c 3 t) (iblk4 V c 4 t) (iblk4 V c 5 t)

/-- The invariant before position n: before the first point the class invariant (every scoped buffer at anything);
    afterwards the two carried buffers at what the point before left, the other scoped buffers at anything, the
    generator register at some state. -/
def PhiS4 (c : Dev nD) : (n : ℕ) → n ≤ cfg4.N → sProp 𝕄
  | 0, _ => Pipeline.ΦA spec4 c
  | n + 1, hn => iprop(owns (c : Thread nD τ) sums4 fullShare (accAt4 V c n hn).1 ∗ owns (c : Thread nD τ) cnts4 fullShare (accAt4 V c n hn).2
      ∗ keep4 c ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) sums4 fullShare (accAt4 V c n hn).1 ∗ owns (c : Thread nD τ) cnts4 fullShare (accAt4 V c n hn).2
      ∗ keep4 c ∗ (∃ r, prngReg c r)) := rfl

theorem PhiS4_pos (c : Dev nD) (n : ℕ) (h : n ≤ cfg4.N) (hz : n ≠ 0) :
    PhiS4 V c n h = iprop(owns (c : Thread nD τ) sums4 fullShare (accAt4 V c (n - 1) (by omega)).1 ∗ owns (c : Thread nD τ) cnts4 fullShare (accAt4 V c (n - 1) (by omega)).2
      ∗ keep4 c ∗ (∃ r, prngReg c r)) := by
  cases n with
  | zero => exact absurd rfl hz
  | succ n => rfl

/-- The proof data of the region on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => head4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = head4 V c t := by dsimp only [dat4]

theorem N4_eq : cfg4.N = 10 := N_4

theorem after4_6_last (c : Dev nD) (t : Fin cfg4.N) (ht : t.val = 9) :
    (dat4 V c).after 6 t = k4_pay6 (accAt4 V c 9 (by rw [N4_eq]; decide)).1 (accAt4 V c 9 (by rw [N4_eq]; decide)).2
      (iblk4 V c 2 t) (iblk4 V c 3 t) (iblk4 V c 4 t) (iblk4 V c 5 t) := by
  rw [after4_6]; obtain ⟨n, hn⟩ := t; cases ht; rfl

theorem PhiS4_castSucc (c : Dev nD) (t : Fin cfg4.N) :
    (dat4 V c).Φ t.castSucc = PhiS4 V c t.val (Nat.le_of_lt t.isLt) := by
  dsimp only [dat4]; simp only [Fin.coe_castSucc]

/-! ## What the body finds in the input windows' buffers: their blocks, fetched at the point or not -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-- The carried buffers after the first point, and after a later one. -/
theorem accAt4_first (c : Dev nD) (t : Fin cfg4.N) (h : t.val = 0) :
    accAt4 V c t.val t.isLt = (k4_pay4 (iblk4 V c 0 t) (iblk4 V c 1 t) (k4_pay1 (F := F)), k4_pay5 (iblk4 V c 1 t) (k4_pay2 (F := F))) := by
  obtain ⟨n, hn⟩ := t
  cases n with
  | zero => rfl
  | succ n => exact absurd h (Nat.succ_ne_zero n)

theorem accAt4_later (c : Dev nD) (t : Fin cfg4.N) (h : t.val ≠ 0) :
    accAt4 V c t.val t.isLt = (k4_pay4 (iblk4 V c 0 t) (iblk4 V c 1 t) (accAt4 V c (t.val - 1) (Nat.lt_of_le_of_lt (Nat.sub_le _ _) t.isLt)).1,
      k4_pay5 (iblk4 V c 1 t) (accAt4 V c (t.val - 1) (Nat.lt_of_le_of_lt (Nat.sub_le _ _) t.isLt)).2) := by
  obtain ⟨n, hn⟩ := t
  cases n with
  | zero => exact absurd rfl h
  | succ n => rfl

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

/-- An input window's buffer is handed back at its block. -/
theorem leaves4_0 (c : Dev nD) (t : Fin cfg4.N) : (dat4 V c).leavesExact 0 t = owns (c : Thread nD τ) (ms4_0 t) fullShare (iblk4 V c 0 t) := by
  unfold Dat.leavesExact; rw [live4_in 0 t (by decide), after4_0]
theorem leaves4_1 (c : Dev nD) (t : Fin cfg4.N) : (dat4 V c).leavesExact 1 t = owns (c : Thread nD τ) (ms4_1 t) fullShare (iblk4 V c 1 t) := by
  unfold Dat.leavesExact; rw [live4_in 1 t (by decide), after4_1]
theorem leaves4_2 (c : Dev nD) (t : Fin cfg4.N) : (dat4 V c).leavesExact 2 t = owns (c : Thread nD τ) (ms4_2 t) fullShare (iblk4 V c 2 t) := by
  unfold Dat.leavesExact; rw [live4_in 2 t (by decide), after4_2]
theorem leaves4_3 (c : Dev nD) (t : Fin cfg4.N) : (dat4 V c).leavesExact 3 t = owns (c : Thread nD τ) (ms4_3 t) fullShare (iblk4 V c 3 t) := by
  unfold Dat.leavesExact; rw [live4_in 3 t (by decide), after4_3]
theorem leaves4_4 (c : Dev nD) (t : Fin cfg4.N) : (dat4 V c).leavesExact 4 t = owns (c : Thread nD τ) (ms4_4 t) fullShare (iblk4 V c 4 t) := by
  unfold Dat.leavesExact; rw [live4_in 4 t (by decide), after4_4]
theorem leaves4_5 (c : Dev nD) (t : Fin cfg4.N) : (dat4 V c).leavesExact 5 t = owns (c : Thread nD τ) (ms4_5 t) fullShare (iblk4 V c 5 t) := by
  unfold Dat.leavesExact; rw [live4_in 5 t (by decide), after4_5]
/-- The result window's buffer is handed back as found at every point but the last, and there at the head's result. -/
theorem leaves4_6_idle (c : Dev nD) (t : Fin cfg4.N) (h : ¬isLast4 (grid4.coords t)) :
    (dat4 V c).leavesExact 6 t = iprop(∃ d, owns (c : Thread nD τ) (ms4_6 t) fullShare ((dat4 V c).before 6 t d)) :=
  Dat.leavesExact_idle (dat4 V c) 6 t (idle4_6 t h) (noFlush4_6 t h)
theorem leaves4_6_last (c : Dev nD) (t : Fin cfg4.N) (h : isLast4 (grid4.coords t)) :
    (dat4 V c).leavesExact 6 t = owns (c : Thread nD τ) (ms4_6 t) fullShare (head4 V c t) := by
  unfold Dat.leavesExact; rw [live4_6 t h, after4_6]

set_option maxHeartbeats 4000000 in
/-- The body at any point: the input windows' buffers hold their blocks; the point is the first, a middle one or the
    last; the invariant hands the body the two carried buffers (at anything at the first point, else at what the point
    before left) and takes them back at this point's contents; the result window's buffer is handed back untouched
    except at the last point, where it holds the head's result. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5]
  have hN : t.val < 10 := lt_of_lt_of_eq t.isLt N4_eq
  by_cases h0 : t.val = 0
  · have hl : ¬t.val = 9 := by omega
    have hc0 : isFirst4 (grid4.coords t) := (isFirst4_iff t).mpr h0
    have hc1 : ¬isLast4 (grid4.coords t) := fun h => hl ((isLast4_iff t).mp h)
    rw [leaves4_6_idle V c t hc1, accAt4_first V c t h0]
    rw [PhiS4_castSucc V c t, PhiS4_zero V c _ _ h0, PhiA4_eq]
    iintro ⟨⟨HS0, HS1, Hkeep, Hg⟩, Ho, ⟨%d0, H0⟩, ⟨%d1, H1⟩, ⟨%d2, H2⟩, ⟨%d3, H3⟩, ⟨%d4, H4⟩, ⟨%d5, H5⟩, H6⟩
    iapply (run4_first c (grid4.coords t) _ _ _ _ _ _ _ _ _ _ _ _ _ _ _ _ _ _ hc0 hc1 (iblk4 V c 0 t) (iblk4 V c 1 t) Set.univ _)
    isplitl [H0]; · iexact H0
    isplitl [H1]; · iexact H1
    isplitl [HS0]; · iexact HS0
    isplitl [HS1]; · iexact HS1
    iintro ⟨H0, H1, HS0, HS1⟩
    isplitl [HS0 HS1 Hkeep Hg]
    · isplitl [HS0]; · iexact HS0
      isplitl [HS1]; · iexact HS1
      isplitl [Hkeep]; · iexact Hkeep
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hl : t.val = 9
    · have hc0 : ¬isFirst4 (grid4.coords t) := fun h => h0 ((isFirst4_iff t).mp h)
      have hc1 : isLast4 (grid4.coords t) := (isLast4_iff t).mpr hl
      rw [leaves4_6_last V c t hc1]; unfold head4
      rw [accAt4_later V c t h0]
      rw [PhiS4_castSucc V c t, PhiS4_pos V c _ _ h0]
      iintro ⟨⟨HS0, HS1, Hkeep, Hg⟩, Ho, ⟨%d0, H0⟩, ⟨%d1, H1⟩, ⟨%d2, H2⟩, ⟨%d3, H3⟩, ⟨%d4, H4⟩, ⟨%d5, H5⟩, ⟨%d6, H6⟩⟩
      iapply (run4_last c (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hkeep Hg]
      · isplitl [HS0]; · iexact HS0
        isplitl [HS1]; · iexact HS1
        isplitl [Hkeep]; · iexact Hkeep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬isFirst4 (grid4.coords t) := fun h => h0 ((isFirst4_iff t).mp h)
      have hc1 : ¬isLast4 (grid4.coords t) := fun h => hl ((isLast4_iff t).mp h)
      rw [leaves4_6_idle V c t hc1, accAt4_later V c t h0]
      rw [PhiS4_castSucc V c t, PhiS4_pos V c _ _ h0]
      iintro ⟨⟨HS0, HS1, Hkeep, Hg⟩, Ho, ⟨%d0, H0⟩, ⟨%d1, H1⟩, ⟨%d2, H2⟩, ⟨%d3, H3⟩, ⟨%d4, H4⟩, ⟨%d5, H5⟩, H6⟩
      iapply (run4_mid c (grid4.coords t) _ _ _ _ _ _ _ _ _ _ _ _ _ _ _ _ _ _ hc0 hc1 (iblk4 V c 0 t) (iblk4 V c 1 t) _ _ Set.univ _)
      isplitl [H0]; · iexact H0
      isplitl [H1]; · iexact H1
      isplitl [HS0]; · iexact HS0
      isplitl [HS1]; · iexact HS1
      iintro ⟨H0, H1, HS0, HS1⟩
      isplitl [HS0 HS1 Hkeep Hg]
      · isplitl [HS0]; · iexact HS0
        isplitl [HS1]; · iexact HS1
        isplitl [Hkeep]; · iexact Hkeep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the carried buffers' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last, N4_eq]; decide), PhiA4_eq]
  iintro ⟨HS0, HS1, Hkeep, Hg⟩
  isplitl [HS0]; · iexists _; iexact HS0
  isplitl [HS1]; · iexists _; iexact HS1
  isplitl [Hkeep]; · iexact Hkeep
  iexact Hg

end

end Cert.Kernel.Hand

end
-- ==== Proof.KRunAll.lean ====
/-
  The run of the whole program. @main is thirteen items: three stretches of host operations, the first dense
  projection (region 0), two stretches, the first bias-and-rectify pass (region 1), the second projection (region 2),
  two stretches, the second bias-and-rectify pass (region 3), one stretch, and the pooled head (region 4). The contents
  of every buffer of a core are named at every boundary between two items: a fold from the launch memory, a host
  stretch taking a valuation to the one its operations leave, a region changing its windows' arrays to what its
  write-backs leave and nothing else. Every argument array is read back through the fold to its launch contents, each
  region is a segment from the fold before it to the fold after it, and the launch over the thirteen segments says
  that every execution terminates with every unscoped buffer at the last fold.
-/
import proofs.«413692_j83004537962758_2_alg».proof.Proof.Gen.Kernel.Launch
import proofs.«413692_j83004537962758_2_alg».proof.Proof.Gen.Kernel.Skeleton
import proofs.«413692_j83004537962758_2_alg».proof.Proof.Gen.Kernel.Points
import proofs.«413692_j83004537962758_2_alg».proof.Proof.Gen.Kernel.Regions
import proofs.«413692_j83004537962758_2_alg».proof.Proof.KReg0
import proofs.«413692_j83004537962758_2_alg».proof.Proof.KReg1
import proofs.«413692_j83004537962758_2_alg».proof.Proof.KReg2
import proofs.«413692_j83004537962758_2_alg».proof.Proof.KReg3
import proofs.«413692_j83004537962758_2_alg».proof.Proof.KReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a region leaves in a core's buffers -/

section RegionStep

variable {cfg : Cfg sig Λ₀} (c : Dev nD) (V : Valuation τ sig (Elt F))
  (dat : Dat τ (Elt F) Unit ℕ (UR sig nD τ) ℕ cfg c)

/-- The buffers of core `c` after a region entered at `V` with proof data `dat`: each of its windows' arrays at what the
    pipeline leaves there (an input as it was entered, an output with every write-back folded in), every other buffer
    as the region found it. -/
def afterRegion : Valuation τ sig (Elt F) :=
  Pipeline.withArrays cfg.spec c V fun w => dat.arrAt w cfg.N

theorem afterRegion_arr (hinj : Function.Injective (Pipeline.arrRef cfg.spec)) (w : Fin cfg.W) :
    afterRegion c V dat (Proc.devRef .tc (Pipeline.arrRef cfg.spec w)) = dat.arrAt w cfg.N := by
  unfold afterRegion; exact Pipeline.withArrays_arr cfg.spec hinj c _ _ w

theorem afterRegion_of_ne (b : Ref sig .tc) (hb : ∀ w, Pipeline.arrRef cfg.spec w ≠ b) :
    afterRegion c V dat (Proc.devRef .tc b) = V (Proc.devRef .tc b) := by
  unfold afterRegion; exact Pipeline.withArrays_of_ne cfg.spec c _ _ b hb

/-- An input window's array is left as it was entered, when the proof data read their entry contents off `V`. -/
theorem afterRegion_in (hinj : Function.Injective (Pipeline.arrRef cfg.spec))
    (hA : ∀ w, dat.A w = V (Proc.devRef .tc (Pipeline.arrRef cfg.spec w))) (w : Fin cfg.W) (hw : (cfg.win w).isOut = false) :
    afterRegion c V dat (Proc.devRef .tc (Pipeline.arrRef cfg.spec w)) = V (Proc.devRef .tc (Pipeline.arrRef cfg.spec w)) :=
  (afterRegion_arr c V dat hinj w).trans ((dat.arrAt_in w hw _).trans (hA w))

/-- Every buffer that is no output window's array keeps its contents. -/
theorem afterRegion_kept (hinj : Function.Injective (Pipeline.arrRef cfg.spec))
    (hA : ∀ w, dat.A w = V (Proc.devRef .tc (Pipeline.arrRef cfg.spec w))) (r : Ref sig .tc)
    (h : ∀ w, (cfg.win w).isOut = true → Pipeline.arrRef cfg.spec w ≠ r) :
    afterRegion c V dat (Proc.devRef .tc r) = V (Proc.devRef .tc r) := by
  by_cases hr : ∃ w, Pipeline.arrRef cfg.spec w = r
  · obtain ⟨w, rfl⟩ := hr
    cases hw : (cfg.win w).isOut
    · exact afterRegion_in c V dat hinj hA w hw
    · exact absurd rfl (h w hw)
  · exact afterRegion_of_ne c V dat r fun w e => hr ⟨w, e⟩

/-- A buffer that is no window's array keeps its contents (the form the exit of a region takes it in). -/
theorem afterRegion_rest (b : Ref sig .tc) (hb : b ∉ Finset.univ.image (Pipeline.arrRef cfg.spec)) :
    afterRegion c V dat (Proc.devRef .tc b) = V (Proc.devRef .tc b) :=
  afterRegion_of_ne c V dat b fun w e => hb (Finset.mem_image.mpr ⟨w, Finset.mem_univ _, e⟩)

end RegionStep

variable (m : (ℓ : Loc nD τ sig) → Buf (Elt F) ℓ) (ρ : Dev nD → PrngReg)

/-! ## The contents of a core's buffers at each boundary: a fold through @main

`WJ` is what the core's buffers hold after item J−1 (`W0` at launch). `VJ` is `WJ` read at the TensorCore's
references, for the five boundaries at which a region is entered. -/

/-- Core `c`'s buffers at launch. -/
abbrev W0 : Dev nD → Valuation τ sig (Elt F) := fun c b => (s₀ m ρ).mem ((c : Dev nD), b)

/-- After the first stretch: the edge mask and the constants. -/
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After the second stretch: the masked edge weights. -/
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After the third stretch: the edge indices brought into range. Region 0 is entered here. -/
abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
abbrev V3 : (c : Dev nD) → (b : Ref sig .tc) → Buf (Elt F) ((c : Thread nD τ).loc b) := fun c b => W3 m ρ c b

/-- After region 0, the first projection: `main_v32` holds the projected rows. -/
def W4 (c : Dev nD) : Valuation τ sig (Elt F) := afterRegion c (W3 m ρ c) (dat0 (V3 m ρ) c)
theorem W4_arr (c : Dev nD) (w : Fin cfg0.W) :
    W4 m ρ c (Proc.devRef .tc (Pipeline.arrRef spec0 w)) = (dat0 (V3 m ρ) c).arrAt w cfg0.N :=
  afterRegion_arr c _ _ launch0.win.arr_inj w
theorem W4_out (c : Dev nD) : W4 m ρ c (Proc.devRef .tc main_v32) = (dat0 (V3 m ρ) c).arrAt 2 cfg0.N := W4_arr m ρ c 2
theorem W4_kept (c : Dev nD) (r : Ref sig .tc) (h : r ≠ main_v32) :
    W4 m ρ c (Proc.devRef .tc r) = W3 m ρ c (Proc.devRef .tc r) :=
  afterRegion_kept c _ _ launch0.win.arr_inj (A_eq0 (V3 m ρ) c) r fun w hw => match w, hw with
    | ⟨0, _⟩, hw => absurd hw Bool.false_ne_true
    | ⟨1, _⟩, hw => absurd hw Bool.false_ne_true
    | ⟨2, _⟩, _ => fun e => h e.symm

/-- After the fourth stretch: the first aggregation over the edges. -/
abbrev W5 : Dev nD → Valuation τ sig (Elt F) := fun c => StableHlo.after hostOps1 (W4 m ρ c)
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h

/-- After the fifth stretch: the first layer's operands laid out. Region 1 is entered here. -/
abbrev W6 : Dev nD → Valuation τ sig (Elt F) := fun c => StableHlo.after hostOps1_1 (W5 m ρ c)
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h
abbrev V6 : (c : Dev nD) → (b : Ref sig .tc) → Buf (Elt F) ((c : Thread nD τ).loc b) := fun c b => W6 m ρ c b

/-- After region 1, the first layer's bias and rectification: `main_v41` holds the first layer's activations.
    Region 2 is entered here. -/
def W7 (c : Dev nD) : Valuation τ sig (Elt F) := afterRegion c (W6 m ρ c) (dat1 (V6 m ρ) c)
theorem W7_arr (c : Dev nD) (w : Fin cfg1.W) :
    W7 m ρ c (Proc.devRef .tc (Pipeline.arrRef spec1 w)) = (dat1 (V6 m ρ) c).arrAt w cfg1.N :=
  afterRegion_arr c _ _ launch1.win.arr_inj w
theorem W7_out (c : Dev nD) : W7 m ρ c (Proc.devRef .tc main_v41) = (dat1 (V6 m ρ) c).arrAt 2 cfg1.N := W7_arr m ρ c 2
theorem W7_kept (c : Dev nD) (r : Ref sig .tc) (h : r ≠ main_v41) :
    W7 m ρ c (Proc.devRef .tc r) = W6 m ρ c (Proc.devRef .tc r) :=
  afterRegion_kept c _ _ launch1.win.arr_inj (A_eq1 (V6 m ρ) c) r fun w hw => match w, hw with
    | ⟨0, _⟩, hw => absurd hw Bool.false_ne_true
    | ⟨1, _⟩, hw => absurd hw Bool.false_ne_true
    | ⟨2, _⟩, _ => fun e => h e.symm
abbrev V7 : (c : Dev nD) → (b : Ref sig .tc) → Buf (Elt F) ((c : Thread nD τ).loc b) := fun c b => W7 m ρ c b

/-- After region 2, the second projection: `main_v42` holds the projected activations. -/
def W8 (c : Dev nD) : Valuation τ sig (Elt F) := afterRegion c (W7 m ρ c) (dat2 (V7 m ρ) c)
theorem W8_arr (c : Dev nD) (w : Fin cfg2.W) :
    W8 m ρ c (Proc.devRef .tc (Pipeline.arrRef spec2 w)) = (dat2 (V7 m ρ) c).arrAt w cfg2.N :=
  afterRegion_arr c _ _ launch2.win.arr_inj w
theorem W8_out (c : Dev nD) : W8 m ρ c (Proc.devRef .tc main_v42) = (dat2 (V7 m ρ) c).arrAt 2 cfg2.N := W8_arr m ρ c 2
theorem W8_kept (c : Dev nD) (r : Ref sig .tc) (h : r ≠ main_v42) :
    W8 m ρ c (Proc.devRef .tc r) = W7 m ρ c (Proc.devRef .tc r) :=
  afterRegion_kept c _ _ launch2.win.arr_inj (A_eq2 (V7 m ρ) c) r fun w hw => match w, hw with
    | ⟨0, _⟩, hw => absurd hw Bool.false_ne_true
    | ⟨1, _⟩, hw => absurd hw Bool.false_ne_true
    | ⟨2, _⟩, _ => fun e => h e.symm

/-- After the sixth stretch: the second aggregation over the edges. -/
abbrev W9 : Dev nD → Valuation τ sig (Elt F) := fun c => StableHlo.after hostOps3 (W8 m ρ c)
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-- After the seventh stretch: the second layer's operands laid out. Region 3 is entered here. -/
abbrev W10 : Dev nD → Valuation τ sig (Elt F) := fun c => StableHlo.after hostOps3_1 (W9 m ρ c)
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h
abbrev V10 : (c : Dev nD) → (b : Ref sig .tc) → Buf (Elt F) ((c : Thread nD τ).loc b) := fun c b => W10 m ρ c b

/-- After region 3, the second layer's bias and rectification: `main_v51` holds the node embeddings. -/
def W11 (c : Dev nD) : Valuation τ sig (Elt F) := afterRegion c (W10 m ρ c) (dat3 (V10 m ρ) c)
theorem W11_arr (c : Dev nD) (w : Fin cfg3.W) :
    W11 m ρ c (Proc.devRef .tc (Pipeline.arrRef spec3 w)) = (dat3 (V10 m ρ) c).arrAt w cfg3.N :=
  afterRegion_arr c _ _ launch3.win.arr_inj w
theorem W11_out (c : Dev nD) : W11 m ρ c (Proc.devRef .tc main_v51) = (dat3 (V10 m ρ) c).arrAt 2 cfg3.N := W11_arr m ρ c 2
theorem W11_kept (c : Dev nD) (r : Ref sig .tc) (h : r ≠ main_v51) :
    W11 m ρ c (Proc.devRef .tc r) = W10 m ρ c (Proc.devRef .tc r) :=
  afterRegion_kept c _ _ launch3.win.arr_inj (A_eq3 (V10 m ρ) c) r fun w hw => match w, hw with
    | ⟨0, _⟩, hw => absurd hw Bool.false_ne_true
    | ⟨1, _⟩, hw => absurd hw Bool.false_ne_true
    | ⟨2, _⟩, _ => fun e => h e.symm

/-- After the eighth stretch: the head's operands laid out. Region 4 is entered here. -/
abbrev W12 : Dev nD → Valuation τ sig (Elt F) := fun c => StableHlo.after hostOps4 (W11 m ρ c)
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h
abbrev V12 : (c : Dev nD) → (b : Ref sig .tc) → Buf (Elt F) ((c : Thread nD τ).loc b) := fun c b => W12 m ρ c b

/-- After region 4, the pooled head: `main_v55` holds the program's result. The last boundary. -/
def W13 (c : Dev nD) : Valuation τ sig (Elt F) := afterRegion c (W12 m ρ c) (dat4 (V12 m ρ) c)
theorem W13_arr (c : Dev nD) (w : Fin cfg4.W) :
    W13 m ρ c (Proc.devRef .tc (Pipeline.arrRef spec4 w)) = (dat4 (V12 m ρ) c).arrAt w cfg4.N :=
  afterRegion_arr c _ _ launch4.win.arr_inj w
theorem W13_out (c : Dev nD) : W13 m ρ c (Proc.devRef .tc main_v55) = (dat4 (V12 m ρ) c).arrAt 6 cfg4.N := W13_arr m ρ c 6
theorem W13_kept (c : Dev nD) (r : Ref sig .tc) (h : r ≠ main_v55) :
    W13 m ρ c (Proc.devRef .tc r) = W12 m ρ c (Proc.devRef .tc r) :=
  afterRegion_kept c _ _ launch4.win.arr_inj (A_eq4 (V12 m ρ) c) r fun w hw => match w, hw with
    | ⟨0, _⟩, hw => absurd hw Bool.false_ne_true
    | ⟨1, _⟩, hw => absurd hw Bool.false_ne_true
    | ⟨2, _⟩, hw => absurd hw Bool.false_ne_true
    | ⟨3, _⟩, hw => absurd hw Bool.false_ne_true
    | ⟨4, _⟩, hw => absurd hw Bool.false_ne_true
    | ⟨5, _⟩, hw => absurd hw Bool.false_ne_true
    | ⟨6, _⟩, _ => fun e => h e.symm

/-! ## A buffer no item writes ends as launched -/

/-- What each of the thirteen items may write: a host stretch its operations' results, a region its result. -/
abbrev writtenBy : List (List (Ref sig .tc)) :=
  [hostOps0_W, hostOps0_1_W, hostOps0_2_W, [main_v32], hostOps1_W, hostOps1_1_W, [main_v41], [main_v42],
   hostOps3_W, hostOps3_1_W, [main_v51], hostOps4_W, [main_v55]]

/-- A reference no item writes holds at the last boundary what it held at launch: the fold walked back item by item. -/
theorem W13_unwritten (c : Dev nD) (r : Ref sig .tc) (h : ∀ l ∈ (writtenBy : List (List (Ref sig .tc))), r ∉ l) :
    W13 m ρ c (Proc.devRef .tc r) = m ((c : Thread nD τ).loc r) := by
  simp only [writtenBy, List.forall_mem_cons] at h
  obtain ⟨h1, h2, h3, h4, h5, h6, h7, h8, h9, h10, h11, h12, h13, -⟩ := h
  calc W13 m ρ c (Proc.devRef .tc r)
    _ = W12 m ρ c (Proc.devRef .tc r) := W13_kept m ρ c r (List.ne_of_not_mem_cons h13)
    _ = W11 m ρ c (Proc.devRef .tc r) := W12_of m ρ c r h12
    _ = W10 m ρ c (Proc.devRef .tc r) := W11_kept m ρ c r (List.ne_of_not_mem_cons h11)
    _ = W9 m ρ c (Proc.devRef .tc r) := W10_of m ρ c r h10
    _ = W8 m ρ c (Proc.devRef .tc r) := W9_of m ρ c r h9
    _ = W7 m ρ c (Proc.devRef .tc r) := W8_kept m ρ c r (List.ne_of_not_mem_cons h8)
    _ = W6 m ρ c (Proc.devRef .tc r) := W7_kept m ρ c r (List.ne_of_not_mem_cons h7)
    _ = W5 m ρ c (Proc.devRef .tc r) := W6_of m ρ c r h6
    _ = W4 m ρ c (Proc.devRef .tc r) := W5_of m ρ c r h5
    _ = W3 m ρ c (Proc.devRef .tc r) := W4_kept m ρ c r (List.ne_of_not_mem_cons h4)
    _ = W2 m ρ c (Proc.devRef .tc r) := W3_of m ρ c r h3
    _ = W1 m ρ c (Proc.devRef .tc r) := W2_of m ρ c r h2
    _ = W0 m ρ c (Proc.devRef .tc r) := W1_of m ρ c r h1
    _ = m ((c : Thread nD τ).loc r) := rfl

/-! ### The twelve argument arrays: no host stretch writes one, and a region that reads one reads it through an input
    window -/

theorem W13_main_arg0 (c : Dev nD) : W13 m ρ c (Proc.devRef .tc main_arg0) = m ((c : Thread nD τ).loc main_arg0) :=
  W13_unwritten m ρ c main_arg0 (by decide)
theorem W13_main_arg1 (c : Dev nD) : W13 m ρ c (Proc.devRef .tc main_arg1) = m ((c : Thread nD τ).loc main_arg1) :=
  W13_unwritten m ρ c main_arg1 (by decide)
theorem W13_main_arg2 (c : Dev nD) : W13 m ρ c (Proc.devRef .tc main_arg2) = m ((c : Thread nD τ).loc main_arg2) :=
  W13_unwritten m ρ c main_arg2 (by decide)
theorem W13_main_arg3 (c : Dev nD) : W13 m ρ c (Proc.devRef .tc main_arg3) = m ((c : Thread nD τ).loc main_arg3) :=
  W13_unwritten m ρ c main_arg3 (by decide)
theorem W13_main_arg4 (c : Dev nD) : W13 m ρ c (Proc.devRef .tc main_arg4) = m ((c : Thread nD τ).loc main_arg4) :=
  W13_unwritten m ρ c main_arg4 (by decide)
theorem W13_main_arg5 (c : Dev nD) : W13 m ρ c (Proc.devRef .tc main_arg5) = m ((c : Thread nD τ).loc main_arg5) :=
  W13_unwritten m ρ c main_arg5 (by decide)
theorem W13_main_arg6 (c : Dev nD) : W13 m ρ c (Proc.devRef .tc main_arg6) = m ((c : Thread nD τ).loc main_arg6) :=
  W13_unwritten m ρ c main_arg6 (by decide)
theorem W13_main_arg7 (c : Dev nD) : W13 m ρ c (Proc.devRef .tc main_arg7) = m ((c : Thread nD τ).loc main_arg7) :=
  W13_unwritten m ρ c main_arg7 (by decide)
theorem W13_main_arg8 (c : Dev nD) : W13 m ρ c (Proc.devRef .tc main_arg8) = m ((c : Thread nD τ).loc main_arg8) :=
  W13_unwritten m ρ c main_arg8 (by decide)
theorem W13_main_arg9 (c : Dev nD) : W13 m ρ c (Proc.devRef .tc main_arg9) = m ((c : Thread nD τ).loc main_arg9) :=
  W13_unwritten m ρ c main_arg9 (by decide)
theorem W13_main_arg10 (c : Dev nD) : W13 m ρ c (Proc.devRef .tc main_arg10) = m ((c : Thread nD τ).loc main_arg10) :=
  W13_unwritten m ρ c main_arg10 (by decide)
theorem W13_main_arg11 (c : Dev nD) : W13 m ρ c (Proc.devRef .tc main_arg11) = m ((c : Thread nD τ).loc main_arg11) :=
  W13_unwritten m ρ c main_arg11 (by decide)

/-! ## The proof data family, and what rides beside the buffers -/

/-- Every pipeline's proof data, each at the contents its region is entered at. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
  | ⟨2, _⟩ => fun c => dat2 (V7 m ρ) c
  | ⟨3, _⟩ => fun c => dat3 (V10 m ρ) c
  | ⟨4, _⟩ => fun c => dat4 (V12 m ρ) c

/-- No variant, and no level assigned: no core owes another anything. -/
abbrev noVariants : Variants := Variants.none
abbrev noPairs : GSem nD τ sig → Finset Unit := fun _ => ∅
abbrev noLevel : GSem nD τ sig → Unit → ℕ := fun _ _ => 0

/-- What rides beside the buffers through every item: the core's generator register at some state (a region's
    invariant takes it in and gives it back), and the core owing nothing. -/
abbrev Ride (c : Dev nD) : sProp 𝕄 :=
  iprop((∃ r, prngReg c r) ∗ ∃ W, owes (c : Thread nD τ) (0 : CellTallies nD τ sig Unit) W)

/-- The thread state at a boundary: every unscoped buffer at the boundary's contents, and what rides along. -/
abbrev At (W : Dev nD → Valuation τ sig (Elt F)) (c : Dev nD) : sProp 𝕄 :=
  iprop(StableHlo.held (c : Thread nD τ) (Pipeline.ucRefs τ sig) (W c) ∗ Ride c)

/-- A host stretch as a segment from the boundary before it: it runs to the unscoped buffers at what its operations
    leave, which is the next boundary's contents by name. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A region as a segment between two boundaries -/

set_option backward.isDefEq.respectTransparency.types false in
/-- Region `p` of this program as a segment from the boundary `Wi` to the boundary `We`, given: its body obligation; that
    its proof data hold every input at the full share, owe nothing, bound the recorded pairs by nothing, and read their entry contents off `Wi`; that their
    invariant is entered from the class invariant and left to it; and that `We` has the region's arrays at what the
    pipeline leaves and agrees with `Wi` elsewhere. At entry the arrays are split out of the unscoped buffers, the
    generator register goes into the invariant; at exit both come back, the arrays at `We`. The kernel has no semaphore
    of its own, and no prefetched table. -/
def regionSeg (p : Fin 5) (lf : Pipeline.LaunchFacts (nD := nD) (τ := τ) cfgs p)
    (Wi We : Dev nD → Valuation τ sig (Elt F))
    (hbody : ∀ c, BodyObligation (pdats m ρ p c) (defs₀ (F := F)) noVariants () Set.univ)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Wi c (Proc.devRef .tc (Pipeline.arrRef (cfgs p).spec w)))
    (hΦin : ∀ c, Pipeline.ΦA (cfgs p).spec c ⊢ (pdats m ρ p c).Φ 0)
    (hΦout : ∀ c, (pdats m ρ p c).Φ (Fin.last (cfgs p).N) ⊢ Pipeline.ΦA (cfgs p).spec c)
    (hF : ∀ c w, (pdats m ρ p c).arrAt w (cfgs p).N = We c (Proc.devRef .tc (Pipeline.arrRef (cfgs p).spec w)))
    (hrest : ∀ c (b : Ref sig .tc), b ∉ Finset.univ.image (Pipeline.arrRef (cfgs p).spec) →
      We c (Proc.devRef .tc b) = Wi c (Proc.devRef .tc b)) :
    Pipeline.RegionSeg (pcfgs (F := F)) adm (pdats m ρ) () defs₀ noVariants noPairs noLevel p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noPairs noLevel p howed
  pre := At Wi
  post := At We
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun _ _ => Or.inl (by rw [hrec c 0]; exact Set.mem_univ _)
      iexact HO
    isplitl [Hp]; · iexact Hp
    iexact Hrest
  hin c := by
    iintro ⟨Hp, -, Hr⟩
    iapply (hΦin c)
    unfold Pipeline.ΦA
    isplitl [Hr]; · iexact Hr
    iexact Hp
  hout c := by
    rw [Pipeline.ownSems0_none]
    iintro Hinv
    ihave H := (hΦout c) $$ Hinv
    unfold Pipeline.ΦA
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => We c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-! ## The five regions -/

/-- Region 0, the first projection: from the third stretch's boundary to `W4`. -/
def reg0 : Pipeline.RegionSeg (pcfgs (F := F)) adm (pdats m ρ) () defs₀ noVariants noPairs noLevel 0 :=
  regionSeg m ρ 0 launch0 (W3 m ρ) (W4 m ρ) (fun c => body_obligation0 (V3 m ρ) c) (fun _ _ => rfl) (fun _ _ => rfl) (fun _ _ => rfl)
    (fun c => A_eq0 (V3 m ρ) c) (fun _ => .rfl) (fun _ => .rfl) (fun c w => (W4_arr m ρ c w).symm)
    (fun c => afterRegion_rest c _ _)

/-- Region 1, the first layer's bias and rectification: from the fifth stretch's boundary to `W7`. -/
def reg1 : Pipeline.RegionSeg (pcfgs (F := F)) adm (pdats m ρ) () defs₀ noVariants noPairs noLevel 1 :=
  regionSeg m ρ 1 launch1 (W6 m ρ) (W7 m ρ) (fun c => body_obligation1 (V6 m ρ) c) (fun _ _ => rfl) (fun _ _ => rfl) (fun _ _ => rfl)
    (fun c => A_eq1 (V6 m ρ) c) (fun _ => .rfl) (fun _ => .rfl) (fun c w => (W7_arr m ρ c w).symm)
    (fun c => afterRegion_rest c _ _)

/-- Region 2, the second projection: entered where region 1 leaves, to `W8`. -/
def reg2 : Pipeline.RegionSeg (pcfgs (F := F)) adm (pdats m ρ) () defs₀ noVariants noPairs noLevel 2 :=
  regionSeg m ρ 2 launch2 (W7 m ρ) (W8 m ρ) (fun c => body_obligation2 (V7 m ρ) c) (fun _ _ => rfl) (fun _ _ => rfl) (fun _ _ => rfl)
    (fun c => A_eq2 (V7 m ρ) c) (fun _ => .rfl) (fun _ => .rfl) (fun c w => (W8_arr m ρ c w).symm)
    (fun c => afterRegion_rest c _ _)

/-- Region 3, the second layer's bias and rectification: from the seventh stretch's boundary to `W11`. -/
def reg3 : Pipeline.RegionSeg (pcfgs (F := F)) adm (pdats m ρ) () defs₀ noVariants noPairs noLevel 3 :=
  regionSeg m ρ 3 launch3 (W10 m ρ) (W11 m ρ) (fun c => body_obligation3 (V10 m ρ) c) (fun _ _ => rfl) (fun _ _ => rfl) (fun _ _ => rfl)
    (fun c => A_eq3 (V10 m ρ) c) (fun _ => .rfl) (fun _ => .rfl) (fun c w => (W11_arr m ρ c w).symm)
    (fun c => afterRegion_rest c _ _)

/-- Region 4, the pooled head: from the eighth stretch's boundary to the last. Its invariant carries the running pooled
    sum between grid points; it is entered from the class invariant and left to it. -/
def reg4 : Pipeline.RegionSeg (pcfgs (F := F)) adm (pdats m ρ) () defs₀ noVariants noPairs noLevel 4 :=
  regionSeg m ρ 4 launch4 (W12 m ρ) (W13 m ρ) (fun c => body_obligation4 (V12 m ρ) c) (fun _ _ => rfl) (fun _ _ => rfl) (fun _ _ => rfl)
    (fun c => A_eq4 (V12 m ρ) c) (fun c => hin4 (V12 m ρ) c) (fun c => hout4 (V12 m ρ) c) (fun c w => (W13_arr m ρ c w).symm)
    (fun c => afterRegion_rest c _ _)

/-! ## @main as thirteen segments, and the launch -/

/-- @main's items in order: each host stretch from the boundary before it, each region between its two boundaries. -/
abbrev segs : List (Pipeline.Seg (pcfgs (F := F)) adm (pdats m ρ) () defs₀ noVariants noPairs noLevel) :=
  [ .host (hostSeg hostOps0 hostOps0_sub hostOps0_fresh (W0 m ρ)),
    .host (hostSeg hostOps0_1 hostOps0_1_sub hostOps0_1_fresh (W1 m ρ)),
    .host (hostSeg hostOps0_2 hostOps0_2_sub hostOps0_2_fresh (W2 m ρ)),
    .region (reg0 m ρ),
    .host (hostSeg hostOps1 hostOps1_sub hostOps1_fresh (W4 m ρ)),
    .host (hostSeg hostOps1_1 hostOps1_1_sub hostOps1_1_fresh (W5 m ρ)),
    .region (reg1 m ρ),
    .region (reg2 m ρ),
    .host (hostSeg hostOps3 hostOps3_sub hostOps3_fresh (W8 m ρ)),
    .host (hostSeg hostOps3_1 hostOps3_1_sub hostOps3_1_fresh (W9 m ρ)),
    .region (reg3 m ρ),
    .host (hostSeg hostOps4 hostOps4_sub hostOps4_fresh (W11 m ρ)),
    .region (reg4 m ρ) ]

/-- The last thread state beside the core owing nothing: every unscoped buffer at the last boundary's contents, the
    generator register at some state. -/
abbrev AtEnd (c : Dev nD) : sProp 𝕄 :=
  iprop(StableHlo.held (c : Thread nD τ) (Pipeline.ucRefs τ sig) (W13 m ρ c) ∗ ∃ r, prngReg c r)

/-- The last boundary's thread state, regrouped as the launch reads it: the buffers and the generator register beside
    the core owing nothing. -/
theorem at_end (c : Dev nD) :
    At (W13 m ρ) c ⊢ iprop(AtEnd m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN, at any post that follows from the last boundary: at the compiled mesh, from any memory with zero
    counters, every weakly fair execution of @main on the TensorCores terminates, nothing faulting, and every final
    memory has every unscoped buffer of every core at the last fold `W13`. @main is the chain of its items and the
    segments' run is the chain of their fragments; the thread states chain by name; the launch deals each core its
    unscoped buffers at the launch contents, its generator register and nothing owed; the last thread state is read
    against the final state. -/
theorem run_to {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ noVariants noPairs noLevel m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          Prog.lift (.customCall (Pipeline.entry 2) ()),
          StableHlo.seq hostOps3,
          StableHlo.seq hostOps3_1,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m ρ)) (Tₙ := AtEnd m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => at_end m ρ c⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- Every execution terminates with every unscoped buffer of every core at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  run_to m ρ fun _ h => h

/-- The twelve argument arrays, read off a final memory that has every unscoped buffer at the last fold. -/
theorem args_as_launched (s : MemSt nD τ sig (Elt F))
    (h : ∀ c : Dev nD, ∀ b ∈ Pipeline.ucRefs τ sig, s.mem (((c : Thread nD τ)).1, b) = W13 m ρ c b) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11) :=
  ⟨(h c _ (mem_uc main_arg0 (by decide))).trans (W13_main_arg0 m ρ c),
   (h c _ (mem_uc main_arg1 (by decide))).trans (W13_main_arg1 m ρ c),
   (h c _ (mem_uc main_arg2 (by decide))).trans (W13_main_arg2 m ρ c),
   (h c _ (mem_uc main_arg3 (by decide))).trans (W13_main_arg3 m ρ c),
   (h c _ (mem_uc main_arg4 (by decide))).trans (W13_main_arg4 m ρ c),
   (h c _ (mem_uc main_arg5 (by decide))).trans (W13_main_arg5 m ρ c),
   (h c _ (mem_uc main_arg6 (by decide))).trans (W13_main_arg6 m ρ c),
   (h c _ (mem_uc main_arg7 (by decide))).trans (W13_main_arg7 m ρ c),
   (h c _ (mem_uc main_arg8 (by decide))).trans (W13_main_arg8 m ρ c),
   (h c _ (mem_uc main_arg9 (by decide))).trans (W13_main_arg9 m ρ c),
   (h c _ (mem_uc main_arg10 (by decide))).trans (W13_main_arg10 m ρ c),
   (h c _ (mem_uc main_arg11 (by decide))).trans (W13_main_arg11 m ρ c)⟩

/-- The frame: every execution terminates and every final memory holds each argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_to m ρ fun s h c => args_as_launched m ρ s h c

/-- The result: every execution terminates, every final memory holds in `main_v55` what the last fold names there,
    and each argument array as launched. -/
theorem result_all : θ_run defs (onTc (τ := τ) (main (F := F))) ⟨m, fun _ => 0, ρ⟩ (fun r => ∀ c : Dev nD,
      r.2.mem ((c.tc : Thread nD τ).loc main_v55) = W13 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_to m ρ fun s h c => ⟨h c _ (mem_uc main_v55 (by decide)), args_as_launched m ρ s h c⟩

end Cert.Kernel.Hand

end
-- ==== Proof.HostStages.lean ====
/-
  The opening host stretches of the kernel program read as stages of the reference program. Before the first dense
  projection the program prepares the graph's normalisation on the host, in three stretches: the edge list with one
  self-loop per node appended (row, col), the edge weights with a one per self-loop (w), the weighted in-degree
  deg = segment-sum of w over col, with deg > 0 and 1/√deg; then dinv = where (deg > 0) (1/√deg) 0; then
  norm = dinv[row] · w · dinv[col]. Each stretch's results, as functions of the buffers the stretch starts from, are
  the reference's own stage functions of the same inputs; chained, the buffers after the three stretches are the
  reference's stages of the program's arguments, and no stretch writes an argument. Stated for any float
  instance: the two programs apply the same operations, so no arithmetic is opened.
-/
import proofs.«413692_j83004537962758_2_alg».proof.KernelIdeal
import proofs.«413692_j83004537962758_2_alg».proof.ReferenceIdeal
import proofs.«413692_j83004537962758_2_alg».proof.Proof.Gen.KernelIdeal.Launch
import proofs.«413692_j83004537962758_2_alg».proof.Proof.Gen.KernelIdeal.Regions
import proofs.«413692_j83004537962758_2_alg».proof.Proof.Gen.ReferenceIdeal.Read
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.StableHlo

variable {F : FTy → Type} [FloatOps F]

/-! ## The first stretch: the edge list, the weights and the degree, from the arguments -/

section
variable (U : Valuation τ sig (Elt F))

set_option maxHeartbeats 4000000 in
/-- row: the source node of every edge, then every node once for its self-loop. -/
theorem first_row : StableHlo.after hostOps0 U (Proc.devRef .tc main_v3)
    = Cert.ReferenceIdeal.Read.val_main_v3 (F := F) (U (Proc.devRef .tc main_arg1)) := by
  after_results; rfl

set_option maxHeartbeats 4000000 in
/-- col: the target node of every edge, then every node once. -/
theorem first_col : StableHlo.after hostOps0 U (Proc.devRef .tc main_v6)
    = Cert.ReferenceIdeal.Read.val_main_v6 (F := F) (U (Proc.devRef .tc main_arg1)) := by
  after_results; rfl

set_option maxHeartbeats 4000000 in
/-- w: the edge weights, then a one for every self-loop. -/
theorem first_weight : StableHlo.after hostOps0 U (Proc.devRef .tc main_v8)
    = Cert.ReferenceIdeal.Read.val_main_v8 (F := F) (U (Proc.devRef .tc main_arg2)) := by
  after_results; rfl

set_option maxHeartbeats 8000000 in
/-- deg > 0, for deg the sum of w over the edges that end at a node. -/
theorem first_deg_pos : StableHlo.after hostOps0 U (Proc.devRef .tc main_v13)
    = Cert.ReferenceIdeal.Read.val_main_v13 (F := F) (U (Proc.devRef .tc main_arg1)) (U (Proc.devRef .tc main_arg2)) := by
  after_results; rfl

set_option maxHeartbeats 8000000 in
/-- 1/√deg. -/
theorem first_deg_rsqrt : StableHlo.after hostOps0 U (Proc.devRef .tc main_v14)
    = Cert.ReferenceIdeal.Read.val_main_v14 (F := F) (U (Proc.devRef .tc main_arg1)) (U (Proc.devRef .tc main_arg2)) := by
  after_results; rfl

/-- The zero that stands in where deg is not positive. -/
theorem first_zero : StableHlo.after hostOps0 U (Proc.devRef .tc main_cst_2)
    = Cert.ReferenceIdeal.Read.val_main_cst_2 (F := F) := by
  after_results; rfl

end

/-! ## The middle and the last stretch, from whatever they start on -/

section
variable (W : Valuation τ sig (Elt F))
variable (x1 : (⟨Cert.ReferenceIdeal.S2x1600000, .i32⟩ : BufTy).Contents (Elt F))
variable (x2 : (⟨Cert.ReferenceIdeal.S1600000, .f32⟩ : BufTy).Contents (Elt F))

/-- dinv = where (deg > 0) (1/√deg) 0: the middle stretch, started where deg > 0, 1/√deg and the zero are the
    reference's, ends with dinv the reference's. -/
theorem middle_dinv
    (hpos : W (Proc.devRef .tc main_v13) = Cert.ReferenceIdeal.Read.val_main_v13 (F := F) x1 x2)
    (hrsq : W (Proc.devRef .tc main_v14) = Cert.ReferenceIdeal.Read.val_main_v14 (F := F) x1 x2)
    (hzero : W (Proc.devRef .tc main_cst_2) = Cert.ReferenceIdeal.Read.val_main_cst_2 (F := F)) :
    StableHlo.after hostOps0_1 W (Proc.devRef .tc main_v15) = Cert.ReferenceIdeal.Read.val_main_v15 (F := F) x1 x2 := by
  after_results_simp
  simp only [TRef.ofBuf, TRef.toBuf, cast_eq]
  rw [hpos, hrsq, hzero]
  rfl

set_option maxHeartbeats 4000000 in
/-- norm = dinv[row] · w · dinv[col]: the last stretch, started where row, col, w and dinv are the reference's, ends
    with norm the reference's. -/
theorem last_norm
    (hrow : W (Proc.devRef .tc main_v3) = Cert.ReferenceIdeal.Read.val_main_v3 (F := F) x1)
    (hcol : W (Proc.devRef .tc main_v6) = Cert.ReferenceIdeal.Read.val_main_v6 (F := F) x1)
    (hw : W (Proc.devRef .tc main_v8) = Cert.ReferenceIdeal.Read.val_main_v8 (F := F) x2)
    (hdinv : W (Proc.devRef .tc main_v15) = Cert.ReferenceIdeal.Read.val_main_v15 (F := F) x1 x2) :
    StableHlo.after hostOps0_2 W (Proc.devRef .tc main_v31) = Cert.ReferenceIdeal.Read.val_main_v31 (F := F) x1 x2 := by
  after_results_simp
  rw [hrow, hcol, hw, hdinv]
  rfl

/-- The middle stretch leaves what it does not write. -/
theorem middle_keeps (r : Ref sig .tc) (h : r ∉ hostOps0_1_W) :
    StableHlo.after hostOps0_1 W (Proc.devRef .tc r) = W (Proc.devRef .tc r) :=
  StableHlo.after_of_writes_sub hostOps0_1 W hostOps0_1_writes h

/-- The last stretch leaves what it does not write. -/
theorem last_keeps (r : Ref sig .tc) (h : r ∉ hostOps0_2_W) :
    StableHlo.after hostOps0_2 W (Proc.devRef .tc r) = W (Proc.devRef .tc r) :=
  StableHlo.after_of_writes_sub hostOps0_2 W hostOps0_2_writes h

end

/-! ## The three stretches, chained -/

section
variable (U : Valuation τ sig (Elt F))

/-- The valuation after the three opening host stretches. -/
def open3 : Valuation τ sig (Elt F) :=
  StableHlo.after hostOps0_2 (StableHlo.after hostOps0_1 (StableHlo.after hostOps0 U))

/-- row after the three stretches is the reference's: the first writes it, the other two leave it. -/
theorem open3_rows : open3 U (Proc.devRef .tc main_v3)
    = Cert.ReferenceIdeal.Read.val_main_v3 (F := F) (U (Proc.devRef .tc main_arg1)) := by
  unfold open3
  exact (last_keeps _ main_v3 (by decide)).trans ((middle_keeps _ main_v3 (by decide)).trans (first_row U))

/-- col likewise. -/
theorem open3_cols : open3 U (Proc.devRef .tc main_v6)
    = Cert.ReferenceIdeal.Read.val_main_v6 (F := F) (U (Proc.devRef .tc main_arg1)) := by
  unfold open3
  exact (last_keeps _ main_v6 (by decide)).trans ((middle_keeps _ main_v6 (by decide)).trans (first_col U))

/-- norm after the three stretches is the reference's: the last stretch finds row, col and w as the first left
    them and dinv as the middle one made it. -/
theorem open3_norm : open3 U (Proc.devRef .tc main_v31)
    = Cert.ReferenceIdeal.Read.val_main_v31 (F := F) (U (Proc.devRef .tc main_arg1)) (U (Proc.devRef .tc main_arg2)) := by
  unfold open3
  exact last_norm _ _ _
    ((middle_keeps _ main_v3 (by decide)).trans (first_row U))
    ((middle_keeps _ main_v6 (by decide)).trans (first_col U))
    ((middle_keeps _ main_v8 (by decide)).trans (first_weight U))
    (middle_dinv _ _ _ (first_deg_pos U) (first_deg_rsqrt U) (first_zero U))

/-- A buffer none of the three stretches writes is as it was. -/
theorem open3_keeps (r : Ref sig .tc) (h0 : r ∉ hostOps0_W) (h1 : r ∉ hostOps0_1_W) (h2 : r ∉ hostOps0_2_W) :
    open3 U (Proc.devRef .tc r) = U (Proc.devRef .tc r) := by
  unfold open3
  exact (last_keeps _ r h2).trans ((middle_keeps _ r h1).trans (StableHlo.after_of_writes_sub hostOps0 U hostOps0_writes h0))

/-! The arguments are such buffers. -/
theorem open3_arg0 : open3 U (Proc.devRef .tc main_arg0) = U (Proc.devRef .tc main_arg0) := open3_keeps U main_arg0 (by decide) (by decide) (by decide)
theorem open3_arg1 : open3 U (Proc.devRef .tc main_arg1) = U (Proc.devRef .tc main_arg1) := open3_keeps U main_arg1 (by decide) (by decide) (by decide)
theorem open3_arg2 : open3 U (Proc.devRef .tc main_arg2) = U (Proc.devRef .tc main_arg2) := open3_keeps U main_arg2 (by decide) (by decide) (by decide)
theorem open3_arg3 : open3 U (Proc.devRef .tc main_arg3) = U (Proc.devRef .tc main_arg3) := open3_keeps U main_arg3 (by decide) (by decide) (by decide)
theorem open3_arg4 : open3 U (Proc.devRef .tc main_arg4) = U (Proc.devRef .tc main_arg4) := open3_keeps U main_arg4 (by decide) (by decide) (by decide)
theorem open3_arg5 : open3 U (Proc.devRef .tc main_arg5) = U (Proc.devRef .tc main_arg5) := open3_keeps U main_arg5 (by decide) (by decide) (by decide)
theorem open3_arg6 : open3 U (Proc.devRef .tc main_arg6) = U (Proc.devRef .tc main_arg6) := open3_keeps U main_arg6 (by decide) (by decide) (by decide)
theorem open3_arg7 : open3 U (Proc.devRef .tc main_arg7) = U (Proc.devRef .tc main_arg7) := open3_keeps U main_arg7 (by decide) (by decide) (by decide)
theorem open3_arg8 : open3 U (Proc.devRef .tc main_arg8) = U (Proc.devRef .tc main_arg8) := open3_keeps U main_arg8 (by decide) (by decide) (by decide)
theorem open3_arg9 : open3 U (Proc.devRef .tc main_arg9) = U (Proc.devRef .tc main_arg9) := open3_keeps U main_arg9 (by decide) (by decide) (by decide)
theorem open3_arg10 : open3 U (Proc.devRef .tc main_arg10) = U (Proc.devRef .tc main_arg10) := open3_keeps U main_arg10 (by decide) (by decide) (by decide)
theorem open3_arg11 : open3 U (Proc.devRef .tc main_arg11) = U (Proc.devRef .tc main_arg11) := open3_keeps U main_arg11 (by decide) (by decide) (by decide)

end

end Cert.KernelIdeal.HandValue

end
-- ==== Proof.TakeRows.lean ====
/-
  Gathering feature rows by index. The program's row gather first wraps a negative row index round by the table's
  height, then gathers with the wrapped column of indices, and last replaces every gathered row whose wrapped index
  lies outside the table by a row of not-a-number words. When every row index is already a row of the table the
  wrap changes nothing, the test passes on every row, and what is left is the bare gather at the wrapped indices.
  The row indices the program uses are the first row of the edge list followed by 0, 1, …, 99999: they are rows of
  the table as soon as the edge list's entries are.
-/
import proofs.«413692_j83004537962758_2_alg».proof.KernelIdeal
import proofs.«413692_j83004537962758_2_alg».proof.Proof.Gen.KernelIdeal
import Idealize.ShloMosaic.Lib.StableHlo.Predicate
import Idealize.ShloMosaic.Lib.ReduceAll
import Idealize.ShloMosaic.Lib.Pipeline.Value
import Idealize.ShloMosaic.Lib.ValueIdx

set_option maxRecDepth 16384

noncomputable section

namespace Cert.KernelIdeal.HandValue

open Cert.KernelIdeal Cert.KernelIdeal.Gen
open Idealize.ShloMosaic Idealize.ShloMosaic.ValueIdx

variable {F : FTy → Type} [FloatOps F]

/-! ## Words -/

/-- A word that is not negative is left alone by the wrap "add the height if negative". -/
theorem wrap_word_of_nonneg (a : BitVec 32) (h : 0 ≤ a.toInt) :
    Scalar.select (IntOp.cmpi .slt a 0#32) (IntOp.addi a 100000#32) a = a := by
  have hc : IntOp.cmpi .slt a 0#32 = 0#1 := by
    have h0 : (0#32 : BitVec 32).toInt = 0 := by decide
    have : a.slt 0#32 = false := by
      simp only [BitVec.slt, h0, decide_eq_false_iff_not]; omega
    unfold IntOp.cmpi; simp only [this]; rfl
  rw [hc, select_zero]

/-- A word between 0 and 99999 passes the two-sided test "at least 0 and at most 99999". -/
theorem in_table_word (a : BitVec 32) (h0 : 0 ≤ a.toInt) (h1 : a.toInt < 100000) :
    IntOp.andi (IntOp.cmpi .sge a 0#32) (IntOp.cmpi .sle a 99999#32) = 1#1 := by
  have z0 : (0#32 : BitVec 32).toInt = 0 := by decide
  have z1 : (99999#32 : BitVec 32).toInt = 99999 := by decide
  have hge : IntOp.cmpi .sge a 0#32 = 1#1 := by
    have : (0#32 : BitVec 32).sle a = true := by
      simp only [BitVec.sle, z0, decide_eq_true_eq]; exact h0
    unfold IntOp.cmpi; simp only [this]; rfl
  have hle : IntOp.cmpi .sle a 99999#32 = 1#1 := by
    have : a.sle 99999#32 = true := by
      simp only [BitVec.sle, z1, decide_eq_true_eq]; omega
    unfold IntOp.cmpi; simp only [this]; rfl
  rw [hge, hle]; rfl

/-! ## The "and" over an axis of a mask that is set everywhere -/

/-- A left fold by "and" that starts at 1 and meets only 1s ends at 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The "and"-reduction, from the constant 1, of a mask that is 1 at every index is 1 at every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ k, x k = 1#1) (j : t.Idx) :
    Host.reduce IntOp.andi x init h hu j = 1#1 := by
  rw [Host.reduce_eq_foldl, hinit]
  exact foldl_andi_one x _ fun k _ => hx k

/-! ## The gather of feature rows -/

/-- The column of wrapped row indices the gather is started at: a negative index has the table's height added. -/
def wrapRows (i : IVec S1700000 32) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The test "the wrapped index is a row of the table", per gathered row: at least 0 and at most 99999, the two
    compares joined by "and", reduced by "and" along the column's unit axis. -/
def rowInTable (i : IVec S1700000 32) : IVec S1700000 1 :=
  Host.reduce IntOp.andi
    (andi
      (cmpi .sge (wrapRows i) (broadcastInDim S1700000x1 ![] bcast_S_S1700000x1 (constantI S_ 32 0#32)))
      (cmpi .sle (wrapRows i)
        (broadcastInDim S1700000x1 ![0, 1] bcast_S1x1_S1700000x1_0_1
          (broadcastInDim S1x1 ![1] bcast_S1_S1x1_1 (constantI S1 32 99999#32)))))
    (constantI S_ 1 1#1) reducesTo_S1700000x1_S1700000_d1 h_S_

/-- The program's row gather: the gather at the wrapped indices, every row that fails the test replaced by
    not-a-number words. -/
def takeRows (x : FVec F S100000x64 .f32) (i : IVec S1700000 32) : FVec F S1700000x64 .f32 :=
  select (broadcastInDim S1700000x64 ![0] bcast_S1700000_S1700000x64_0 (rowInTable i))
    (Host.gather gather_S100000x64_S1700000x1_S1700000x64_1_0_n_n_0_1_164 x (wrapRows i))
    (broadcastInDim S1700000x64 ![] bcast_S_S1700000x64 (constant (F := F) S_ .f32 0x7FC00000#32))

/-- The wrapped column at row e, when the index of e is not negative, is that index. -/
theorem wrapRows_apply (i : IVec S1700000 32) (k : S1700000x1.Idx) (h : 0 ≤ (i (ix1 (k 0))).toInt) :
    wrapRows i k = i (ix1 (k 0)) := by
  unfold wrapRows
  refine (broadcastInDim_apply _ _ _ k (ix1 (k 0)) fun a => ?_).trans ?_
  · match a with
    | ⟨0, _⟩ => rfl
  · show Scalar.select (IntOp.cmpi .slt (i (ix1 (k 0))) 0#32) (IntOp.addi (i (ix1 (k 0))) 100000#32) (i (ix1 (k 0))) = _
    exact wrap_word_of_nonneg _ h

/-- With every row index a row of the table, the test passes on every gathered row. -/
theorem rowInTable_eq_one (i : IVec S1700000 32)
    (hi : ∀ e : Fin 1700000, 0 ≤ (i (ix1 e)).toInt ∧ (i (ix1 e)).toInt < 100000) (j : S1700000.Idx) :
    rowInTable i j = 1#1 := by
  unfold rowInTable
  refine reduce_andi_of_all_one _ _ _ _ rfl (fun k => ?_) j
  show IntOp.andi (IntOp.cmpi .sge (wrapRows i k) 0#32) (IntOp.cmpi .sle (wrapRows i k) 99999#32) = 1#1
  rw [wrapRows_apply i k (hi (k 0)).1]
  exact in_table_word _ (hi (k 0)).1 (hi (k 0)).2

/-- With every row index a row of the table, the program's row gather is the bare gather at the wrapped indices. -/
theorem takeRows_eq_gather (x : FVec F S100000x64 .f32) (i : IVec S1700000 32)
    (hi : ∀ e : Fin 1700000, 0 ≤ (i (ix1 e)).toInt ∧ (i (ix1 e)).toInt < 100000) :
    takeRows x i = Host.gather gather_S100000x64_S1700000x1_S1700000x64_1_0_n_n_0_1_164 x (wrapRows i) := by
  funext j
  unfold takeRows
  rw [select_apply]
  have hm : broadcastInDim S1700000x64 ![0] bcast_S1700000_S1700000x64_0 (rowInTable i) j = 1#1 :=
    rowInTable_eq_one i hi _
  rw [hm, select_one]

/-! ## The row indices the program gathers at -/

/-- The program's row indices: the first row of the edge list, then 0, 1, …, 99999 (every node's own row). -/
def rowIdx (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩]
    concatenates_S1600000_S100000_S1700000_d0

/-- Below 1600000 the row index is the edge list's first-row entry of that position. -/
theorem rowIdx_edge (ei : IVec S2x1600000 32) (e : Fin 1700000) (he : e.val < 1600000) :
    rowIdx ei (ix1 e) = ei (ix2 (0 : Fin 2) (⟨e.val, he⟩ : Fin 1600000)) := by
  unfold rowIdx
  refine (concatenate_pair_apply_left (t := S1700000) (s₁ := S1600000) (s₂ := S100000) (0 : Fin S1700000.rank) _ _ _ (ix1 e) rfl (ix1 (⟨e.val, he⟩ : Fin 1600000)) fun b => ?_).trans ?_
  · match b with
    | ⟨0, _⟩ => rfl
  refine (shapeCast_apply _ _ (ix1 (⟨e.val, he⟩ : Fin 1600000)) (ix2 (0 : Fin 1) (⟨e.val, he⟩ : Fin 1600000)) ?_).trans ?_
  · rw [Shape.rowMajor_val_two, Shape.rowMajor_val_one]
    show 0 * 1600000 + e.val = e.val
    omega
  refine extractStridedSlice_apply _ _ _ _ (ix2 (0 : Fin 2) (⟨e.val, he⟩ : Fin 1600000)) fun a => ?_
  match a with
  | ⟨0, _⟩ => rfl
  | ⟨1, _⟩ =>
    show e.val = 0 + e.val
    omega

/-- From 1600000 on the row index is the position less 1600000, as a word. -/
theorem rowIdx_self (ei : IVec S2x1600000 32) (e : Fin 1700000) (he : 1600000 ≤ e.val) :
    rowIdx ei (ix1 e) = BitVec.ofNat 32 (e.val - 1600000) := by
  unfold rowIdx
  have hlt : e.val - 1600000 < 100000 := by have := e.isLt; omega
  refine (concatenate_pair_apply_right (t := S1700000) (s₁ := S1600000) (s₂ := S100000) (0 : Fin S1700000.rank) _ _ _ (ix1 e) rfl rfl (ix1 (⟨e.val - 1600000, hlt⟩ : Fin 100000))
    (fun b hb => ?_) ?_).trans ?_
  · exact absurd (Subsingleton.elim (α := Fin 1) _ _) hb
  · show e.val - 1600000 + 1600000 = e.val
    omega
  · rfl

/-- If every entry of the edge list is a row of the table, so is every row index the program gathers at. -/
theorem rows_in_range (ei : IVec S2x1600000 32)
    (h : ∀ (r : Fin 2) (e : Fin 1600000), 0 ≤ (ei (ix2 r e)).toInt ∧ (ei (ix2 r e)).toInt < 100000) :
    ∀ e : Fin 1700000, 0 ≤ (rowIdx ei (ix1 e)).toInt ∧ (rowIdx ei (ix1 e)).toInt < 100000 := by
  intro e
  by_cases he : e.val < 1600000
  · rw [rowIdx_edge ei e he]
    exact h 0 ⟨e.val, he⟩
  · have hlt : e.val - 1600000 < 100000 := by have := e.isLt; omega
    rw [rowIdx_self ei e (by omega), StableHlo.Predicate.toInt_ofNat_small _ (by omega)]
    omega

end Cert.KernelIdeal.HandValue
-- ==== Proof.Reshapes.lean ====
/-
  Four vectors reach the two programs' tensor kernels as rank-2 arrays. The kernel program reshapes each on the host
  (the elements in row-major order at the new shape); the reference program broadcasts each along a new unit axis.
  Adding a unit axis moves no element, so as whole arrays the two results are equal: three row vectors [a] ↦ [1, a]
  (the two layers' biases, the head's two biases) and one column [n] ↦ [n, 1] (the graph ids).
-/
import proofs.«413692_j83004537962758_2_alg».proof.KernelIdeal
import proofs.«413692_j83004537962758_2_alg».proof.ReferenceIdeal
import proofs.«413692_j83004537962758_2_alg».proof.Proof.Gen.KernelIdeal
import proofs.«413692_j83004537962758_2_alg».proof.Proof.Gen.ReferenceIdeal
import Idealize.ShloMosaic.Lib.Pipeline.Value
import Idealize.ShloMosaic.Lib.ValueIdx
import Idealize.ShloMosaic.Lib.ValueLayout

namespace Cert.KernelIdeal.HandValue

open Idealize.ShloMosaic Idealize.ShloMosaic.ValueIdx

/-! ## A vector given a unit axis, by a reshape or by a broadcast -/

section UnitAxis
variable {α : Type}

/-- A vector of length a as a ROW: at (u, i) both the reshape to [1, a] and the broadcast that puts the vector's axis
    second read the vector at i. The reshape keeps row-major position, u · a + i = i since u = 0; the broadcast reads
    the second coordinate, and when a = 1 reads position 0, which is then i. -/
theorem row_reshape_eq_broadcast {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  have h0 := idx2_lt0 j
  have h1 := idx2_lt1 j
  refine (shapeCast_apply x h j (ix1 (j 1)) ?_).trans
    (broadcastInDim_apply _ h' x j (ix1 (j 1)) fun b => ?_).symm
  · rw [Shape.rowMajor_val_two, Shape.rowMajor_val_one]
    show (j 1).val = (j 0).val * a + (j 1).val
    have hu : (j 0).val = 0 := by omega
    rw [hu, Nat.zero_mul, Nat.zero_add]
  · match b with
    | ⟨0, _⟩ =>
      show (j 1).val = if a = 1 then 0 else (j 1).val
      split <;> omega

/-- A vector of length n as a COLUMN: at (i, u) both the reshape to [n, 1] and the broadcast that puts the vector's
    axis first read the vector at i. Row-major position i · 1 + u = i since u = 0; the broadcast reads the first
    coordinate, and when n = 1 reads position 0, which is then i. -/
theorem column_reshape_eq_broadcast {n : ℕ} (x : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) h' x := by
  funext j
  have h0 := idx2_lt0 j
  have h1 := idx2_lt1 j
  refine (shapeCast_apply x h j (ix1 (j 0)) ?_).trans
    (broadcastInDim_apply _ h' x j (ix1 (j 0)) fun b => ?_).symm
  · rw [Shape.rowMajor_val_two, Shape.rowMajor_val_one]
    show (j 0).val = (j 0).val * 1 + (j 1).val
    omega
  · match b with
    | ⟨0, _⟩ =>
      show (j 0).val = if n = 1 then 0 else (j 0).val
      split <;> omega

end UnitAxis

/-! ## The four reshapes of this program -/

variable {F : FTy → Type}

/-- The bias row of either graph-convolution layer (64 features). -/
theorem reshape_row64 (x : FVec F Cert.KernelIdeal.S64 .f32) :
    shapeCast Cert.KernelIdeal.S1x64 x Cert.KernelIdeal.Facts₀.shapeCasts_S64_S1x64
      = broadcastInDim Cert.ReferenceIdeal.S1x64 ![1] Cert.ReferenceIdeal.Facts₀.bcast_S64_S1x64_1 x :=
  row_reshape_eq_broadcast x _ _

/-- The head's first bias row (32 hidden units). -/
theorem reshape_row32 (x : FVec F Cert.KernelIdeal.S32 .f32) :
    shapeCast Cert.KernelIdeal.S1x32 x Cert.KernelIdeal.Facts₀.shapeCasts_S32_S1x32
      = broadcastInDim Cert.ReferenceIdeal.S1x32 ![1] Cert.ReferenceIdeal.Facts₀.bcast_S32_S1x32_1 x :=
  row_reshape_eq_broadcast x _ _

/-- The head's second bias, a single number. -/
theorem reshape_row1 (x : FVec F Cert.KernelIdeal.S1 .f32) :
    shapeCast Cert.KernelIdeal.S1x1 x Cert.KernelIdeal.Facts₀.shapeCasts_S1_S1x1
      = broadcastInDim Cert.ReferenceIdeal.S1x1 ![1] Cert.ReferenceIdeal.Facts₀.bcast_S1_S1x1_1 x :=
  row_reshape_eq_broadcast x _ _

/-- The nodes' graph ids as a column. -/
theorem reshape_ids (b : IVec Cert.KernelIdeal.S100000 32) :
    shapeCast Cert.KernelIdeal.S100000x1 b Cert.KernelIdeal.Facts₀.shapeCasts_S100000_S100000x1
      = broadcastInDim Cert.ReferenceIdeal.S100000x1 ![0] Cert.ReferenceIdeal.Facts₀.bcast_S100000_S100000x1_0 b :=
  column_reshape_eq_broadcast b _ _

end Cert.KernelIdeal.HandValue
-- ==== Proof.AggStages.lean ====
/-
  The two aggregation stretches of the kernel program read as stages of the reference program. Each stretch gathers
  the projected feature rows at the edges' source rows, scales every gathered row by its edge's normalisation, and
  adds the scaled rows into a zero array at the edges' destination rows; beside that it lays the layer's bias out as
  a row. With every source row a row of the table the program's guarded gather is the bare gather, and the stretch's
  result is the reference's scatter stage of the same inputs.
-/
import proofs.«413692_j83004537962758_2_alg».proof.KernelIdeal
import proofs.«413692_j83004537962758_2_alg».proof.ReferenceIdeal
import proofs.«413692_j83004537962758_2_alg».proof.Proof.Gen.KernelIdeal.Launch
import proofs.«413692_j83004537962758_2_alg».proof.Proof.Gen.KernelIdeal.Regions
import proofs.«413692_j83004537962758_2_alg».proof.Proof.Gen.ReferenceIdeal.Read
import proofs.«413692_j83004537962758_2_alg».proof.Proof.TakeRows
import proofs.«413692_j83004537962758_2_alg».proof.Proof.Reshapes
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-- Contents carried into a typed reference's buffer and back are the contents. -/
theorem ofBuf_toBuf_id {T : BufTy} (x : TRef sig T) (v : T.Contents (Elt F)) : x.ofBuf (x.toBuf v) = v := by
  obtain ⟨r, h, h2, h3⟩ := x
  subst h
  rfl

/-! ## Aggregation 1 -/

section
variable (W : Valuation τ sig (Elt F))

attribute [local irreducible] Host.reduce Host.gather in
set_option maxHeartbeats 4000000 in
/-- The gather stretch leaves, in its result buffer, the guarded row gather of the features it found at the source
    rows it found. -/
theorem gathered1 : StableHlo.after hostOps1 W (Proc.devRef .tc main_v33)
    = takeRows (F := F) (W (Proc.devRef .tc main_v32)) (W (Proc.devRef .tc main_v3)) := by
  after_results_simp
  simp only [ofBuf_toBuf_id]
  unfold takeRows rowInTable wrapRows
  rfl

/-- The gather stretch leaves what it does not write. -/
theorem gather_keeps1 (r : Ref sig .tc) (h : r ∉ hostOps1_W) :
    StableHlo.after hostOps1 W (Proc.devRef .tc r) = W (Proc.devRef .tc r) :=
  StableHlo.after_of_writes_sub hostOps1 W hostOps1_writes h

set_option maxHeartbeats 4000000 in
/-- The scatter stretch: the gathered rows it found, each scaled by its edge's normalisation spread across the
    columns, added into zeros at the destination rows. -/
theorem scattered1 : StableHlo.after hostOps1_1 W (Proc.devRef .tc main_v39)
    = Host.scatterAdd scatter_S100000x64_S1700000x1_S1700000x64_1_0_0_1
        (broadcastInDim S100000x64 ![] bcast_S_S100000x64 (constant (F := F) S_ .f32 0x00000000#32))
        (broadcastInDim S1700000x1 ![0] bcast_S1700000_S1700000x1_0 (W (Proc.devRef .tc main_v6)))
        (mulf (W (Proc.devRef .tc main_v33))
          (broadcastInDim S1700000x64 ![0, 1] bcast_S1700000x1_S1700000x64_0_1
            (broadcastInDim S1700000x1 ![0] bcast_S1700000_S1700000x1_0 (W (Proc.devRef .tc main_v31))))) := by
  after_results_simp <;> rfl

/-- The scatter stretch also lays the layer's bias out as a row. -/
theorem bias_row1 : StableHlo.after hostOps1_1 W (Proc.devRef .tc main_v40)
    = shapeCast S1x64 (W (Proc.devRef .tc main_arg5)) shapeCasts_S64_S1x64 := by
  after_results_simp <;> rfl

/-- The scatter stretch leaves what it does not write. -/
theorem scatter_keeps1 (r : Ref sig .tc) (h : r ∉ hostOps1_1_W) :
    StableHlo.after hostOps1_1 W (Proc.devRef .tc r) = W (Proc.devRef .tc r) :=
  StableHlo.after_of_writes_sub hostOps1_1 W hostOps1_1_writes h

end

section
variable (U : Valuation τ sig (Elt F))

/-- The valuation after aggregation 1's two stretches. -/
def agg1 : Valuation τ sig (Elt F) :=
  StableHlo.after hostOps1_1 (StableHlo.after hostOps1 U)

/-- A buffer neither stretch writes is as it was. -/
theorem agg1_keeps (r : Ref sig .tc) (h0 : r ∉ hostOps1_W) (h1 : r ∉ hostOps1_1_W) :
    agg1 U (Proc.devRef .tc r) = U (Proc.devRef .tc r) := by
  unfold agg1
  exact (scatter_keeps1 _ r h1).trans (gather_keeps1 U r h0)

/-- The aggregated rows, in the program's own operations over the buffers the aggregation starts from. -/
theorem agg1_rows_term : agg1 U (Proc.devRef .tc main_v39)
    = Host.scatterAdd scatter_S100000x64_S1700000x1_S1700000x64_1_0_0_1
        (broadcastInDim S100000x64 ![] bcast_S_S100000x64 (constant (F := F) S_ .f32 0x00000000#32))
        (broadcastInDim S1700000x1 ![0] bcast_S1700000_S1700000x1_0 (U (Proc.devRef .tc main_v6)))
        (mulf (takeRows (F := F) (U (Proc.devRef .tc main_v32)) (U (Proc.devRef .tc main_v3)))
          (broadcastInDim S1700000x64 ![0, 1] bcast_S1700000x1_S1700000x64_0_1
            (broadcastInDim S1700000x1 ![0] bcast_S1700000_S1700000x1_0 (U (Proc.devRef .tc main_v31))))) := by
  unfold agg1
  rw [scattered1, gathered1, gather_keeps1 U main_v6 (by decide), gather_keeps1 U main_v31 (by decide)]

/-- The bias row after the aggregation is the bias argument reshaped to one row. -/
theorem agg1_bias : agg1 U (Proc.devRef .tc main_v40)
    = shapeCast S1x64 (U (Proc.devRef .tc main_arg5)) shapeCasts_S64_S1x64 := by
  unfold agg1
  rw [bias_row1, gather_keeps1 U main_arg5 (by decide)]

/-- As the reference lays the same bias out: by a broadcast along a new unit axis. -/
theorem agg1_bias_ref : agg1 U (Proc.devRef .tc main_v40)
    = Cert.ReferenceIdeal.Read.val_main_v46 (F := F) (U (Proc.devRef .tc main_arg5)) := by
  rw [agg1_bias]
  unfold Cert.ReferenceIdeal.Read.val_main_v46
  exact reshape_row64 _

end

/-! ## Aggregation 2 -/

section
variable (W : Valuation τ sig (Elt F))

attribute [local irreducible] Host.reduce Host.gather in
set_option maxHeartbeats 4000000 in
/-- The gather stretch leaves, in its result buffer, the guarded row gather of the features it found at the source
    rows it found. -/
theorem gathered2 : StableHlo.after hostOps3 W (Proc.devRef .tc main_v43)
    = takeRows (F := F) (W (Proc.devRef .tc main_v42)) (W (Proc.devRef .tc main_v3)) := by
  after_results_simp
  simp only [ofBuf_toBuf_id]
  unfold takeRows rowInTable wrapRows
  rfl

/-- The gather stretch leaves what it does not write. -/
theorem gather_keeps2 (r : Ref sig .tc) (h : r ∉ hostOps3_W) :
    StableHlo.after hostOps3 W (Proc.devRef .tc r) = W (Proc.devRef .tc r) :=
  StableHlo.after_of_writes_sub hostOps3 W hostOps3_writes h

set_option maxHeartbeats 4000000 in
/-- The scatter stretch: the gathered rows it found, each scaled by its edge's normalisation spread across the
    columns, added into zeros at the destination rows. -/
theorem scattered2 : StableHlo.after hostOps3_1 W (Proc.devRef .tc main_v49)
    = Host.scatterAdd scatter_S100000x64_S1700000x1_S1700000x64_1_0_0_1
        (broadcastInDim S100000x64 ![] bcast_S_S100000x64 (constant (F := F) S_ .f32 0x00000000#32))
        (broadcastInDim S1700000x1 ![0] bcast_S1700000_S1700000x1_0 (W (Proc.devRef .tc main_v6)))
        (mulf (W (Proc.devRef .tc main_v43))
          (broadcastInDim S1700000x64 ![0, 1] bcast_S1700000x1_S1700000x64_0_1
            (broadcastInDim S1700000x1 ![0] bcast_S1700000_S1700000x1_0 (W (Proc.devRef .tc main_v31))))) := by
  after_results_simp <;> rfl

/-- The scatter stretch also lays the layer's bias out as a row. -/
theorem bias_row2 : StableHlo.after hostOps3_1 W (Proc.devRef .tc main_v50)
    = shapeCast S1x64 (W (Proc.devRef .tc main_arg7)) shapeCasts_S64_S1x64 := by
  after_results_simp <;> rfl

/-- The scatter stretch leaves what it does not write. -/
theorem scatter_keeps2 (r : Ref sig .tc) (h : r ∉ hostOps3_1_W) :
    StableHlo.after hostOps3_1 W (Proc.devRef .tc r) = W (Proc.devRef .tc r) :=
  StableHlo.after_of_writes_sub hostOps3_1 W hostOps3_1_writes h

end

section
variable (U : Valuation τ sig (Elt F))

/-- The valuation after aggregation 2's two stretches. -/
def agg2 : Valuation τ sig (Elt F) :=
  StableHlo.after hostOps3_1 (StableHlo.after hostOps3 U)

/-- A buffer neither stretch writes is as it was. -/
theorem agg2_keeps (r : Ref sig .tc) (h0 : r ∉ hostOps3_W) (h1 : r ∉ hostOps3_1_W) :
    agg2 U (Proc.devRef .tc r) = U (Proc.devRef .tc r) := by
  unfold agg2
  exact (scatter_keeps2 _ r h1).trans (gather_keeps2 U r h0)

/-- The aggregated rows, in the program's own operations over the buffers the aggregation starts from. -/
theorem agg2_rows_term : agg2 U (Proc.devRef .tc main_v49)
    = Host.scatterAdd scatter_S100000x64_S1700000x1_S1700000x64_1_0_0_1
        (broadcastInDim S100000x64 ![] bcast_S_S100000x64 (constant (F := F) S_ .f32 0x00000000#32))
        (broadcastInDim S1700000x1 ![0] bcast_S1700000_S1700000x1_0 (U (Proc.devRef .tc main_v6)))
        (mulf (takeRows (F := F) (U (Proc.devRef .tc main_v42)) (U (Proc.devRef .tc main_v3)))
          (broadcastInDim S1700000x64 ![0, 1] bcast_S1700000x1_S1700000x64_0_1
            (broadcastInDim S1700000x1 ![0] bcast_S1700000_S1700000x1_0 (U (Proc.devRef .tc main_v31))))) := by
  unfold agg2
  rw [scattered2, gathered2, gather_keeps2 U main_v6 (by decide), gather_keeps2 U main_v31 (by decide)]

/-- The bias row after the aggregation is the bias argument reshaped to one row. -/
theorem agg2_bias : agg2 U (Proc.devRef .tc main_v50)
    = shapeCast S1x64 (U (Proc.devRef .tc main_arg7)) shapeCasts_S64_S1x64 := by
  unfold agg2
  rw [bias_row2, gather_keeps2 U main_arg7 (by decide)]

/-- As the reference lays the same bias out: by a broadcast along a new unit axis. -/
theorem agg2_bias_ref : agg2 U (Proc.devRef .tc main_v50)
    = Cert.ReferenceIdeal.Read.val_main_v64 (F := F) (U (Proc.devRef .tc main_arg7)) := by
  rw [agg2_bias]
  unfold Cert.ReferenceIdeal.Read.val_main_v64
  exact reshape_row64 _

end

/-! ## The aggregations as the reference's stages -/

section
variable (U : Valuation τ sig (Elt F))
variable (x0 : (⟨Cert.ReferenceIdeal.S100000x128, .f32⟩ : BufTy).Contents (Elt F))
variable (x1 : (⟨Cert.ReferenceIdeal.S2x1600000, .i32⟩ : BufTy).Contents (Elt F))
variable (x2 : (⟨Cert.ReferenceIdeal.S1600000, .f32⟩ : BufTy).Contents (Elt F))
variable (x4 : (⟨Cert.ReferenceIdeal.S128x64, .f32⟩ : BufTy).Contents (Elt F))

/-- The first aggregation, started where the projected features, the source rows, the destination rows and the edge
    normalisation are the reference's stages, with every source row a row of the table, ends with the aggregated rows
    the reference's scatter stage. -/
theorem agg1_rows
    (h32 : U (Proc.devRef .tc main_v32) = Cert.ReferenceIdeal.Read.val_main_v32 (F := F) x0 x4)
    (h3 : U (Proc.devRef .tc main_v3) = Cert.ReferenceIdeal.Read.val_main_v3 (F := F) x1)
    (h6 : U (Proc.devRef .tc main_v6) = Cert.ReferenceIdeal.Read.val_main_v6 (F := F) x1)
    (h31 : U (Proc.devRef .tc main_v31) = Cert.ReferenceIdeal.Read.val_main_v31 (F := F) x1 x2)
    (hr : ∀ e : Fin 1700000, 0 ≤ ((Cert.ReferenceIdeal.Read.val_main_v3 (F := F) x1) (ix1 e)).toInt
      ∧ ((Cert.ReferenceIdeal.Read.val_main_v3 (F := F) x1) (ix1 e)).toInt < 100000) :
    agg1 U (Proc.devRef .tc main_v39) = Cert.ReferenceIdeal.Read.val_main_v45 (F := F) x0 x1 x2 x4 := by
  rw [agg1_rows_term, h32, h3, h6, h31, takeRows_eq_gather _ _ hr]
  rfl

variable (x5 : (⟨Cert.ReferenceIdeal.S64, .f32⟩ : BufTy).Contents (Elt F))
variable (x6 : (⟨Cert.ReferenceIdeal.S64x64, .f32⟩ : BufTy).Contents (Elt F))

/-- The second aggregation likewise, over the second projection. -/
theorem agg2_rows
    (h42 : U (Proc.devRef .tc main_v42) = Cert.ReferenceIdeal.Read.val_main_v50 (F := F) x0 x1 x2 x4 x5 x6)
    (h3 : U (Proc.devRef .tc main_v3) = Cert.ReferenceIdeal.Read.val_main_v3 (F := F) x1)
    (h6 : U (Proc.devRef .tc main_v6) = Cert.ReferenceIdeal.Read.val_main_v6 (F := F) x1)
    (h31 : U (Proc.devRef .tc main_v31) = Cert.ReferenceIdeal.Read.val_main_v31 (F := F) x1 x2)
    (hr : ∀ e : Fin 1700000, 0 ≤ ((Cert.ReferenceIdeal.Read.val_main_v3 (F := F) x1) (ix1 e)).toInt
      ∧ ((Cert.ReferenceIdeal.Read.val_main_v3 (F := F) x1) (ix1 e)).toInt < 100000) :
    agg2 U (Proc.devRef .tc main_v49) = Cert.ReferenceIdeal.Read.val_main_v63 (F := F) x0 x1 x2 x4 x5 x6 := by
  rw [agg2_rows_term, h42, h3, h6, h31, takeRows_eq_gather _ _ hr]
  rfl

end

end Cert.KernelIdeal.HandValue

end
-- ==== Proof.PoolSpec.lean ====
/-
  The mean pool over graphs and the two-layer head, as one function of the node features, the graph id of every
  node, and the head's weights: first as the reference program composes it from host operations, then read at a
  graph g as a closed formula — per graph the feature sums over its nodes divided by the larger of its node count
  and one, through the first layer, the maximum with zero, and the second layer.
-/
import proofs.«413692_j83004537962758_2_alg».proof.ReferenceIdeal
import proofs.«413692_j83004537962758_2_alg».proof.Proof.Gen.ReferenceIdeal
import Idealize.ShloMosaic.PureOps.Ideal
import Idealize.ShloMosaic.Lib.ValueIdx

noncomputable section

namespace Cert.KernelIdeal.HandValue

open Cert.ReferenceIdeal Cert.ReferenceIdeal.Gen Idealize.ShloMosaic Idealize.ShloMosaic.ValueIdx

/-- The pool and the head as the reference composes them: h the node features, ids the graph ids as a column,
    bm1r and bm2r the two bias vectors as rows. -/
def poolHead (h : FVec Ideal S100000x64 .f32) (ids : IVec S100000x1 32) (wm1 : FVec Ideal S64x32 .f32)
    (bm1r : FVec Ideal S1x32 .f32) (wm2 : FVec Ideal S32x1 .f32) (bm2r : FVec Ideal S1x1 .f32) : FVec Ideal S64x1 .f32 :=
  addf (Host.dotGeneral dot_S64x32_S32x1_S64x1_1_0_0_1_n_n none
      (maximumf (addf (Host.dotGeneral dot_S64x64_S64x32_S64x32_1_0_0_1_n_n none
          (Host.divf (Host.scatterAdd scatter_S64x64_S100000x1_S100000x64_1_0_0_1
              (broadcastInDim S64x64 ![] bcast_S_S64x64 (constant (F := Ideal) S_ .f32 0x00000000#32)) ids h)
            (broadcastInDim S64x64 ![0, 1] bcast_S64x1_S64x64_0_1 (broadcastInDim S64x1 ![0] bcast_S64_S64x1_0
              (maximumf (Host.scatterAdd scatter_S64_S100000x1_S100000_n_0_0_1
                  (broadcastInDim S64 ![] bcast_S_S64 (constant (F := Ideal) S_ .f32 0x00000000#32)) ids
                  (broadcastInDim S100000 ![] bcast_S_S100000 (constant (F := Ideal) S_ .f32 0x3F800000#32)))
                (broadcastInDim S64 ![] bcast_S_S64 (constant (F := Ideal) S_ .f32 0x3F800000#32))))))
          wm1) (broadcastInDim S64x32 ![0, 1] bcast_S1x32_S64x32_0_1 bm1r))
        (broadcastInDim S64x32 ![] bcast_S_S64x32 (constant (F := Ideal) S_ .f32 0x00000000#32)))
      wm2)
    (broadcastInDim S64x1 ![0, 1] bcast_S1x1_S64x1_0_1 bm2r)

/-- The nodes of graph g. -/
def nodesOf (ids : IVec S100000x1 32) (g : Fin 64) : Finset (Fin 100000) :=
  Finset.univ.filter (fun e : Fin 100000 => (ids (ix2 e (0 : Fin 1))).toInt = (g.val : ℤ))

/-- The head's result for graph g as a closed formula. -/
def headAt (h : FVec Ideal S100000x64 .f32) (ids : IVec S100000x1 32) (wm1 : FVec Ideal S64x32 .f32)
    (bm1r : FVec Ideal S1x32 .f32) (wm2 : FVec Ideal S32x1 .f32) (bm2r : FVec Ideal S1x1 .f32) (g : Fin 64) : EReal :=
  (∑ j : Fin 32,
      max ((∑ k : Fin 64,
              Ideal.div (∑ e ∈ nodesOf ids g, h (ix2 e k)) (max (∑ e ∈ nodesOf ids g, (1 : EReal)) 1) * wm1 (ix2 k j))
            + bm1r (ix2 (0 : Fin 1) j)) 0
        * wm2 (ix2 j (0 : Fin 1)))
    + bm2r (ix2 (0 : Fin 1) (0 : Fin 1))

end Cert.KernelIdeal.HandValue

end
-- ==== Proof.RefStages.lean ====
/-
  The reference program's stages read the other way round. The generated reading of the reference names the value of
  every operation as a stage, a function of the program's arguments defined as its operation applied to earlier
  stages. Here the same equations are stated from the operation's side: the first projection, the first layer's bias
  and maximum with zero, the second projection, the second layer's bias and maximum with zero, and the mean pool with
  the head, each applied to the earlier stages, IS the later stage. Every equation holds by unfolding the few stage
  definitions between its two sides.
-/
import proofs.«413692_j83004537962758_2_alg».proof.Proof.Gen.ReferenceIdeal.Read
import proofs.«413692_j83004537962758_2_alg».proof.Proof.PoolSpec

set_option maxRecDepth 16384

noncomputable section

namespace Cert.KernelIdeal.HandValue

open Cert.ReferenceIdeal Cert.ReferenceIdeal.Gen Idealize.ShloMosaic

/-- The first projection of the node features is the stage of the reference's first product. -/
theorem dot1_stage (x0 : (⟨S100000x128, .f32⟩ : BufTy).Contents (Elt Ideal))
    (x4 : (⟨S128x64, .f32⟩ : BufTy).Contents (Elt Ideal)) :
    Host.dotGeneral (F := Ideal) (φ₁ := .f32) (φ₂ := .f32) dot_S100000x128_S128x64_S100000x64_1_0_0_1_n_n none x0 x4
      = Read.val_main_v32 (F := Ideal) x0 x4 := by
  unfold Read.val_main_v32
  rfl

/-- The first layer's aggregate plus its bias row, then the maximum with zero, is the stage of the first layer's
    result. -/
theorem relu1_stage (x0 : (⟨S100000x128, .f32⟩ : BufTy).Contents (Elt Ideal))
    (x1 : (⟨S2x1600000, .i32⟩ : BufTy).Contents (Elt Ideal))
    (x2 : (⟨S1600000, .f32⟩ : BufTy).Contents (Elt Ideal))
    (x4 : (⟨S128x64, .f32⟩ : BufTy).Contents (Elt Ideal))
    (x5 : (⟨S64, .f32⟩ : BufTy).Contents (Elt Ideal)) :
    maximumf (F := Ideal)
        (addf (F := Ideal) (Read.val_main_v45 (F := Ideal) x0 x1 x2 x4)
          (broadcastInDim S100000x64 ![0, 1] bcast_S1x64_S100000x64_0_1 (Read.val_main_v46 (F := Ideal) x5)))
        (broadcastInDim S100000x64 ![] bcast_S_S100000x64 (constant (F := Ideal) S_ .f32 0x00000000#32))
      = Read.val_main_v49 (F := Ideal) x0 x1 x2 x4 x5 := by
  unfold Read.val_main_v49 Read.val_main_v48 Read.val_main_v47 Read.val_main_call1_v0 Read.val_main_call1_cst
  rfl

/-- The second projection of the first layer's result is the stage of the reference's second product. -/
theorem dot2_stage (x0 : (⟨S100000x128, .f32⟩ : BufTy).Contents (Elt Ideal))
    (x1 : (⟨S2x1600000, .i32⟩ : BufTy).Contents (Elt Ideal))
    (x2 : (⟨S1600000, .f32⟩ : BufTy).Contents (Elt Ideal))
    (x4 : (⟨S128x64, .f32⟩ : BufTy).Contents (Elt Ideal))
    (x5 : (⟨S64, .f32⟩ : BufTy).Contents (Elt Ideal))
    (x6 : (⟨S64x64, .f32⟩ : BufTy).Contents (Elt Ideal)) :
    Host.dotGeneral (F := Ideal) (φ₁ := .f32) (φ₂ := .f32) dot_S100000x64_S64x64_S100000x64_1_0_0_1_n_n none
        (Read.val_main_v49 (F := Ideal) x0 x1 x2 x4 x5) x6
      = Read.val_main_v50 (F := Ideal) x0 x1 x2 x4 x5 x6 := by
  unfold Read.val_main_v50
  rfl

/-- The second layer's aggregate plus its bias row, then the maximum with zero, is the stage of the second layer's
    result. -/
theorem relu2_stage (x0 : (⟨S100000x128, .f32⟩ : BufTy).Contents (Elt Ideal))
    (x1 : (⟨S2x1600000, .i32⟩ : BufTy).Contents (Elt Ideal))
    (x2 : (⟨S1600000, .f32⟩ : BufTy).Contents (Elt Ideal))
    (x4 : (⟨S128x64, .f32⟩ : BufTy).Contents (Elt Ideal))
    (x5 : (⟨S64, .f32⟩ : BufTy).Contents (Elt Ideal))
    (x6 : (⟨S64x64, .f32⟩ : BufTy).Contents (Elt Ideal))
    (x7 : (⟨S64, .f32⟩ : BufTy).Contents (Elt Ideal)) :
    maximumf (F := Ideal)
        (addf (F := Ideal) (Read.val_main_v63 (F := Ideal) x0 x1 x2 x4 x5 x6)
          (broadcastInDim S100000x64 ![0, 1] bcast_S1x64_S100000x64_0_1 (Read.val_main_v64 (F := Ideal) x7)))
        (broadcastInDim S100000x64 ![] bcast_S_S100000x64 (constant (F := Ideal) S_ .f32 0x00000000#32))
      = Read.val_main_v67 (F := Ideal) x0 x1 x2 x4 x5 x6 x7 := by
  unfold Read.val_main_v67 Read.val_main_v66 Read.val_main_v65 Read.val_main_call2_v0 Read.val_main_call2_cst
  rfl

/-- The mean pool and the head, applied to the second layer's result, the graph ids as a column, and the head's
    weights with the two bias vectors as rows, is the stage of the reference's final result. -/
theorem head_stage (x0 : (⟨S100000x128, .f32⟩ : BufTy).Contents (Elt Ideal))
    (x1 : (⟨S2x1600000, .i32⟩ : BufTy).Contents (Elt Ideal))
    (x2 : (⟨S1600000, .f32⟩ : BufTy).Contents (Elt Ideal))
    (x3 : (⟨S100000, .i32⟩ : BufTy).Contents (Elt Ideal))
    (x4 : (⟨S128x64, .f32⟩ : BufTy).Contents (Elt Ideal))
    (x5 : (⟨S64, .f32⟩ : BufTy).Contents (Elt Ideal))
    (x6 : (⟨S64x64, .f32⟩ : BufTy).Contents (Elt Ideal))
    (x7 : (⟨S64, .f32⟩ : BufTy).Contents (Elt Ideal))
    (x8 : (⟨S64x32, .f32⟩ : BufTy).Contents (Elt Ideal))
    (x9 : (⟨S32, .f32⟩ : BufTy).Contents (Elt Ideal))
    (x10 : (⟨S32x1, .f32⟩ : BufTy).Contents (Elt Ideal))
    (x11 : (⟨S1, .f32⟩ : BufTy).Contents (Elt Ideal)) :
    poolHead (Read.val_main_v67 (F := Ideal) x0 x1 x2 x4 x5 x6 x7)
        (broadcastInDim S100000x1 ![0] bcast_S100000_S100000x1_0 x3) x8
        (broadcastInDim S1x32 ![1] bcast_S32_S1x32_1 x9) x10
        (broadcastInDim S1x1 ![1] bcast_S1_S1x1_1 x11)
      = Read.val_main_v88 (F := Ideal) x0 x1 x2 x3 x4 x5 x6 x7 x8 x9 x10 x11 := by
  unfold poolHead
  unfold Read.val_main_v88 Read.val_main_v87 Read.val_main_v86 Read.val_main_v85 Read.val_main_v84
    Read.val_main_call3_v0 Read.val_main_call3_cst Read.val_main_v83 Read.val_main_v82 Read.val_main_v81
    Read.val_main_v80 Read.val_main_v79 Read.val_main_v78 Read.val_main_v77 Read.val_main_v76 Read.val_main_v75
    Read.val_main_cst_15 Read.val_main_v74 Read.val_main_v73 Read.val_main_v72 Read.val_main_cst_14
    Read.val_main_v71 Read.val_main_cst_13 Read.val_main_v70 Read.val_main_v69 Read.val_main_v68
    Read.val_main_cst_12
  generalize Read.val_main_v67 (F := Ideal) x0 x1 x2 x4 x5 x6 x7 = h
  rfl

end Cert.KernelIdeal.HandValue

end
-- ==== Proof.Tail4Stage.lean ====
/-
  The last host stretch of the kernel program, three reshapes in front of the pooling region: the graph ids as a
  column and the head's two bias vectors as rows. Every other buffer is left as it was.
-/
import proofs.«413692_j83004537962758_2_alg».proof.KernelIdeal
import proofs.«413692_j83004537962758_2_alg».proof.Proof.Gen.KernelIdeal.Regions
import Idealize.ShloMosaic.Lib.StableHlo.Run
import Idealize.ShloMosaic.PureOps.Ideal

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.StableHlo

variable (U : Valuation τ sig (Elt Ideal))

/-- The valuation after the three reshapes. -/
def tail4 : Valuation τ sig (Elt Ideal) := StableHlo.after hostOps4 U

theorem tail4_ids : tail4 U (Proc.devRef .tc main_v52)
    = shapeCast S100000x1 (U (Proc.devRef .tc main_arg3)) shapeCasts_S100000_S100000x1 := by
  unfold tail4
  after_results_simp <;> rfl

theorem tail4_bias1 : tail4 U (Proc.devRef .tc main_v53)
    = shapeCast S1x32 (U (Proc.devRef .tc main_arg9)) shapeCasts_S32_S1x32 := by
  unfold tail4
  after_results_simp <;> rfl

theorem tail4_bias2 : tail4 U (Proc.devRef .tc main_v54)
    = shapeCast S1x1 (U (Proc.devRef .tc main_arg11)) shapeCasts_S1_S1x1 := by
  unfold tail4
  after_results_simp <;> rfl

/-- The stretch writes only its three results. -/
theorem tail4_kept (r : Ref sig .tc) (h : r ∉ hostOps4_W) : tail4 U (Proc.devRef .tc r) = U (Proc.devRef .tc r) :=
  StableHlo.after_of_writes_sub hostOps4 _ hostOps4_writes h

end Cert.KernelIdeal.HandValue

end
-- ==== Proof.Bridge.lean ====
/-
  The kernel program's result is the reference's. Stated over the contents of the core's buffers at the boundaries
  between the program's items: W0 at launch, W3 after the opening host stretches, W4 after the first projection,
  W6 after the first aggregation, W7 and W8 after the first epilogue and the second projection, W10 after the
  second aggregation, W11 after the second epilogue, W12 after the last reshapes, W13 after the pool and head.
  Each host stretch is the reference's stages of the same inputs; each kernel region leaves in its output buffer
  the reference's operation of its input buffers and changes no other buffer; the row gather with out-of-range
  rows filled is the plain row gather when every edge endpoint is a node.
-/
import proofs.«413692_j83004537962758_2_alg».proof.Proof.HostStages
import proofs.«413692_j83004537962758_2_alg».proof.Proof.AggStages
import proofs.«413692_j83004537962758_2_alg».proof.Proof.RefStages
import proofs.«413692_j83004537962758_2_alg».proof.Proof.Tail4Stage
import proofs.«413692_j83004537962758_2_alg».proof.Proof.Reshapes
import proofs.«413692_j83004537962758_2_alg».proof.Proof.TakeRows
import proofs.«413692_j83004537962758_2_alg».proof.Proof.PoolSpec

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.StableHlo Idealize.ShloMosaic.ValueIdx

/-- The row indices the program gathers at are the reference's stage of the same name: the same operations over the
    two programs' records. -/
theorem rowIdx_eq_stage (ei : IVec S2x1600000 32) :
    rowIdx ei = Cert.ReferenceIdeal.Read.val_main_v3 (F := Ideal) ei := by
  unfold rowIdx Cert.ReferenceIdeal.Read.val_main_v3 Cert.ReferenceIdeal.Read.val_main_v2 Cert.ReferenceIdeal.Read.val_main_v1 Cert.ReferenceIdeal.Read.val_main_v0
  rfl

variable (W0 W3 W4 W6 W7 W8 W10 W11 W12 W13 : Valuation τ sig (Elt Ideal))

set_option maxHeartbeats 4000000 in
theorem result_is_reference
    (h3 : W3 = open3 W0)
    (k4 : ∀ r : Ref sig .tc, r ≠ main_v32 → W4 (Proc.devRef .tc r) = W3 (Proc.devRef .tc r))
    (o4 : W4 (Proc.devRef .tc main_v32) = Host.dotGeneral (F := Ideal) (φ₁ := .f32) (φ₂ := .f32) Cert.ReferenceIdeal.dot_S100000x128_S128x64_S100000x64_1_0_0_1_n_n none (W3 (Proc.devRef .tc main_arg0)) (W3 (Proc.devRef .tc main_arg4)))
    (h6 : W6 = agg1 W4)
    (k7 : ∀ r : Ref sig .tc, r ≠ main_v41 → W7 (Proc.devRef .tc r) = W6 (Proc.devRef .tc r))
    (o7 : W7 (Proc.devRef .tc main_v41) = maximumf (addf (W6 (Proc.devRef .tc main_v39) : FVec Ideal Cert.ReferenceIdeal.S100000x64 .f32) (broadcastInDim Cert.ReferenceIdeal.S100000x64 ![0, 1] Cert.ReferenceIdeal.Gen.bcast_S1x64_S100000x64_0_1 (W6 (Proc.devRef .tc main_v40) : FVec Ideal Cert.ReferenceIdeal.S1x64 .f32))) (broadcastInDim Cert.ReferenceIdeal.S100000x64 ![] Cert.ReferenceIdeal.Gen.bcast_S_S100000x64 (constant (F := Ideal) Cert.ReferenceIdeal.S_ .f32 0x00000000#32)))
    (k8 : ∀ r : Ref sig .tc, r ≠ main_v42 → W8 (Proc.devRef .tc r) = W7 (Proc.devRef .tc r))
    (o8 : W8 (Proc.devRef .tc main_v42) = Host.dotGeneral (F := Ideal) (φ₁ := .f32) (φ₂ := .f32) Cert.ReferenceIdeal.dot_S100000x64_S64x64_S100000x64_1_0_0_1_n_n none (W7 (Proc.devRef .tc main_v41)) (W7 (Proc.devRef .tc main_arg6)))
    (h10 : W10 = agg2 W8)
    (k11 : ∀ r : Ref sig .tc, r ≠ main_v51 → W11 (Proc.devRef .tc r) = W10 (Proc.devRef .tc r))
    (o11 : W11 (Proc.devRef .tc main_v51) = maximumf (addf (W10 (Proc.devRef .tc main_v49) : FVec Ideal Cert.ReferenceIdeal.S100000x64 .f32) (broadcastInDim Cert.ReferenceIdeal.S100000x64 ![0, 1] Cert.ReferenceIdeal.Gen.bcast_S1x64_S100000x64_0_1 (W10 (Proc.devRef .tc main_v50) : FVec Ideal Cert.ReferenceIdeal.S1x64 .f32))) (broadcastInDim Cert.ReferenceIdeal.S100000x64 ![] Cert.ReferenceIdeal.Gen.bcast_S_S100000x64 (constant (F := Ideal) Cert.ReferenceIdeal.S_ .f32 0x00000000#32)))
    (h12 : W12 = tail4 W11)
    (o13 : W13 (Proc.devRef .tc main_v55) = poolHead (W12 (Proc.devRef .tc main_v51)) (W12 (Proc.devRef .tc main_v52)) (W12 (Proc.devRef .tc main_arg8)) (W12 (Proc.devRef .tc main_v53)) (W12 (Proc.devRef .tc main_arg10)) (W12 (Proc.devRef .tc main_v54)))
    (hr : ∀ (r : Fin 2) (e : Fin 1600000), 0 ≤ ((W0 (Proc.devRef .tc main_arg1)) (ix2 r e)).toInt ∧ ((W0 (Proc.devRef .tc main_arg1)) (ix2 r e)).toInt < 100000) :
    W13 (Proc.devRef .tc main_v55) = Cert.ReferenceIdeal.Read.val_main_v88 (F := Ideal) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) := by
  -- what each boundary keeps of the one before
  have K3 : ∀ r : Ref sig .tc, r ∉ hostOps0_W → r ∉ hostOps0_1_W → r ∉ hostOps0_2_W →
      W3 (Proc.devRef .tc r) = W0 (Proc.devRef .tc r) := fun r a b c => by rw [h3]; exact open3_keeps W0 r a b c
  have K6 : ∀ r : Ref sig .tc, r ∉ hostOps1_W → r ∉ hostOps1_1_W →
      W6 (Proc.devRef .tc r) = W4 (Proc.devRef .tc r) := fun r a b => by rw [h6]; exact agg1_keeps W4 r a b
  have K10 : ∀ r : Ref sig .tc, r ∉ hostOps3_W → r ∉ hostOps3_1_W →
      W10 (Proc.devRef .tc r) = W8 (Proc.devRef .tc r) := fun r a b => by rw [h10]; exact agg2_keeps W8 r a b
  have K12 : ∀ r : Ref sig .tc, r ∉ hostOps4_W →
      W12 (Proc.devRef .tc r) = W11 (Proc.devRef .tc r) := fun r a => by rw [h12]; exact tail4_kept W11 r a
  -- the row indices are rows of the table
  have hrows : ∀ e : Fin 1700000, 0 ≤ ((Cert.ReferenceIdeal.Read.val_main_v3 (F := Ideal) (W0 (Proc.devRef .tc main_arg1))) (ix1 e)).toInt
      ∧ ((Cert.ReferenceIdeal.Read.val_main_v3 (F := Ideal) (W0 (Proc.devRef .tc main_arg1))) (ix1 e)).toInt < 100000 := by
    rw [← rowIdx_eq_stage]
    exact rows_in_range _ hr
  -- after the opening stretches
  have r3 : W3 (Proc.devRef .tc main_v3) = Cert.ReferenceIdeal.Read.val_main_v3 (F := Ideal) (W0 (Proc.devRef .tc main_arg1)) := by rw [h3]; exact open3_rows W0
  have c3 : W3 (Proc.devRef .tc main_v6) = Cert.ReferenceIdeal.Read.val_main_v6 (F := Ideal) (W0 (Proc.devRef .tc main_arg1)) := by rw [h3]; exact open3_cols W0
  have n3 : W3 (Proc.devRef .tc main_v31) = Cert.ReferenceIdeal.Read.val_main_v31 (F := Ideal) (W0 (Proc.devRef .tc main_arg1)) (W0 (Proc.devRef .tc main_arg2)) := by rw [h3]; exact open3_norm W0
  -- after the first projection
  have p4 : W4 (Proc.devRef .tc main_v32) = Cert.ReferenceIdeal.Read.val_main_v32 (F := Ideal) (W0 (Proc.devRef .tc main_arg0)) (W0 (Proc.devRef .tc main_arg4)) := by
    rw [o4, K3 main_arg0 (by decide) (by decide) (by decide), K3 main_arg4 (by decide) (by decide) (by decide)]
    exact dot1_stage _ _
  have r4 : W4 (Proc.devRef .tc main_v3) = Cert.ReferenceIdeal.Read.val_main_v3 (F := Ideal) (W0 (Proc.devRef .tc main_arg1)) := (k4 main_v3 (by decide)).trans r3
  have c4 : W4 (Proc.devRef .tc main_v6) = Cert.ReferenceIdeal.Read.val_main_v6 (F := Ideal) (W0 (Proc.devRef .tc main_arg1)) := (k4 main_v6 (by decide)).trans c3
  have n4 : W4 (Proc.devRef .tc main_v31) = Cert.ReferenceIdeal.Read.val_main_v31 (F := Ideal) (W0 (Proc.devRef .tc main_arg1)) (W0 (Proc.devRef .tc main_arg2)) := (k4 main_v31 (by decide)).trans n3
  -- after the first aggregation
  have g6 : W6 (Proc.devRef .tc main_v39) = Cert.ReferenceIdeal.Read.val_main_v45 (F := Ideal) (W0 (Proc.devRef .tc main_arg0)) (W0 (Proc.devRef .tc main_arg1)) (W0 (Proc.devRef .tc main_arg2)) (W0 (Proc.devRef .tc main_arg4)) := by
    rw [h6]; exact agg1_rows W4 _ _ _ _ p4 r4 c4 n4 hrows
  have b6 : W6 (Proc.devRef .tc main_v40) = Cert.ReferenceIdeal.Read.val_main_v46 (F := Ideal) (W0 (Proc.devRef .tc main_arg5)) := by
    rw [h6, agg1_bias_ref W4, k4 main_arg5 (by decide), K3 main_arg5 (by decide) (by decide) (by decide)]
  -- after the first layer's bias and maximum with zero
  have l7 : W7 (Proc.devRef .tc main_v41) = Cert.ReferenceIdeal.Read.val_main_v49 (F := Ideal) (W0 (Proc.devRef .tc main_arg0)) (W0 (Proc.devRef .tc main_arg1)) (W0 (Proc.devRef .tc main_arg2)) (W0 (Proc.devRef .tc main_arg4)) (W0 (Proc.devRef .tc main_arg5)) := by
    rw [o7, g6, b6]; exact relu1_stage _ _ _ _ _
  have a6_7 : W7 (Proc.devRef .tc main_arg6) = (W0 (Proc.devRef .tc main_arg6)) := by
    rw [k7 main_arg6 (by decide), K6 main_arg6 (by decide) (by decide), k4 main_arg6 (by decide), K3 main_arg6 (by decide) (by decide) (by decide)]
  -- after the second projection
  have p8 : W8 (Proc.devRef .tc main_v42) = Cert.ReferenceIdeal.Read.val_main_v50 (F := Ideal) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) := by
    rw [o8, l7, a6_7]; exact dot2_stage _ _ _ _ _ _
  have r8 : W8 (Proc.devRef .tc main_v3) = Cert.ReferenceIdeal.Read.val_main_v3 (F := Ideal) (W0 (Proc.devRef .tc main_arg1)) := by
    rw [k8 main_v3 (by decide), k7 main_v3 (by decide), K6 main_v3 (by decide) (by decide)]; exact r4
  have c8 : W8 (Proc.devRef .tc main_v6) = Cert.ReferenceIdeal.Read.val_main_v6 (F := Ideal) (W0 (Proc.devRef .tc main_arg1)) := by
    rw [k8 main_v6 (by decide), k7 main_v6 (by decide), K6 main_v6 (by decide) (by decide)]; exact c4
  have n8 : W8 (Proc.devRef .tc main_v31) = Cert.ReferenceIdeal.Read.val_main_v31 (F := Ideal) (W0 (Proc.devRef .tc main_arg1)) (W0 (Proc.devRef .tc main_arg2)) := by
    rw [k8 main_v31 (by decide), k7 main_v31 (by decide), K6 main_v31 (by decide) (by decide)]; exact n4
  have a7_8 : W8 (Proc.devRef .tc main_arg7) = (W0 (Proc.devRef .tc main_arg7)) := by
    rw [k8 main_arg7 (by decide), k7 main_arg7 (by decide), K6 main_arg7 (by decide) (by decide), k4 main_arg7 (by decide), K3 main_arg7 (by decide) (by decide) (by decide)]
  -- after the second aggregation
  have g10 : W10 (Proc.devRef .tc main_v49) = Cert.ReferenceIdeal.Read.val_main_v63 (F := Ideal) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) := by
    rw [h10]; exact agg2_rows W8 _ _ _ _ _ _ p8 r8 c8 n8 hrows
  have b10 : W10 (Proc.devRef .tc main_v50) = Cert.ReferenceIdeal.Read.val_main_v64 (F := Ideal) (W0 (Proc.devRef .tc main_arg7)) := by
    rw [h10, agg2_bias_ref W8, a7_8]
  -- after the second layer's bias and maximum with zero
  have l11 : W11 (Proc.devRef .tc main_v51) = Cert.ReferenceIdeal.Read.val_main_v67 (F := Ideal) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) := by
    rw [o11, g10, b10]; exact relu2_stage _ _ _ _ _ _ _
  -- an argument the program never writes reaches the last boundary unchanged
  have arg11 : ∀ r : Ref sig .tc, r ∉ hostOps0_W → r ∉ hostOps0_1_W → r ∉ hostOps0_2_W → r ≠ main_v32 →
      r ∉ hostOps1_W → r ∉ hostOps1_1_W → r ≠ main_v41 → r ≠ main_v42 → r ∉ hostOps3_W → r ∉ hostOps3_1_W →
      r ≠ main_v51 → W11 (Proc.devRef .tc r) = W0 (Proc.devRef .tc r) :=
    fun r q0 q1 q2 q3 q4 q5 q6 q7 q8 q9 q10 => by
      rw [k11 r q10, K10 r q8 q9, k8 r q7, k7 r q6, K6 r q4 q5, k4 r q3, K3 r q0 q1 q2]
  -- after the last reshapes
  have f12 : W12 (Proc.devRef .tc main_v51) = Cert.ReferenceIdeal.Read.val_main_v67 (F := Ideal) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) :=
    (K12 main_v51 (by decide)).trans l11
  have i12 : W12 (Proc.devRef .tc main_v52) = broadcastInDim Cert.ReferenceIdeal.S100000x1 ![0] Cert.ReferenceIdeal.Gen.bcast_S100000_S100000x1_0 (W0 (Proc.devRef .tc main_arg3)) := by
    rw [h12, tail4_ids, arg11 main_arg3 (by decide) (by decide) (by decide) (by decide) (by decide) (by decide) (by decide) (by decide) (by decide) (by decide) (by decide)]
    exact reshape_ids _
  have u12 : W12 (Proc.devRef .tc main_v53) = broadcastInDim Cert.ReferenceIdeal.S1x32 ![1] Cert.ReferenceIdeal.Gen.bcast_S32_S1x32_1 (W0 (Proc.devRef .tc main_arg9)) := by
    rw [h12, tail4_bias1, arg11 main_arg9 (by decide) (by decide) (by decide) (by decide) (by decide) (by decide) (by decide) (by decide) (by decide) (by decide) (by decide)]
    exact reshape_row32 (F := Ideal) _
  have v12 : W12 (Proc.devRef .tc main_v54) = broadcastInDim Cert.ReferenceIdeal.S1x1 ![1] Cert.ReferenceIdeal.Gen.bcast_S1_S1x1_1 (W0 (Proc.devRef .tc main_arg11)) := by
    rw [h12, tail4_bias2, arg11 main_arg11 (by decide) (by decide) (by decide) (by decide) (by decide) (by decide) (by decide) (by decide) (by decide) (by decide) (by decide)]
    exact reshape_row1 (F := Ideal) _
  have w12 : W12 (Proc.devRef .tc main_arg8) = (W0 (Proc.devRef .tc main_arg8)) := by
    rw [K12 main_arg8 (by decide), arg11 main_arg8 (by decide) (by decide) (by decide) (by decide) (by decide) (by decide) (by decide) (by decide) (by decide) (by decide) (by decide)]
  have x12 : W12 (Proc.devRef .tc main_arg10) = (W0 (Proc.devRef .tc main_arg10)) := by
    rw [K12 main_arg10 (by decide), arg11 main_arg10 (by decide) (by decide) (by decide) (by decide) (by decide) (by decide) (by decide) (by decide) (by decide) (by decide) (by decide)]
  -- the pool and the head
  rw [o13, f12, i12, w12, u12, x12, v12]
  exact head_stage _ _ _ _ _ _ _ _ _ _ _ _

end Cert.KernelIdeal.HandValue

end
-- ==== Proof.Val0.lean ====
/-
  The first dense projection as one array. After region 0 the result array holds x · W, the product of the node
  features x (100000 × 128) with the weights W (128 × 64): entry (n, j) is the sum over k of x (n, k) · W (k, j).
  The region computes it ten rows-blocks at a time (block t is rows 10000·t … 10000·t + 9999 of x against the whole of
  W, written to the same rows of the result); the reference computes it with one dot_general. Both are read at an
  index as that sum, over the extended reals, where the two truncations to bf16 are the identity.
-/
import proofs.«413692_j83004537962758_2_alg».proof.Proof.Reg0
import proofs.«413692_j83004537962758_2_alg».proof.ReferenceIdeal
import proofs.«413692_j83004537962758_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

/-! ## The product, entry by entry -/

/-- Where entry (n, j) of the product reads x for the contraction index k: at (n, k). -/
abbrev featAt (i : S100000x64.Idx) (k : Fin 128) : S100000x128.Idx := fun a => match a with
  | ⟨0, _⟩ => ⟨(i 0).val, (i 0).isLt⟩
  | ⟨1, _⟩ => ⟨k.val, k.isLt⟩
/-- Where it reads W: at (k, j). -/
abbrev weightAt (i : S100000x64.Idx) (k : Fin 128) : S128x64.Idx := fun a => match a with
  | ⟨0, _⟩ => ⟨k.val, k.isLt⟩
  | ⟨1, _⟩ => ⟨(i 1).val, (i 1).isLt⟩

/-- x · W: entry (n, j) is the sum over k of x (n, k) · W (k, j). -/
def featTimesWeights (X : FVec Ideal S100000x128 .f32) (W : FVec Ideal S128x64 .f32) : FVec Ideal S100000x64 .f32 :=
  fun i => ∑ k : Fin 128, X (featAt i k) * W (weightAt i k)

/-! ## The reference's dot_general is that product -/

theorem ref0_lhs_row (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem ref0_lhs_contr (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem ref0_rhs_contr (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem ref0_rhs_col (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The reference's dot_general of x and W, read at an entry, is the sum over the contraction index. -/
theorem ref0_dot_entry (X : FVec Ideal S100000x128 .f32) (W : FVec Ideal S128x64 .f32) (i : S100000x64.Idx) :
    Host.dotGeneral (F := Ideal) Cert.ReferenceIdeal.dot_S100000x128_S128x64_S100000x64_1_0_0_1_n_n none X W i
      = featTimesWeights X W i := by
  unfold featTimesWeights
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = featAt i k := funext fun a => Fin.ext (by
    match a with
    | ⟨0, _⟩ => exact ref0_lhs_row _ _
    | ⟨1, _⟩ => exact (ref0_lhs_contr _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = weightAt i k := funext fun a => Fin.ext (by
    match a with
    | ⟨0, _⟩ => exact (ref0_rhs_contr _ _).trans hk
    | ⟨1, _⟩ => exact ref0_rhs_col _ _)
  rw [el, er]

/-! ## One block's matmul, entry by entry -/

/-- Inside a block: entry (r, j) reads the row block at (r, k) -/
abbrev blockFeatAt (j : S10000x64.Idx) (k : Fin 128) : S10000x128.Idx := fun a => match a with
  | ⟨0, _⟩ => ⟨(j 0).val, (j 0).isLt⟩
  | ⟨1, _⟩ => ⟨k.val, k.isLt⟩
/-- and the weights at (k, j). -/
abbrev blockWeightAt (j : S10000x64.Idx) (k : Fin 128) : S128x64.Idx := fun a => match a with
  | ⟨0, _⟩ => ⟨k.val, k.isLt⟩
  | ⟨1, _⟩ => ⟨(j 1).val, (j 1).isLt⟩

theorem blk0_lhs_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem blk0_lhs_contr (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem blk0_rhs_contr (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem blk0_rhs_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's payload on a row block x and the weights w, at an entry: with the truncations the identity and the
    accumulator zero, the matmul is the bare sum over the contraction index. -/
theorem block_product_entry0 (x : FVec Ideal S10000x128 .f32) (w : FVec Ideal S128x64 .f32) (j : S10000x64.Idx) :
    k0_pay1 (F := Ideal) x w j = ∑ k : Fin 128, x (blockFeatAt j k) * w (blockWeightAt j k) := by
  show FloatOps.matmul (F := Ideal) (φ₁ := .bf16) (φ₂ := .bf16) dot_S10000x128_S128x64_S10000x64_1_0_0_1_n_n none
      (truncf .bf16 x bitsLt_bf16_f32) (truncf .bf16 w bitsLt_bf16_f32) (constant S10000x64 .f32 0x00000000#32) j = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blockFeatAt j k := funext fun a => Fin.ext (by
    match a with
    | ⟨0, _⟩ => exact blk0_lhs_row _ _
    | ⟨1, _⟩ => exact (blk0_lhs_contr _ _).trans hk)
  have er : dot_S10000x128_S128x64_S10000x64_1_0_0_1_n_n.rhsIdx j ((ValueIdx.contrEquiv1 dot_S10000x128_S128x64_S10000x64_1_0_0_1_n_n 128 rfl rfl).symm k) = blockWeightAt j k := funext fun a => Fin.ext (by
    match a with
    | ⟨0, _⟩ => exact (blk0_rhs_contr _ _).trans hk
    | ⟨1, _⟩ => exact blk0_rhs_col _ _)
  rw [el, er]
  rfl

/-! ## From the blocks to the array -/

theorem origin_zero0 : (![0, 0] : Fin 2 → Nat) = fun _ => 0 := funext fun a => by fin_cases a <;> rfl

/-- The index maps over the grid: block t of x and of the result is the t-th block of rows, across all columns; the
    weights' block is the whole matrix at every point. -/
theorem row_blocks0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Block t of the product from block t of x and the whole of W: the row r of the block is the row 10000·t + r of the
    array, and the contraction index and the column are the same in the block and in the array. -/
theorem block_of_product0 (X : FVec Ideal S100000x128 .f32) (W : FVec Ideal S128x64 .f32) (t : Fin cfg0.N) (j : S10000x64.Idx) :
    ∑ k : Fin 128, X (((cfg0.win 0).blk t).view.emb (blockFeatAt j k)) * W (((cfg0.win 1).blk t).view.emb (blockWeightAt j k))
      = featTimesWeights X W (((cfg0.win 2).blk t).view.emb j) := by
  unfold featTimesWeights
  obtain ⟨e0, e1, e2, e3, e4, e5⟩ := row_blocks0 t
  refine Finset.sum_congr rfl fun k _ => ?_
  have hx : ((cfg0.win 0).blk t).view.emb (blockFeatAt j k) = featAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : ((cfg0.win 1).blk t).view.emb (blockWeightAt j k) = weightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

section
variable (V : (c : Dev nD) → (b : Ref sig .tc) → Buf (Elt Ideal) ((c : Thread nD τ).loc b))

/-- What point t writes back is block t of x · W, of the arrays as the region finds them. -/
theorem written_back0 (c : Dev nD) (t : Fin cfg0.N) :
    (dat0 (F := Ideal) V c).flushed 2 t
      = ((cfg0.win 2).blk t).view.read (Elt Ideal) (featTimesWeights (V c main_arg0) (V c main_arg4)) := by
  show (cfg0.win 2).cut (grid0.coords t) ((dat0 V c).after 2 t) = _
  rw [after0_2]
  unfold out0_2
  rw [View.canon_unit_zero origin_zero0]
  simp only [View.ld_unit_zero (S := S10000x128) origin_zero0, View.ld_unit_zero (S := S128x64) origin_zero0]
  funext j
  refine (block_product_entry0 _ _ _).trans ?_
  exact block_of_product0 (V c main_arg0) (V c main_arg4) t j

/-- An entry of the result is in point t's block iff each coordinate is in the block's range on its axis. -/
theorem mem_row_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every entry of the result is written: row n by the point n / 10000. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have hlt : (i 0).val / 10000 < grid0.N := by omega
  obtain ⟨e0, e1, e2, e3, e4, e5⟩ := row_blocks0 ⟨(i 0).val / 10000, hlt⟩
  have e4' : win0_2.index ⟨(i 0).val / 10000, hlt⟩ (0 : Fin 2) = (i 0).val / 10000 := e4
  refine ⟨⟨(i 0).val / 10000, hlt⟩, flush0_2 _, ?_⟩
  rw [mem_row_block0]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; omega
  | ⟨1, _⟩ => show win0_2.index ⟨(i 0).val / 10000, hlt⟩ (1 : Fin 2) * 64 ≤ (i 1).val ∧ (i 1).val < win0_2.index ⟨(i 0).val / 10000, hlt⟩ (1 : Fin 2) * 64 + 64; omega

/-- After the region the result array is the reference's dot_general of x and W. -/
theorem val0 (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none
          (V c main_arg0) (V c main_arg4) :=
  ((dat0 (F := Ideal) V c).arrAt_eq_of_cover 2 (featTimesWeights (V c main_arg0) (V c main_arg4))
      (fun t _ => written_back0 V c t) rows_covered0).trans
    (funext fun i => (ref0_dot_entry (V c main_arg0) (V c main_arg4) i).symm)

end

end Cert.KernelIdeal.HandValue

end
-- ==== Proof.Val1.lean ====
/-
  The value of region 1 at exact arithmetic: after the region has run, its output array holds, at every index
  (r, q), the maximum with zero of the aggregated row r at column q plus the bias row at column q. That is the
  reference's broadcast of the bias down the rows, its addition and its rectifier, applied to the region's two
  input arrays as it found them.
-/
import proofs.«413692_j83004537962758_2_alg».proof.Proof.Reg1
import proofs.«413692_j83004537962758_2_alg».proof.ReferenceIdeal
import proofs.«413692_j83004537962758_2_alg».proof.Proof.Gen.ReferenceIdeal
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- One element of what the body stores: the row block's element plus the bias row's element of the same column,
    cut off below at zero. -/
theorem stored_at1 (x : FVec Ideal S10000x64 .f32) (y : FVec Ideal S1x64 .f32) (p : Fin 10000) (q : Fin 64) :
    k1_pay1 x y (ix2 p q) = max (x (ix2 p q) + y (ix2 (0 : Fin 1) q)) (Ideal.ofBits .f32 0x00000000#32) := by
  unfold k1_pay1
  show max (shapeCast S10000x64 x shapeCasts_S10000x64_S10000x64 (ix2 p q)
      + broadcastTo S10000x64 (shapeCast S1x64 y shapeCasts_S1x64_S1x64) broadcasts_S1x64_S10000x64 (ix2 p q)) _ = _
  rw [shapeCast_self, shapeCast_self, broadcastTo_1b_ab_apply]
  rfl

/-- One element of the reference's three operations on whole arrays: the same expression. -/
theorem reference_at1 (x : FVec Ideal Cert.ReferenceIdeal.S100000x64 .f32) (y : FVec Ideal Cert.ReferenceIdeal.S1x64 .f32)
    (r : Fin 100000) (q : Fin 64) :
    maximumf (addf x (broadcastInDim Cert.ReferenceIdeal.S100000x64 ![0, 1] Cert.ReferenceIdeal.Gen.bcast_S1x64_S100000x64_0_1 y))
        (broadcastInDim Cert.ReferenceIdeal.S100000x64 ![] Cert.ReferenceIdeal.Gen.bcast_S_S100000x64
          (constant (F := Ideal) Cert.ReferenceIdeal.S_ .f32 0x00000000#32)) (ix2 r q)
      = max (x (ix2 r q) + y (ix2 (0 : Fin 1) q)) (Ideal.ofBits .f32 0x00000000#32) := by
  show max (x (ix2 r q) + broadcastInDim Cert.ReferenceIdeal.S100000x64 ![0, 1] Cert.ReferenceIdeal.Gen.bcast_S1x64_S100000x64_0_1 y (ix2 r q))
      (broadcastInDim Cert.ReferenceIdeal.S100000x64 ![] Cert.ReferenceIdeal.Gen.bcast_S_S100000x64
        (constant (F := Ideal) Cert.ReferenceIdeal.S_ .f32 0x00000000#32) (ix2 r q)) = _
  have hrow : broadcastInDim Cert.ReferenceIdeal.S100000x64 ![0, 1] Cert.ReferenceIdeal.Gen.bcast_S1x64_S100000x64_0_1 y (ix2 r q)
      = y (ix2 (0 : Fin 1) q) :=
    broadcastInDim_apply _ _ y (ix2 r q) (ix2 (0 : Fin 1) q) fun a => by
      match a with
      | ⟨0, _⟩ => rfl
      | ⟨1, _⟩ => rfl
  have hzero : broadcastInDim Cert.ReferenceIdeal.S100000x64 ![] Cert.ReferenceIdeal.Gen.bcast_S_S100000x64
      (constant (F := Ideal) Cert.ReferenceIdeal.S_ .f32 0x00000000#32) (ix2 r q) = Ideal.ofBits .f32 0x00000000#32 :=
    broadcastInDim_apply _ _ _ (ix2 r q) ix0 fun a => a.elim0
  rw [hrow, hzero]

variable (V : (c : Dev nD) → (b : Ref sig .tc) → Buf (Elt Ideal) ((c : Thread nD τ).loc b))

theorem zero_offsets1 : (![0, 0] : Fin 2 → Nat) = fun _ => 0 := funext fun a => by fin_cases a <;> rfl

/-- The index maps over the grid: at point t the row block of the input and of the output is block t down the rows,
    in the one block across the columns; the bias row's block never moves. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt1 (t : Fin cfg1.N) (p : Fin 10000) : t.val * 10000 + p.val < 100000 := by
  have hN : grid1.N = 10 := N_1
  have ht : t.val < grid1.N := t.isLt
  have hp := p.isLt
  omega

/-- Element (p, q) of the input's row block at point t is element (10000 t + p, q) of the array. -/
theorem in_elem1 (t : Fin cfg1.N) (p : Fin 10000) (q : Fin 64) :
    (((cfg1.win 0).blk t).view.emb (ix2 p q) : S100000x64.Idx) = ix2 ⟨t.val * 10000 + p.val, row_lt1 t p⟩ q := by
  obtain ⟨e0, e1, e2, e3, e4, e5⟩ := block_indices1 t
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

/-- The same of the output's row block. -/
theorem out_elem1 (t : Fin cfg1.N) (p : Fin 10000) (q : Fin 64) :
    (((cfg1.win 2).blk t).view.emb (ix2 p q) : S100000x64.Idx) = ix2 ⟨t.val * 10000 + p.val, row_lt1 t p⟩ q := by
  obtain ⟨e0, e1, e2, e3, e4, e5⟩ := block_indices1 t
  funext a; apply Fin.ext
  match a with
  | ⟨0, _⟩ => show win1_2.index t (0 : Fin 2) * 10000 + 1 * p.val = t.val * 10000 + p.val; rw [e4]; omega
  | ⟨1, _⟩ => show win1_2.index t (1 : Fin 2) * 64 + 1 * q.val = q.val; rw [e5]; omega

/-- Element (0, q) of the bias row's block is element (0, q) of the bias row, at every point. -/
theorem bias_elem1 (t : Fin cfg1.N) (q : Fin 64) :
    (((cfg1.win 1).blk t).view.emb (ix2 (0 : Fin 1) q) : S1x64.Idx) = ix2 (0 : Fin 1) q := by
  obtain ⟨e0, e1, e2, e3, e4, e5⟩ := block_indices1 t
  funext a; apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- At point t, the body's expression over elements of the input arrays read through the two input blocks is the
    reference's expression over the arrays, read through the output block. -/
theorem block_elem1 (x : FVec Ideal Cert.ReferenceIdeal.S100000x64 .f32) (y : FVec Ideal Cert.ReferenceIdeal.S1x64 .f32)
    (t : Fin cfg1.N) (p : Fin 10000) (q : Fin 64) :
    max (x (((cfg1.win 0).blk t).view.emb (ix2 p q)) + y (((cfg1.win 1).blk t).view.emb (ix2 (0 : Fin 1) q)))
        (Ideal.ofBits .f32 0x00000000#32)
      = (maximumf (addf x
        (broadcastInDim Cert.ReferenceIdeal.S100000x64 ![0, 1] Cert.ReferenceIdeal.Gen.bcast_S1x64_S100000x64_0_1 y))
      (broadcastInDim Cert.ReferenceIdeal.S100000x64 ![] Cert.ReferenceIdeal.Gen.bcast_S_S100000x64
        (constant (F := Ideal) Cert.ReferenceIdeal.S_ .f32 0x00000000#32))) (((cfg1.win 2).blk t).view.emb (ix2 p q)) := by
  rw [in_elem1 t p q, bias_elem1 t q, out_elem1 t p q]
  exact (reference_at1 x y _ q).symm

/-- What point t writes back is block t of the reference's three operations applied to the two input arrays. -/
theorem written_back1 (c : Dev nD) (t : Fin cfg1.N) :
    (dat1 (F := Ideal) V c).flushed 2 t = ((cfg1.win 2).blk t).view.read (Elt Ideal)
      (maximumf (addf (V c main_v39 : FVec Ideal Cert.ReferenceIdeal.S100000x64 .f32)
        (broadcastInDim Cert.ReferenceIdeal.S100000x64 ![0, 1] Cert.ReferenceIdeal.Gen.bcast_S1x64_S100000x64_0_1
          (V c main_v40 : FVec Ideal Cert.ReferenceIdeal.S1x64 .f32)))
      (broadcastInDim Cert.ReferenceIdeal.S100000x64 ![] Cert.ReferenceIdeal.Gen.bcast_S_S100000x64
        (constant (F := Ideal) Cert.ReferenceIdeal.S_ .f32 0x00000000#32))) := by
  show (cfg1.win 2).cut (grid1.coords t) ((dat1 V c).after 2 t) = _
  rw [after1_2]
  unfold out1_2
  rw [View.canon_unit_zero zero_offsets1]
  simp only [View.ld_unit_zero (S := S10000x64) zero_offsets1, View.ld_unit_zero (S := S1x64) zero_offsets1]
  funext j
  obtain ⟨p, q, rfl⟩ : ∃ (p : Fin 10000) (q : Fin 64), j = ix2 p q := ⟨j 0, j 1, eq_ix2 j⟩
  show k1_pay1 (iblk1 V c 0 t) (iblk1 V c 1 t) (ix2 p q) = _
  refine (stored_at1 _ _ p q).trans ?_
  exact block_elem1 (V c main_v39) (V c main_v40) t p q

/-- An index of the output array lies in point t's block when, on each axis, its coordinate lies in the block's
    range there. -/
theorem mem_out_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v41).slice (win1_2.rect t)).set ↔ _
  rw [View.set_slice_whole, Rect.mem_set_unit]
  exact Iff.rfl

/-- Every index of the output array is written back by some point: row r by point r / 10000. -/
theorem all_written1 (i : S100000x64.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hN : grid1.N = 10 := N_1
  have ht : (i 0).val / 10000 < grid1.N := by omega
  obtain ⟨e0, e1, e2, e3, e4, e5⟩ := block_indices1 ⟨(i 0).val / 10000, ht⟩
  refine ⟨⟨(i 0).val / 10000, ht⟩, flush1_2 _, ?_⟩
  rw [mem_out_block1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- The output array after the region: the reference's broadcast of the bias row, addition and maximum with zero,
    applied to the region's two input arrays. -/
theorem val1 (c : Dev nD) : (dat1 (F := Ideal) V c).arrAt 2 cfg1.N =
    maximumf (addf (V c main_v39 : FVec Ideal Cert.ReferenceIdeal.S100000x64 .f32)
        (broadcastInDim Cert.ReferenceIdeal.S100000x64 ![0, 1] Cert.ReferenceIdeal.Gen.bcast_S1x64_S100000x64_0_1
          (V c main_v40 : FVec Ideal Cert.ReferenceIdeal.S1x64 .f32)))
      (broadcastInDim Cert.ReferenceIdeal.S100000x64 ![] Cert.ReferenceIdeal.Gen.bcast_S_S100000x64
        (constant (F := Ideal) Cert.ReferenceIdeal.S_ .f32 0x00000000#32)) :=
  (dat1 (F := Ideal) V c).arrAt_eq_of_cover 2 _ (fun t _ => written_back1 V c t) all_written1

end Cert.KernelIdeal.HandValue

end
-- ==== Proof.Val2.lean ====
/-
  The second dense projection as one array. After region 2 the result array holds h · W₂, the product of the hidden
  features h (100000 × 64, the first layer's activations) with the second layer's weights W₂ (64 × 64): entry (n, j)
  is the sum over k of h (n, k) · W₂ (k, j). The region computes it ten row blocks at a time (block t is rows
  10000·t … 10000·t + 9999 of h against the whole of W₂, written to the same rows of the result); the reference
  computes it with one dot_general. Both are read at an index as that sum, over the extended reals, where the two
  truncations to bf16 are the identity and so is the block's cast to its own shape.
-/
import proofs.«413692_j83004537962758_2_alg».proof.Proof.Reg2
import proofs.«413692_j83004537962758_2_alg».proof.ReferenceIdeal
import proofs.«413692_j83004537962758_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat Cfg Window)

/-! ## The product, entry by entry -/

/-- Where entry (n, j) of the product reads h for the contraction index k: at (n, k). -/
abbrev hiddenAt (i : S100000x64.Idx) (k : Fin 64) : S100000x64.Idx := fun a => match a with
  | ⟨0, _⟩ => ⟨(i 0).val, (i 0).isLt⟩
  | ⟨1, _⟩ => ⟨k.val, k.isLt⟩
/-- Where it reads W₂: at (k, j). -/
abbrev weight2At (i : S100000x64.Idx) (k : Fin 64) : S64x64.Idx := fun a => match a with
  | ⟨0, _⟩ => ⟨k.val, k.isLt⟩
  | ⟨1, _⟩ => ⟨(i 1).val, (i 1).isLt⟩

/-- h · W₂: entry (n, j) is the sum over k of h (n, k) · W₂ (k, j). -/
def hiddenTimesWeights (X : FVec Ideal S100000x64 .f32) (W : FVec Ideal S64x64 .f32) : FVec Ideal S100000x64 .f32 :=
  fun i => ∑ k : Fin 64, X (hiddenAt i k) * W (weight2At i k)

/-! ## The reference's dot_general is that product -/

theorem ref2_lhs_row (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem ref2_lhs_contr (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem ref2_rhs_contr (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem ref2_rhs_col (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The reference's dot_general of h and W₂, read at an entry, is the sum over the contraction index. -/
theorem ref2_dot_entry (X : FVec Ideal S100000x64 .f32) (W : FVec Ideal S64x64 .f32) (i : S100000x64.Idx) :
    Host.dotGeneral (F := Ideal) Cert.ReferenceIdeal.dot_S100000x64_S64x64_S100000x64_1_0_0_1_n_n none X W i
      = hiddenTimesWeights X W i := by
  unfold hiddenTimesWeights
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = hiddenAt i k := funext fun a => Fin.ext (by
    match a with
    | ⟨0, _⟩ => exact ref2_lhs_row _ _
    | ⟨1, _⟩ => exact (ref2_lhs_contr _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = weight2At i k := funext fun a => Fin.ext (by
    match a with
    | ⟨0, _⟩ => exact (ref2_rhs_contr _ _).trans hk
    | ⟨1, _⟩ => exact ref2_rhs_col _ _)
  rw [el, er]

/-! ## One block's matmul, entry by entry -/

/-- Inside a block: entry (r, j) reads the row block at (r, k) -/
abbrev blockHiddenAt (j : S10000x64.Idx) (k : Fin 64) : S10000x64.Idx := fun a => match a with
  | ⟨0, _⟩ => ⟨(j 0).val, (j 0).isLt⟩
  | ⟨1, _⟩ => ⟨k.val, k.isLt⟩
/-- and the weights at (k, j). -/
abbrev blockWeight2At (j : S10000x64.Idx) (k : Fin 64) : S64x64.Idx := fun a => match a with
  | ⟨0, _⟩ => ⟨k.val, k.isLt⟩
  | ⟨1, _⟩ => ⟨(j 1).val, (j 1).isLt⟩

theorem blk2_lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem blk2_lhs_contr (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem blk2_rhs_contr (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem blk2_rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload on a row block x and the weights w, at an entry: the cast of the block to its own shape and the
    truncations are the identity and the accumulator is zero, so the matmul is the bare sum over the contraction index. -/
theorem block_product_entry2 (x : FVec Ideal S10000x64 .f32) (w : FVec Ideal S64x64 .f32) (j : S10000x64.Idx) :
    k2_pay1 (F := Ideal) x w j = ∑ k : Fin 64, x (blockHiddenAt j k) * w (blockWeight2At j k) := by
  show FloatOps.matmul (F := Ideal) (φ₁ := .bf16) (φ₂ := .bf16) dot_S10000x64_S64x64_S10000x64_1_0_0_1_n_n none
      (truncf .bf16 (shapeCast S10000x64 x shapeCasts_S10000x64_S10000x64) bitsLt_bf16_f32) (truncf .bf16 w bitsLt_bf16_f32)
      (constant S10000x64 .f32 0x00000000#32) j = _
  rw [shapeCast_self, Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blockHiddenAt j k := funext fun a => Fin.ext (by
    match a with
    | ⟨0, _⟩ => exact blk2_lhs_row _ _
    | ⟨1, _⟩ => exact (blk2_lhs_contr _ _).trans hk)
  have er : dot_S10000x64_S64x64_S10000x64_1_0_0_1_n_n.rhsIdx j ((ValueIdx.contrEquiv1 dot_S10000x64_S64x64_S10000x64_1_0_0_1_n_n 64 rfl rfl).symm k) = blockWeight2At j k := funext fun a => Fin.ext (by
    match a with
    | ⟨0, _⟩ => exact (blk2_rhs_contr _ _).trans hk
    | ⟨1, _⟩ => exact blk2_rhs_col _ _)
  rw [el, er]
  rfl

/-! ## From the blocks to the array -/

theorem origin_zero2 : (![0, 0] : Fin 2 → Nat) = fun _ => 0 := funext fun a => by fin_cases a <;> rfl

/-- The index maps over the grid: block t of h and of the result is the t-th block of rows, across all columns; the
    weights' block is the whole matrix at every point. -/
theorem row_blocks2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Block t of the product from block t of h and the whole of W₂: the row r of the block is the row 10000·t + r of the
    array, and the contraction index and the column are the same in the block and in the array. -/
theorem block_of_product2 (X : FVec Ideal S100000x64 .f32) (W : FVec Ideal S64x64 .f32) (t : Fin cfg2.N) (j : S10000x64.Idx) :
    ∑ k : Fin 64, X (((cfg2.win 0).blk t).view.emb (blockHiddenAt j k)) * W (((cfg2.win 1).blk t).view.emb (blockWeight2At j k))
      = hiddenTimesWeights X W (((cfg2.win 2).blk t).view.emb j) := by
  unfold hiddenTimesWeights
  obtain ⟨e0, e1, e2, e3, e4, e5⟩ := row_blocks2 t
  refine Finset.sum_congr rfl fun k _ => ?_
  have hx : ((cfg2.win 0).blk t).view.emb (blockHiddenAt j k) = hiddenAt (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have hw : ((cfg2.win 1).blk t).view.emb (blockWeight2At j k) = weight2At (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [hx, hw]

section
variable (V : (c : Dev nD) → (b : Ref sig .tc) → Buf (Elt Ideal) ((c : Thread nD τ).loc b))

/-- What point t writes back is block t of h · W₂, of the arrays as the region finds them. -/
theorem written_back2 (c : Dev nD) (t : Fin cfg2.N) :
    (dat2 (F := Ideal) V c).flushed 2 t
      = ((cfg2.win 2).blk t).view.read (Elt Ideal) (hiddenTimesWeights (V c main_v41) (V c main_arg6)) := by
  show (cfg2.win 2).cut (grid2.coords t) ((dat2 V c).after 2 t) = _
  rw [after2_2]
  unfold out2_2
  rw [View.canon_unit_zero origin_zero2]
  simp only [View.ld_unit_zero (S := S10000x64) origin_zero2, View.ld_unit_zero (S := S64x64) origin_zero2]
  funext j
  refine (block_product_entry2 _ _ _).trans ?_
  exact block_of_product2 (V c main_v41) (V c main_arg6) t j

/-- An entry of the result is in point t's block iff each coordinate is in the block's range on its axis. -/
theorem mem_row_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v42).slice (win2_2.rect t)).set ↔ _
  rw [View.set_slice_whole, Rect.mem_set_unit]
  exact Iff.rfl

/-- Every entry of the result is written: row n by the point n / 10000. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have hlt : (i 0).val / 10000 < grid2.N := by omega
  obtain ⟨e0, e1, e2, e3, e4, e5⟩ := row_blocks2 ⟨(i 0).val / 10000, hlt⟩
  have e4' : win2_2.index ⟨(i 0).val / 10000, hlt⟩ (0 : Fin 2) = (i 0).val / 10000 := e4
  refine ⟨⟨(i 0).val / 10000, hlt⟩, flush2_2 _, ?_⟩
  rw [mem_row_block2]
  intro a
  match a with
  | ⟨0, _⟩ => show win2_2.index ⟨(i 0).val / 10000, hlt⟩ (0 : Fin 2) * 10000 ≤ (i 0).val ∧ (i 0).val < win2_2.index ⟨(i 0).val / 10000, hlt⟩ (0 : Fin 2) * 10000 + 10000; omega
  | ⟨1, _⟩ => show win2_2.index ⟨(i 0).val / 10000, hlt⟩ (1 : Fin 2) * 64 ≤ (i 1).val ∧ (i 1).val < win2_2.index ⟨(i 0).val / 10000, hlt⟩ (1 : Fin 2) * 64 + 64; omega

/-- After the region the result array is the reference's dot_general of h and W₂. -/
theorem val2 (c : Dev nD) :
    (dat2 (F := Ideal) V c).arrAt 2 cfg2.N
      = Host.dotGeneral (F := Ideal) (φ₁ := .f32) (φ₂ := .f32) Cert.ReferenceIdeal.dot_S100000x64_S64x64_S100000x64_1_0_0_1_n_n none
          (V c main_v41) (V c main_arg6) :=
  ((dat2 (F := Ideal) V c).arrAt_eq_of_cover 2 (hiddenTimesWeights (V c main_v41) (V c main_arg6))
      (fun t _ => written_back2 V c t) rows_covered2).trans
    (funext fun i => (ref2_dot_entry (V c main_v41) (V c main_arg6) i).symm)

end

end Cert.KernelIdeal.HandValue

end
-- ==== Proof.Val3.lean ====
/-
  The value of region 3 at exact arithmetic: after the region has run, its output array holds, at every index
  (r, q), the maximum with zero of the aggregated row r at column q plus the bias row at column q. That is the
  reference's broadcast of the bias down the rows, its addition and its rectifier, applied to the region's two
  input arrays as it found them.
-/
import proofs.«413692_j83004537962758_2_alg».proof.Proof.Reg3
import proofs.«413692_j83004537962758_2_alg».proof.ReferenceIdeal
import proofs.«413692_j83004537962758_2_alg».proof.Proof.Gen.ReferenceIdeal
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- One element of what the body stores: the row block's element plus the bias row's element of the same column,
    cut off below at zero. -/
theorem stored_at3 (x : FVec Ideal S10000x64 .f32) (y : FVec Ideal S1x64 .f32) (p : Fin 10000) (q : Fin 64) :
    k3_pay1 x y (ix2 p q) = max (x (ix2 p q) + y (ix2 (0 : Fin 1) q)) (Ideal.ofBits .f32 0x00000000#32) := by
  unfold k3_pay1
  show max (shapeCast S10000x64 x shapeCasts_S10000x64_S10000x64 (ix2 p q)
      + broadcastTo S10000x64 (shapeCast S1x64 y shapeCasts_S1x64_S1x64) broadcasts_S1x64_S10000x64 (ix2 p q)) _ = _
  rw [shapeCast_self, shapeCast_self, broadcastTo_1b_ab_apply]
  rfl

/-- One element of the reference's three operations on whole arrays: the same expression. -/
theorem reference_at3 (x : FVec Ideal Cert.ReferenceIdeal.S100000x64 .f32) (y : FVec Ideal Cert.ReferenceIdeal.S1x64 .f32)
    (r : Fin 100000) (q : Fin 64) :
    maximumf (addf x (broadcastInDim Cert.ReferenceIdeal.S100000x64 ![0, 1] Cert.ReferenceIdeal.Gen.bcast_S1x64_S100000x64_0_1 y))
        (broadcastInDim Cert.ReferenceIdeal.S100000x64 ![] Cert.ReferenceIdeal.Gen.bcast_S_S100000x64
          (constant (F := Ideal) Cert.ReferenceIdeal.S_ .f32 0x00000000#32)) (ix2 r q)
      = max (x (ix2 r q) + y (ix2 (0 : Fin 1) q)) (Ideal.ofBits .f32 0x00000000#32) := by
  show max (x (ix2 r q) + broadcastInDim Cert.ReferenceIdeal.S100000x64 ![0, 1] Cert.ReferenceIdeal.Gen.bcast_S1x64_S100000x64_0_1 y (ix2 r q))
      (broadcastInDim Cert.ReferenceIdeal.S100000x64 ![] Cert.ReferenceIdeal.Gen.bcast_S_S100000x64
        (constant (F := Ideal) Cert.ReferenceIdeal.S_ .f32 0x00000000#32) (ix2 r q)) = _
  have hrow : broadcastInDim Cert.ReferenceIdeal.S100000x64 ![0, 1] Cert.ReferenceIdeal.Gen.bcast_S1x64_S100000x64_0_1 y (ix2 r q)
      = y (ix2 (0 : Fin 1) q) :=
    broadcastInDim_apply _ _ y (ix2 r q) (ix2 (0 : Fin 1) q) fun a => by
      match a with
      | ⟨0, _⟩ => rfl
      | ⟨1, _⟩ => rfl
  have hzero : broadcastInDim Cert.ReferenceIdeal.S100000x64 ![] Cert.ReferenceIdeal.Gen.bcast_S_S100000x64
      (constant (F := Ideal) Cert.ReferenceIdeal.S_ .f32 0x00000000#32) (ix2 r q) = Ideal.ofBits .f32 0x00000000#32 :=
    broadcastInDim_apply _ _ _ (ix2 r q) ix0 fun a => a.elim0
  rw [hrow, hzero]

variable (V : (c : Dev nD) → (b : Ref sig .tc) → Buf (Elt Ideal) ((c : Thread nD τ).loc b))

theorem zero_offsets3 : (![0, 0] : Fin 2 → Nat) = fun _ => 0 := funext fun a => by fin_cases a <;> rfl

/-- The index maps over the grid: at point t the row block of the input and of the output is block t down the rows,
    in the one block across the columns; the bias row's block never moves. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem row_lt3 (t : Fin cfg3.N) (p : Fin 10000) : t.val * 10000 + p.val < 100000 := by
  have hN : grid3.N = 10 := N_3
  have ht : t.val < grid3.N := t.isLt
  have hp := p.isLt
  omega

/-- Element (p, q) of the input's row block at point t is element (10000 t + p, q) of the array. -/
theorem in_elem3 (t : Fin cfg3.N) (p : Fin 10000) (q : Fin 64) :
    (((cfg3.win 0).blk t).view.emb (ix2 p q) : S100000x64.Idx) = ix2 ⟨t.val * 10000 + p.val, row_lt3 t p⟩ q := by
  obtain ⟨e0, e1, e2, e3, e4, e5⟩ := block_indices3 t
  funext a; apply Fin.ext
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- The same of the output's row block. -/
theorem out_elem3 (t : Fin cfg3.N) (p : Fin 10000) (q : Fin 64) :
    (((cfg3.win 2).blk t).view.emb (ix2 p q) : S100000x64.Idx) = ix2 ⟨t.val * 10000 + p.val, row_lt3 t p⟩ q := by
  obtain ⟨e0, e1, e2, e3, e4, e5⟩ := block_indices3 t
  funext a; apply Fin.ext
  match a with
  | ⟨0, _⟩ => show win3_2.index t (0 : Fin 2) * 10000 + 1 * p.val = t.val * 10000 + p.val; rw [e4]; omega
  | ⟨1, _⟩ => show win3_2.index t (1 : Fin 2) * 64 + 1 * q.val = q.val; rw [e5]; omega

/-- Element (0, q) of the bias row's block is element (0, q) of the bias row, at every point. -/
theorem bias_elem3 (t : Fin cfg3.N) (q : Fin 64) :
    (((cfg3.win 1).blk t).view.emb (ix2 (0 : Fin 1) q) : S1x64.Idx) = ix2 (0 : Fin 1) q := by
  obtain ⟨e0, e1, e2, e3, e4, e5⟩ := block_indices3 t
  funext a; apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- At point t, the body's expression over elements of the input arrays read through the two input blocks is the
    reference's expression over the arrays, read through the output block. -/
theorem block_elem3 (x : FVec Ideal Cert.ReferenceIdeal.S100000x64 .f32) (y : FVec Ideal Cert.ReferenceIdeal.S1x64 .f32)
    (t : Fin cfg3.N) (p : Fin 10000) (q : Fin 64) :
    max (x (((cfg3.win 0).blk t).view.emb (ix2 p q)) + y (((cfg3.win 1).blk t).view.emb (ix2 (0 : Fin 1) q)))
        (Ideal.ofBits .f32 0x00000000#32)
      = (maximumf (addf x
        (broadcastInDim Cert.ReferenceIdeal.S100000x64 ![0, 1] Cert.ReferenceIdeal.Gen.bcast_S1x64_S100000x64_0_1 y))
      (broadcastInDim Cert.ReferenceIdeal.S100000x64 ![] Cert.ReferenceIdeal.Gen.bcast_S_S100000x64
        (constant (F := Ideal) Cert.ReferenceIdeal.S_ .f32 0x00000000#32))) (((cfg3.win 2).blk t).view.emb (ix2 p q)) := by
  rw [in_elem3 t p q, bias_elem3 t q, out_elem3 t p q]
  exact (reference_at3 x y _ q).symm

/-- What point t writes back is block t of the reference's three operations applied to the two input arrays. -/
theorem written_back3 (c : Dev nD) (t : Fin cfg3.N) :
    (dat3 (F := Ideal) V c).flushed 2 t = ((cfg3.win 2).blk t).view.read (Elt Ideal)
      (maximumf (addf (V c main_v49 : FVec Ideal Cert.ReferenceIdeal.S100000x64 .f32)
        (broadcastInDim Cert.ReferenceIdeal.S100000x64 ![0, 1] Cert.ReferenceIdeal.Gen.bcast_S1x64_S100000x64_0_1
          (V c main_v50 : FVec Ideal Cert.ReferenceIdeal.S1x64 .f32)))
      (broadcastInDim Cert.ReferenceIdeal.S100000x64 ![] Cert.ReferenceIdeal.Gen.bcast_S_S100000x64
        (constant (F := Ideal) Cert.ReferenceIdeal.S_ .f32 0x00000000#32))) := by
  show (cfg3.win 2).cut (grid3.coords t) ((dat3 V c).after 2 t) = _
  rw [after3_2]
  unfold out3_2
  rw [View.canon_unit_zero zero_offsets3]
  simp only [View.ld_unit_zero (S := S10000x64) zero_offsets3, View.ld_unit_zero (S := S1x64) zero_offsets3]
  funext j
  obtain ⟨p, q, rfl⟩ : ∃ (p : Fin 10000) (q : Fin 64), j = ix2 p q := ⟨j 0, j 1, eq_ix2 j⟩
  show k3_pay1 (iblk3 V c 0 t) (iblk3 V c 1 t) (ix2 p q) = _
  refine (stored_at3 _ _ p q).trans ?_
  exact block_elem3 (V c main_v49) (V c main_v50) t p q

/-- An index of the output array lies in point t's block when, on each axis, its coordinate lies in the block's
    range there. -/
theorem mem_out_block3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v51).slice (win3_2.rect t)).set ↔ _
  rw [View.set_slice_whole, Rect.mem_set_unit]
  exact Iff.rfl

/-- Every index of the output array is written back by some point: row r by point r / 10000. -/
theorem all_written3 (i : S100000x64.Idx) :
    ∃ t : Fin cfg3.N, (cfg3.win 2).flush t = true ∧ i ∈ ((cfg3.win 2).blk t).view.set := by
  have h0 : (i 0).val < 100000 := (i 0).isLt
  have h1 : (i 1).val < 64 := (i 1).isLt
  have hN : grid3.N = 10 := N_3
  have ht : (i 0).val / 10000 < grid3.N := by omega
  obtain ⟨e0, e1, e2, e3, e4, e5⟩ := block_indices3 ⟨(i 0).val / 10000, ht⟩
  refine ⟨⟨(i 0).val / 10000, ht⟩, flush3_2 _, ?_⟩
  rw [mem_out_block3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]; omega

/-- The output array after the region: the reference's broadcast of the bias row, addition and maximum with zero,
    applied to the region's two input arrays. -/
theorem val3 (c : Dev nD) : (dat3 (F := Ideal) V c).arrAt 2 cfg3.N =
    maximumf (addf (V c main_v49 : FVec Ideal Cert.ReferenceIdeal.S100000x64 .f32)
        (broadcastInDim Cert.ReferenceIdeal.S100000x64 ![0, 1] Cert.ReferenceIdeal.Gen.bcast_S1x64_S100000x64_0_1
          (V c main_v50 : FVec Ideal Cert.ReferenceIdeal.S1x64 .f32)))
      (broadcastInDim Cert.ReferenceIdeal.S100000x64 ![] Cert.ReferenceIdeal.Gen.bcast_S_S100000x64
        (constant (F := Ideal) Cert.ReferenceIdeal.S_ .f32 0x00000000#32)) :=
  (dat3 (F := Ideal) V c).arrAt_eq_of_cover 2 _ (fun t _ => written_back3 V c t) all_written3

end Cert.KernelIdeal.HandValue

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.Pool4Math.lean ====
/-
  The arithmetic of the pooling region, read one element at a time at the ideal values (floats are extended reals,
  every operation exact, a change of float format the identity).

  Per block of 10000 node rows the region forms the one-hot matrix of the rows' graph ids against the graph numbers
  0..63, adds its transpose times the feature block to a 64 × 64 accumulator of per-graph feature sums and its
  transpose times a column of ones to a 64 × 1 accumulator of per-graph node counts; after the last block the head
  divides each graph's sums by max(count, 1), applies the first dense layer with bias and a maximum with zero, then
  the second dense layer with bias.

  "Row n has graph id g" is spelt (ids (n, 0)).toInt = g: the comparison of the id word with the iota word
  BitVec.ofNat 32 g holds exactly when the word read signed is g, since g < 64.

  Last, the law that joins ten consecutive blocks of 10000 into one sum over 100000, plain and filtered.
-/
import proofs.«413692_j83004537962758_2_alg».proof.Proof.Gen.KernelIdeal.Skeleton
import proofs.«413692_j83004537962758_2_alg».proof.Proof.LibRowOps
import Idealize.ShloMosaic.PureOps.Ideal.Laws
import Idealize.ShloMosaic.Lib.ValueIdx
import Idealize.ShloMosaic.Lib.Pipeline.Value

set_option maxRecDepth 16384

noncomputable section

namespace Cert.KernelIdeal.HandValue

open Cert.KernelIdeal Cert.KernelIdeal.Gen
open Idealize.ShloMosaic Idealize.ShloMosaic.ValueIdx

/-- The reset of the sum accumulator writes zero everywhere. -/
theorem pay1_apply (g k : Fin 64) : (k4_pay1 (F := Ideal)) (ix2 g k) = 0 := by
  show Ideal.ofBits .f32 0x00000000#32 = 0
  exact Ideal.ofBits_zero_f32

/-- The reset of the count accumulator writes zero everywhere. -/
theorem pay2_apply (g : Fin 64) : (k4_pay2 (F := Ideal)) (ix2 g (0 : Fin 1)) = 0 := by
  show Ideal.ofBits .f32 0x00000000#32 = 0
  exact Ideal.ofBits_zero_f32

/-- The iota word of column g is the id word exactly when the id read signed is g. -/
theorem idWord_eq_iff (x : BitVec 32) (g : Fin 64) : x = BitVec.ofNat 32 g.val ↔ x.toInt = (g.val : ℤ) := by
  have hg := g.isLt
  have hto : (BitVec.ofNat 32 g.val).toInt = (g.val : ℤ) := by
    rw [BitVec.toInt_eq_toNat_cond, BitVec.toNat_ofNat]
    have : g.val % 2 ^ 32 = g.val := Nat.mod_eq_of_lt (by omega)
    rw [this, if_pos (by omega)]
  constructor
  · rintro rfl; exact hto
  · intro h; exact BitVec.eq_of_toInt_eq (h.trans hto.symm)

/-- The one-hot matrix at (n, g): one when row n's graph id is g, else zero. -/
theorem onehot_apply (ids : Vec Ideal S10000x1 .i32) (n : Fin 10000) (g : Fin 64) :
    k4_pay3 (F := Ideal) ids (ix2 n g) = if (ids (ix2 n (0 : Fin 1))).toInt = (g.val : ℤ) then 1 else 0 := by
  have hb : broadcastTo S10000x64 (shapeCast S10000x1 ids shapeCasts_S10000x1_S10000x1) broadcasts_S10000x1_S10000x64 (ix2 n g)
      = ids (ix2 n (0 : Fin 1)) := by
    rw [shapeCast_self]
    exact broadcastTo_apply ids broadcasts_S10000x1_S10000x64 (ix2 n g) (ix2 n (0 : Fin 1)) (fun a => match a with
      | ⟨0, _⟩ => by show n.val = if (10000 : Nat) = 1 then 0 else n.val; rw [if_neg (by decide)]
      | ⟨1, _⟩ => by show 0 = if (1 : Nat) = 1 then 0 else g.val; rw [if_pos rfl])
  have hi : iota .tc S10000x64 32 [1] iota_S10000x64_d1_w32 (ix2 n g) = BitVec.ofNat 32 g.val :=
    iota_single_apply .tc S10000x64 32 1 iota_S10000x64_d1_w32 (ix2 n g)
  have h1 : k4_pay3 (F := Ideal) ids (ix2 n g)
      = (((((IntOp.cmpi .eq
          (broadcastTo S10000x64 (shapeCast S10000x1 ids shapeCasts_S10000x1_S10000x1) broadcasts_S10000x1_S10000x64 (ix2 n g))
          (iota .tc S10000x64 32 [1] iota_S10000x64_d1_w32 (ix2 n g))).setWidth 32).toInt : ℝ) : EReal)) := rfl
  rw [h1, hb, hi]
  by_cases h : (ids (ix2 n (0 : Fin 1))).toInt = (g.val : ℤ)
  · rw [if_pos h, (idWord_eq_iff _ g).mpr h]
    simp [IntOp.cmpi]
  · rw [if_neg h]
    have hne : ¬ ids (ix2 n (0 : Fin 1)) = BitVec.ofNat 32 g.val := fun e => h ((idWord_eq_iff _ g).mp e)
    have hf : (ids (ix2 n (0 : Fin 1)) == BitVec.ofNat 32 g.val) = false := beq_eq_false_iff_ne.mpr hne
    simp [IntOp.cmpi, hf]

/-! ### The per-graph feature sums: the accumulator plus the one-hot matrix transposed times the feature block -/

theorem sumDot_lhs_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem sumDot_lhs_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem sumDot_rhs_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem sumDot_rhs_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- The product of a 10000 × 64 matrix transposed with a 10000 × 64 matrix, into the zero splat, at (g, k): the sum over
    the rows n of the left factor at (n, g) times the right factor at (n, k). -/
theorem sumDot_apply (l : FVec Ideal S10000x64 .bf16) (r : FVec Ideal S10000x64 .bf16) (g k : Fin 64) :
    matmul dot_S10000x64_S10000x64_S64x64_0_0_1_1_n_n none l r (constant S64x64 .f32 0x00000000#32) (ix2 g k)
      = ∑ n : Fin 10000, l (ix2 n g) * r (ix2 n k) := by
  simp only [matmul]
  rw [Ideal.matmul_constant_zero_apply, ← Equiv.sum_comp (ValueIdx.contrEquiv1 dot_S10000x64_S10000x64_S64x64_0_0_1_1_n_n 10000 rfl rfl).symm]
  refine Finset.sum_congr rfl fun n _ => ?_
  have hn := ValueIdx.contrEquiv1_symm_val dot_S10000x64_S10000x64_S64x64_0_0_1_1_n_n 10000 rfl rfl n
  have el : dot_S10000x64_S10000x64_S64x64_0_0_1_1_n_n.lhsIdx (ix2 g k) ((ValueIdx.contrEquiv1 dot_S10000x64_S10000x64_S64x64_0_0_1_1_n_n 10000 rfl rfl).symm n) = ix2 n g := funext fun a => Fin.ext (by
    match a with
    | ⟨0, _⟩ => exact (sumDot_lhs_0 _ _).trans hn
    | ⟨1, _⟩ => exact sumDot_lhs_1 _ _)
  have er : dot_S10000x64_S10000x64_S64x64_0_0_1_1_n_n.rhsIdx (ix2 g k) ((ValueIdx.contrEquiv1 dot_S10000x64_S10000x64_S64x64_0_0_1_1_n_n 10000 rfl rfl).symm n) = ix2 n k := funext fun a => Fin.ext (by
    match a with
    | ⟨0, _⟩ => exact (sumDot_rhs_0 _ _).trans hn
    | ⟨1, _⟩ => exact sumDot_rhs_1 _ _)
  rw [el, er]

/-- THE SUM ACCUMULATOR AFTER ONE BLOCK, at (g, k): what it held plus the features' column k summed over the block's
    rows whose graph id is g. -/
theorem pay4_apply (h : Vec Ideal S10000x64 .f32) (ids : Vec Ideal S10000x1 .i32) (acc : Vec Ideal S64x64 .f32) (g k : Fin 64) :
    k4_pay4 (F := Ideal) h ids acc (ix2 g k)
      = acc (ix2 g k) + ∑ n : Fin 10000, (if (ids (ix2 n (0 : Fin 1))).toInt = (g.val : ℤ) then h (ix2 n k) else 0) := by
  have h1 : k4_pay4 (F := Ideal) h ids acc (ix2 g k)
      = acc (ix2 g k) + matmul dot_S10000x64_S10000x64_S64x64_0_0_1_1_n_n none (k4_pay3 (F := Ideal) ids)
          (truncf .bf16 (shapeCast S10000x64 h shapeCasts_S10000x64_S10000x64) bitsLt_bf16_f32)
          (constant S64x64 .f32 0x00000000#32) (ix2 g k) := by
    unfold k4_pay4
    rw [shapeCast_self]
    rfl
  rw [h1, sumDot_apply, shapeCast_self]
  refine congrArg (acc (ix2 g k) + ·) (Finset.sum_congr rfl fun n _ => ?_)
  rw [onehot_apply, truncf_apply]
  by_cases hg : (ids (ix2 n (0 : Fin 1))).toInt = (g.val : ℤ)
  · rw [if_pos hg, if_pos hg, one_mul]
  · rw [if_neg hg, if_neg hg, zero_mul]

/-! ### The per-graph node counts: the accumulator plus the one-hot matrix transposed times a column of ones -/

theorem countDot_lhs_0 (i : S64x1.Idx) (q : dot_S10000x64_S10000x1_S64x1_0_0_1_1_n_n.contr.Idx) :
    (dot_S10000x64_S10000x1_S64x1_0_0_1_1_n_n.lhsIdx i q 0).val = (q ⟨0, by decide⟩).val :=
  dot_S10000x64_S10000x1_S64x1_0_0_1_1_n_n.lhsIdx_val_of_single rfl i q
theorem countDot_lhs_1 (i : S64x1.Idx) (q : dot_S10000x64_S10000x1_S64x1_0_0_1_1_n_n.contr.Idx) :
    (dot_S10000x64_S10000x1_S64x1_0_0_1_1_n_n.lhsIdx i q 1).val = (i 0).val := by
  unfold DotDims.lhsIdx
  rw [dif_neg (show ¬(1 : Fin S10000x64.rank) ∈ dot_S10000x64_S10000x1_S64x1_0_0_1_1_n_n.lhsBatch by decide), dif_pos (show (1 : Fin S10000x64.rank) ∈ dot_S10000x64_S10000x1_S64x1_0_0_1_1_n_n.lhsNonContracting by decide)]
  rfl
theorem countDot_rhs_0 (i : S64x1.Idx) (q : dot_S10000x64_S10000x1_S64x1_0_0_1_1_n_n.contr.Idx) :
    (dot_S10000x64_S10000x1_S64x1_0_0_1_1_n_n.rhsIdx i q 0).val = (q ⟨0, by decide⟩).val :=
  dot_S10000x64_S10000x1_S64x1_0_0_1_1_n_n.rhsIdx_val_of_single rfl i q
theorem countDot_rhs_1 (i : S64x1.Idx) (q : dot_S10000x64_S10000x1_S64x1_0_0_1_1_n_n.contr.Idx) :
    (dot_S10000x64_S10000x1_S64x1_0_0_1_1_n_n.rhsIdx i q 1).val = (i 1).val := by
  unfold DotDims.rhsIdx
  rw [dif_neg (show ¬(1 : Fin S10000x1.rank) ∈ dot_S10000x64_S10000x1_S64x1_0_0_1_1_n_n.rhsBatch by decide), dif_pos (show (1 : Fin S10000x1.rank) ∈ dot_S10000x64_S10000x1_S64x1_0_0_1_1_n_n.rhsNonContracting by decide)]
  rfl

/-- The product of a 10000 × 64 matrix transposed with a 10000 × 1 column, into the zero splat, at (g, 0): the sum over
    the rows n of the left factor at (n, g) times the column at n. -/
theorem countDot_apply (l : FVec Ideal S10000x64 .bf16) (r : FVec Ideal S10000x1 .bf16) (g : Fin 64) :
    matmul dot_S10000x64_S10000x1_S64x1_0_0_1_1_n_n none l r (constant S64x1 .f32 0x00000000#32) (ix2 g (0 : Fin 1))
      = ∑ n : Fin 10000, l (ix2 n g) * r (ix2 n (0 : Fin 1)) := by
  simp only [matmul]
  rw [Ideal.matmul_constant_zero_apply, ← Equiv.sum_comp (ValueIdx.contrEquiv1 dot_S10000x64_S10000x1_S64x1_0_0_1_1_n_n 10000 rfl rfl).symm]
  refine Finset.sum_congr rfl fun n _ => ?_
  have hn := ValueIdx.contrEquiv1_symm_val dot_S10000x64_S10000x1_S64x1_0_0_1_1_n_n 10000 rfl rfl n
  have el : dot_S10000x64_S10000x1_S64x1_0_0_1_1_n_n.lhsIdx (ix2 g (0 : Fin 1)) ((ValueIdx.contrEquiv1 dot_S10000x64_S10000x1_S64x1_0_0_1_1_n_n 10000 rfl rfl).symm n) = ix2 n g := funext fun a => Fin.ext (by
    match a with
    | ⟨0, _⟩ => exact (countDot_lhs_0 _ _).trans hn
    | ⟨1, _⟩ => exact countDot_lhs_1 _ _)
  have er : dot_S10000x64_S10000x1_S64x1_0_0_1_1_n_n.rhsIdx (ix2 g (0 : Fin 1)) ((ValueIdx.contrEquiv1 dot_S10000x64_S10000x1_S64x1_0_0_1_1_n_n 10000 rfl rfl).symm n) = ix2 n (0 : Fin 1) := funext fun a => Fin.ext (by
    match a with
    | ⟨0, _⟩ => exact (countDot_rhs_0 _ _).trans hn
    | ⟨1, _⟩ => exact countDot_rhs_1 _ _)
  rw [el, er]

/-- The sixteen-bit word of 1.0 denotes one. -/
theorem one_bf16 : Ideal.ofBits .bf16 0x3F80#16 = 1 := IdealRules.sign_bit.ideal_onePat .bf16

/-- The thirty-two-bit word of 1.0 denotes one. -/
theorem one_f32 : Ideal.ofBits .f32 0x3F800000#32 = 1 := IdealRules.sign_bit.ideal_onePat .f32

/-- THE COUNT ACCUMULATOR AFTER ONE BLOCK, at (g, 0): what it held plus the number of the block's rows whose graph id
    is g. -/
theorem pay5_apply (ids : Vec Ideal S10000x1 .i32) (cnt : Vec Ideal S64x1 .f32) (g : Fin 64) :
    k4_pay5 (F := Ideal) ids cnt (ix2 g (0 : Fin 1))
      = cnt (ix2 g (0 : Fin 1))
        + ∑ n : Fin 10000, (if (ids (ix2 n (0 : Fin 1))).toInt = (g.val : ℤ) then (1 : EReal) else 0) := by
  have h1 : k4_pay5 (F := Ideal) ids cnt (ix2 g (0 : Fin 1))
      = cnt (ix2 g (0 : Fin 1)) + matmul dot_S10000x64_S10000x1_S64x1_0_0_1_1_n_n none (k4_pay3 (F := Ideal) ids)
          (broadcast S10000x1 (Scalar.ofBits (F := Ideal) .bf16 0x3F80#16))
          (constant S64x1 .f32 0x00000000#32) (ix2 g (0 : Fin 1)) := by
    unfold k4_pay5
    rw [shapeCast_self]
    rfl
  rw [h1, countDot_apply]
  refine congrArg (cnt (ix2 g (0 : Fin 1)) + ·) (Finset.sum_congr rfl fun n _ => ?_)
  rw [onehot_apply, broadcast_apply]
  show _ * Ideal.ofBits .bf16 0x3F80#16 = _
  rw [one_bf16, mul_one]

/-! ### The head: mean, first dense layer with bias and maximum with zero, second dense layer with bias -/

theorem dense1_lhs_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
theorem dense1_lhs_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem dense1_rhs_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
theorem dense1_rhs_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- The product of a 64 × 64 matrix with a 64 × 32 matrix, into the zero splat, at (g, j). -/
theorem dense1_apply (l : FVec Ideal S64x64 .bf16) (r : FVec Ideal S64x32 .bf16) (g : Fin 64) (j : Fin 32) :
    matmul dot_S64x64_S64x32_S64x32_1_0_0_1_n_n none l r (constant S64x32 .f32 0x00000000#32) (ix2 g j)
      = ∑ k : Fin 64, l (ix2 g k) * r (ix2 k j) := by
  simp only [matmul]
  rw [Ideal.matmul_constant_zero_apply, ← Equiv.sum_comp (ValueIdx.contrEquiv1 dot_S64x64_S64x32_S64x32_1_0_0_1_n_n 64 rfl rfl).symm]
  refine Finset.sum_congr rfl fun k _ => ?_
  have hk := ValueIdx.contrEquiv1_symm_val dot_S64x64_S64x32_S64x32_1_0_0_1_n_n 64 rfl rfl k
  have el : dot_S64x64_S64x32_S64x32_1_0_0_1_n_n.lhsIdx (ix2 g j) ((ValueIdx.contrEquiv1 dot_S64x64_S64x32_S64x32_1_0_0_1_n_n 64 rfl rfl).symm k) = ix2 g k := funext fun a => Fin.ext (by
    match a with
    | ⟨0, _⟩ => exact dense1_lhs_0 _ _
    | ⟨1, _⟩ => exact (dense1_lhs_1 _ _).trans hk)
  have er : dot_S64x64_S64x32_S64x32_1_0_0_1_n_n.rhsIdx (ix2 g j) ((ValueIdx.contrEquiv1 dot_S64x64_S64x32_S64x32_1_0_0_1_n_n 64 rfl rfl).symm k) = ix2 k j := funext fun a => Fin.ext (by
    match a with
    | ⟨0, _⟩ => exact (dense1_rhs_0 _ _).trans hk
    | ⟨1, _⟩ => exact dense1_rhs_1 _ _)
  rw [el, er]

theorem dense2_lhs_1 (i : S64x1.Idx) (q : dot_S64x32_S32x1_S64x1_1_0_0_1_n_n.contr.Idx) :
    (dot_S64x32_S32x1_S64x1_1_0_0_1_n_n.lhsIdx i q 1).val = (q ⟨0, by decide⟩).val :=
  dot_S64x32_S32x1_S64x1_1_0_0_1_n_n.lhsIdx_val_of_single rfl i q
theorem dense2_lhs_0 (i : S64x1.Idx) (q : dot_S64x32_S32x1_S64x1_1_0_0_1_n_n.contr.Idx) :
    (dot_S64x32_S32x1_S64x1_1_0_0_1_n_n.lhsIdx i q 0).val = (i 0).val := by
  unfold DotDims.lhsIdx
  rw [dif_neg (show ¬(0 : Fin S64x32.rank) ∈ dot_S64x32_S32x1_S64x1_1_0_0_1_n_n.lhsBatch by decide), dif_pos (show (0 : Fin S64x32.rank) ∈ dot_S64x32_S32x1_S64x1_1_0_0_1_n_n.lhsNonContracting by decide)]
  rfl
theorem dense2_rhs_0 (i : S64x1.Idx) (q : dot_S64x32_S32x1_S64x1_1_0_0_1_n_n.contr.Idx) :
    (dot_S64x32_S32x1_S64x1_1_0_0_1_n_n.rhsIdx i q 0).val = (q ⟨0, by decide⟩).val :=
  dot_S64x32_S32x1_S64x1_1_0_0_1_n_n.rhsIdx_val_of_single rfl i q
theorem dense2_rhs_1 (i : S64x1.Idx) (q : dot_S64x32_S32x1_S64x1_1_0_0_1_n_n.contr.Idx) :
    (dot_S64x32_S32x1_S64x1_1_0_0_1_n_n.rhsIdx i q 1).val = (i 1).val := by
  unfold DotDims.rhsIdx
  rw [dif_neg (show ¬(1 : Fin S32x1.rank) ∈ dot_S64x32_S32x1_S64x1_1_0_0_1_n_n.rhsBatch by decide), dif_pos (show (1 : Fin S32x1.rank) ∈ dot_S64x32_S32x1_S64x1_1_0_0_1_n_n.rhsNonContracting by decide)]
  rfl

/-- The product of a 64 × 32 matrix with a 32 × 1 column, into the zero splat, at (g, 0). -/
theorem dense2_apply (l : FVec Ideal S64x32 .bf16) (r : FVec Ideal S32x1 .bf16) (g : Fin 64) :
    matmul dot_S64x32_S32x1_S64x1_1_0_0_1_n_n none l r (constant S64x1 .f32 0x00000000#32) (ix2 g (0 : Fin 1))
      = ∑ j : Fin 32, l (ix2 g j) * r (ix2 j (0 : Fin 1)) := by
  simp only [matmul]
  rw [Ideal.matmul_constant_zero_apply, ← Equiv.sum_comp (ValueIdx.contrEquiv1 dot_S64x32_S32x1_S64x1_1_0_0_1_n_n 32 rfl rfl).symm]
  refine Finset.sum_congr rfl fun j _ => ?_
  have hj := ValueIdx.contrEquiv1_symm_val dot_S64x32_S32x1_S64x1_1_0_0_1_n_n 32 rfl rfl j
  have el : dot_S64x32_S32x1_S64x1_1_0_0_1_n_n.lhsIdx (ix2 g (0 : Fin 1)) ((ValueIdx.contrEquiv1 dot_S64x32_S32x1_S64x1_1_0_0_1_n_n 32 rfl rfl).symm j) = ix2 g j := funext fun a => Fin.ext (by
    match a with
    | ⟨0, _⟩ => exact dense2_lhs_0 _ _
    | ⟨1, _⟩ => exact (dense2_lhs_1 _ _).trans hj)
  have er : dot_S64x32_S32x1_S64x1_1_0_0_1_n_n.rhsIdx (ix2 g (0 : Fin 1)) ((ValueIdx.contrEquiv1 dot_S64x32_S32x1_S64x1_1_0_0_1_n_n 32 rfl rfl).symm j) = ix2 j (0 : Fin 1) := funext fun a => Fin.ext (by
    match a with
    | ⟨0, _⟩ => exact (dense2_rhs_0 _ _).trans hj
    | ⟨1, _⟩ => exact dense2_rhs_1 _ _)
  rw [el, er]

/-- A 64 × 1 column spread across 64 columns reads the column's row. -/
theorem spreadCol_apply {α : Type} (v : S64x1.Idx → α) (g k : Fin 64) :
    broadcastTo S64x64 v broadcasts_S64x1_S64x64 (ix2 g k) = v (ix2 g (0 : Fin 1)) :=
  broadcastTo_apply v broadcasts_S64x1_S64x64 (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])

/-- A 1 × 32 row spread down 64 rows reads the row's column. -/
theorem spreadRow_apply {α : Type} (v : S1x32.Idx → α) (g : Fin 64) (j : Fin 32) :
    broadcastTo S64x32 v broadcasts_S1x32_S64x32 (ix2 g j) = v (ix2 (0 : Fin 1) j) :=
  broadcastTo_apply v broadcasts_S1x32_S64x32 (ix2 g j) (ix2 (0 : Fin 1) j) (fun a => match a with
    | ⟨0, _⟩ => by show 0 = if (1 : Nat) = 1 then 0 else g.val; rw [if_pos rfl]
    | ⟨1, _⟩ => by show j.val = if (32 : Nat) = 1 then 0 else j.val; rw [if_neg (by decide)])

/-- A 1 × 1 value spread down 64 rows reads the value. -/
theorem spreadOne_apply {α : Type} (v : S1x1.Idx → α) (g : Fin 64) :
    broadcastTo S64x1 v broadcasts_S1x1_S64x1 (ix2 g (0 : Fin 1)) = v (ix2 (0 : Fin 1) (0 : Fin 1)) :=
  broadcastTo_apply v broadcasts_S1x1_S64x1 (ix2 g (0 : Fin 1)) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else 0; rw [if_pos rfl])

/-- THE HEAD'S RESULT at (g, 0): graph g's sums divided by max(count, 1), through the first dense layer with bias and
    the maximum with zero, then through the second dense layer with bias. -/
theorem pay6_apply (sums : Vec Ideal S64x64 .f32) (cnt : Vec Ideal S64x1 .f32) (wm1 : Vec Ideal S64x32 .f32)
    (bm1 : Vec Ideal S1x32 .f32) (wm2 : Vec Ideal S32x1 .f32) (bm2 : Vec Ideal S1x1 .f32) (g : Fin 64) :
    k4_pay6 (F := Ideal) sums cnt wm1 bm1 wm2 bm2 (ix2 g (0 : Fin 1))
      = (∑ j : Fin 32,
            max ((∑ k : Fin 64, Ideal.div (sums (ix2 g k)) (max (cnt (ix2 g (0 : Fin 1))) 1) * wm1 (ix2 k j))
                  + bm1 (ix2 (0 : Fin 1) j)) 0
              * wm2 (ix2 j (0 : Fin 1)))
          + bm2 (ix2 (0 : Fin 1) (0 : Fin 1)) := by
  unfold k4_pay6
  simp only [shapeCast_self]
  rw [addf_apply, dense2_apply, spreadOne_apply]
  refine congrArg (· + bm2 (ix2 (0 : Fin 1) (0 : Fin 1))) (Finset.sum_congr rfl fun j _ => ?_)
  rw [truncf_apply, truncf_apply, maximumf_apply, addf_apply, dense1_apply, spreadRow_apply, broadcast_apply]
  show max (_ + _) (Ideal.ofBits .f32 0x00000000#32) * _ = _
  rw [Ideal.ofBits_zero_f32]
  refine congrArg (fun s => max (s + bm1 (ix2 (0 : Fin 1) j)) 0 * wm2 (ix2 j (0 : Fin 1))) (Finset.sum_congr rfl fun k _ => ?_)
  rw [truncf_apply, truncf_apply, divf_apply, spreadCol_apply, maximumf_apply, broadcast_apply]
  show Ideal.div _ (max _ (Ideal.ofBits .f32 0x3F800000#32)) * _ = _
  rw [one_f32]

/-! ### Ten blocks of 10000 rows are the 100000 rows -/

/-- Row n of block t is a row of the whole array. -/
theorem rowOfBlock_lt (t : Fin 10) (n : Fin 10000) : 10000 * t.val + n.val < 100000 := by
  have := t.isLt; have := n.isLt; omega

/-- A sum over m consecutive blocks of b indices is the sum over all m · b indices. -/
theorem sum_blocks {M : Type} [AddCommMonoid M] (m b : Nat) (f : Fin (m * b) → M)
    (hlt : ∀ (t : Fin m) (n : Fin b), b * t.val + n.val < m * b) :
    ∑ t : Fin m, ∑ n : Fin b, f ⟨b * t.val + n.val, hlt t n⟩ = ∑ e : Fin (m * b), f e := by
  rw [← Equiv.sum_comp finProdFinEquiv f, Fintype.sum_prod_type]
  refine Finset.sum_congr rfl fun t _ => Finset.sum_congr rfl fun n _ => congrArg f (Fin.ext ?_)
  show b * t.val + n.val = n.val + b * t.val
  omega

/-- THE TEN BLOCKS JOINED: summing over the blocks t and the rows n of each block, at row 10000 · t + n of the whole, is
    summing over the 100000 rows. -/
theorem sum_tenBlocks (f : Fin 100000 → EReal) :
    ∑ t : Fin 10, ∑ n : Fin 10000, f ⟨10000 * t.val + n.val, rowOfBlock_lt t n⟩ = ∑ e : Fin 100000, f e :=
  sum_blocks 10 10000 f rowOfBlock_lt

/-- The same for a sum that keeps only the rows with a property: the form a scatter-add read at an index has. -/
theorem sum_tenBlocks_filter (p : Fin 100000 → Prop) [DecidablePred p] (u : Fin 100000 → EReal) :
    ∑ t : Fin 10, ∑ n : Fin 10000,
        (if p ⟨10000 * t.val + n.val, rowOfBlock_lt t n⟩ then u ⟨10000 * t.val + n.val, rowOfBlock_lt t n⟩ else 0)
      = ∑ e ∈ Finset.univ.filter p, u e := by
  rw [Finset.sum_filter]
  exact sum_tenBlocks fun e => if p e then u e else 0

end Cert.KernelIdeal.HandValue

end
-- ==== Proof.Val4K.lean ====
/-
  The kernel side of the pool and the head. After region 4 the result array holds, for graph g, the head applied to
  the mean of the features of g's nodes. The region walks the 100000 nodes in ten blocks of 10000 rows, adding each
  block's per-graph feature sums and node counts into two carried buffers that the first point resets, and at the
  last point divides, applies the two dense layers and stores the 64 × 1 result, which only that point writes back.
  Here: the one write-back is the array; the carried buffers after the last point are the sums and counts over all
  the nodes; so the array at g is the closed formula.
-/
import proofs.«413692_j83004537962758_2_alg».proof.Proof.Reg4
import proofs.«413692_j83004537962758_2_alg».proof.Proof.PoolSpec
import proofs.«413692_j83004537962758_2_alg».proof.Proof.Pool4Math
import proofs.«413692_j83004537962758_2_alg».proof.ReferenceIdeal
import proofs.«413692_j83004537962758_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

/-! ## The windows over the grid -/

/-- The index maps over the grid: block t of the features and of the ids is the t-th block of 10000 rows; every
    other window's block is its whole array at every point. -/
theorem pool_blocks : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-! ## The carried buffers after the last point -/

/-- Block s's share of a sum over the nodes that satisfy p: rows 10000 · s … 10000 · s + 9999. -/
def blockShare (p : Fin 100000 → Prop) [DecidablePred p] (u : Fin 100000 → EReal) (s : Fin 10) : EReal :=
  ∑ r : Fin 10000, (if p ⟨10000 * s.val + r.val, rowOfBlock_lt s r⟩ then u ⟨10000 * s.val + r.val, rowOfBlock_lt s r⟩ else 0)

/-- A quantity carried over the ten points that starts at block 0's share and gains block n + 1's share at point
    n + 1 is, after the last point, the whole sum over the nodes that satisfy p. -/
theorem total_of_shares (p : Fin 100000 → Prop) [DecidablePred p] (u : Fin 100000 → EReal)
    (a : (n : ℕ) → n < 10 → EReal)
    (h0 : ∀ h, a 0 h = blockShare p u ⟨0, h⟩)
    (hs : ∀ n (h : n + 1 < 10), a (n + 1) h = a n (Nat.lt_of_succ_lt h) + blockShare p u ⟨n + 1, h⟩) :
    a 9 (by decide) = ∑ e ∈ Finset.univ.filter p, u e := by
  have hfold : ∀ n (h : n < 10), a n h = ∑ t ∈ Finset.range (n + 1), (if ht : t < 10 then blockShare p u ⟨t, ht⟩ else 0) := by
    intro n
    induction n with
    | zero => intro h; rw [h0, Finset.sum_range_one, dif_pos h]
    | succ n ih => intro h; rw [hs, ih, Finset.sum_range_succ _ (n + 1), dif_pos h]
  rw [hfold 9 (by decide), Finset.sum_range, ← sum_tenBlocks_filter p u]
  refine Finset.sum_congr rfl fun t _ => ?_
  rw [dif_pos t.isLt]
  rfl

section
variable (V : (c : Dev nD) → (b : Ref sig .tc) → Buf (Elt Ideal) ((c : Thread nD τ).loc b))

/-! ## Each block read off its array -/

/-- The head's four operands are handed over whole at every point. -/
theorem head_weights1_block (c : Dev nD) (t : Fin cfg4.N) : iblk4 (F := Ideal) V c 2 t = V c main_arg8 := by
  obtain ⟨-, -, -, -, e0, e1, -⟩ := pool_blocks t
  funext y
  show V c main_arg8 (((cfg4.win 2).blk t).view.emb y) = V c main_arg8 y
  refine congrArg (V c main_arg8) (funext fun a => Fin.ext ?_)
  match a with
  | ⟨0, _⟩ => show win4_2.index t (0 : Fin 2) * 64 + 1 * (y 0).val = (y 0).val; omega
  | ⟨1, _⟩ => show win4_2.index t (1 : Fin 2) * 32 + 1 * (y 1).val = (y 1).val; omega

theorem head_bias1_block (c : Dev nD) (t : Fin cfg4.N) : iblk4 (F := Ideal) V c 3 t = V c main_v53 := by
  obtain ⟨-, -, -, -, -, -, e0, e1, -⟩ := pool_blocks t
  funext y
  show V c main_v53 (((cfg4.win 3).blk t).view.emb y) = V c main_v53 y
  refine congrArg (V c main_v53) (funext fun a => Fin.ext ?_)
  match a with
  | ⟨0, _⟩ => show win4_3.index t (0 : Fin 2) * 1 + 1 * (y 0).val = (y 0).val; omega
  | ⟨1, _⟩ => show win4_3.index t (1 : Fin 2) * 32 + 1 * (y 1).val = (y 1).val; omega

theorem head_weights2_block (c : Dev nD) (t : Fin cfg4.N) : iblk4 (F := Ideal) V c 4 t = V c main_arg10 := by
  obtain ⟨-, -, -, -, -, -, -, -, e0, e1, -⟩ := pool_blocks t
  funext y
  show V c main_arg10 (((cfg4.win 4).blk t).view.emb y) = V c main_arg10 y
  refine congrArg (V c main_arg10) (funext fun a => Fin.ext ?_)
  match a with
  | ⟨0, _⟩ => show win4_4.index t (0 : Fin 2) * 32 + 1 * (y 0).val = (y 0).val; omega
  | ⟨1, _⟩ => show win4_4.index t (1 : Fin 2) * 1 + 1 * (y 1).val = (y 1).val; omega

theorem head_bias2_block (c : Dev nD) (t : Fin cfg4.N) : iblk4 (F := Ideal) V c 5 t = V c main_v54 := by
  obtain ⟨-, -, -, -, -, -, -, -, -, -, e0, e1, -⟩ := pool_blocks t
  funext y
  show V c main_v54 (((cfg4.win 5).blk t).view.emb y) = V c main_v54 y
  refine congrArg (V c main_v54) (funext fun a => Fin.ext ?_)
  match a with
  | ⟨0, _⟩ => show win4_5.index t (0 : Fin 2) * 1 + 1 * (y 0).val = (y 0).val; omega
  | ⟨1, _⟩ => show win4_5.index t (1 : Fin 2) * 1 + 1 * (y 1).val = (y 1).val; omega

/-- The region's two big arrays at their literal types: the node features after the second layer, and the graph ids
    as a column. -/
abbrev feats (c : Dev nD) : FVec Ideal S100000x64 .f32 := V c main_v51
abbrev gids (c : Dev nD) : IVec S100000x1 32 := V c main_v52
/-- Their blocks at point t, at their literal types. -/
abbrev featBlk (c : Dev nD) (t : Fin cfg4.N) : Vec Ideal S10000x64 .f32 := iblk4 (F := Ideal) V c 0 t
abbrev gidBlk (c : Dev nD) (t : Fin cfg4.N) : Vec Ideal S10000x1 .i32 := iblk4 (F := Ideal) V c 1 t

/-- Row r of the feature block at point t is row 10000 · t + r of the feature array (s is t as a block number). -/
theorem feature_block (c : Dev nD) (t : Fin cfg4.N) (s : Fin 10) (hs : s.val = t.val) (r : Fin 10000) (k : Fin 64) :
    featBlk V c t (ix2 r k) = feats V c (ix2 (⟨10000 * s.val + r.val, rowOfBlock_lt s r⟩ : Fin 100000) k) := by
  obtain ⟨e0, e1, -⟩ := pool_blocks t
  show V c main_v51 (((cfg4.win 0).blk t).view.emb (ix2 r k)) = _
  refine congrArg (V c main_v51) (funext fun a => Fin.ext ?_)
  match a with
  | ⟨0, _⟩ => show win4_0.index t (0 : Fin 2) * 10000 + 1 * r.val = 10000 * s.val + r.val; omega
  | ⟨1, _⟩ => show win4_0.index t (1 : Fin 2) * 64 + 1 * k.val = k.val; omega

/-- Row r of the id block at point t is row 10000 · t + r of the id column. -/
theorem id_block (c : Dev nD) (t : Fin cfg4.N) (s : Fin 10) (hs : s.val = t.val) (r : Fin 10000) :
    gidBlk V c t (ix2 r (0 : Fin 1)) = gids V c (ix2 (⟨10000 * s.val + r.val, rowOfBlock_lt s r⟩ : Fin 100000) (0 : Fin 1)) := by
  obtain ⟨-, -, e2, e3, -⟩ := pool_blocks t
  show V c main_v52 (((cfg4.win 1).blk t).view.emb (ix2 r (0 : Fin 1))) = _
  refine congrArg (V c main_v52) (funext fun a => Fin.ext ?_)
  match a with
  | ⟨0, _⟩ => show win4_1.index t (0 : Fin 2) * 10000 + 1 * r.val = 10000 * s.val + r.val; omega
  | ⟨1, _⟩ => show win4_1.index t (1 : Fin 2) * 1 + 1 * 0 = 0; omega

/-- Node e belongs to graph g. -/
abbrev inGraph (c : Dev nD) (g : Fin 64) (e : Fin 100000) : Prop :=
  (gids V c (ix2 e (0 : Fin 1))).toInt = (g.val : ℤ)

/-- One point's addition to the per-graph feature sums, on the arrays: block t's share. -/
theorem sums_step (c : Dev nD) (t : Fin cfg4.N) (s : Fin 10) (hs : s.val = t.val) (acc : Vec Ideal S64x64 .f32) (g k : Fin 64) :
    k4_pay4 (F := Ideal) (featBlk V c t) (gidBlk V c t) acc (ix2 g k)
      = acc (ix2 g k) + blockShare (inGraph V c g) (fun e => feats V c (ix2 e k)) s := by
  refine (pay4_apply (featBlk V c t) (gidBlk V c t) acc g k).trans (congrArg (acc (ix2 g k) + ·) (Finset.sum_congr rfl fun r _ => ?_))
  rw [id_block V c t s hs r, feature_block V c t s hs r k]

/-- One point's addition to the per-graph node counts. -/
theorem counts_step (c : Dev nD) (t : Fin cfg4.N) (s : Fin 10) (hs : s.val = t.val) (cnt : Vec Ideal S64x1 .f32) (g : Fin 64) :
    k4_pay5 (F := Ideal) (gidBlk V c t) cnt (ix2 g (0 : Fin 1))
      = cnt (ix2 g (0 : Fin 1)) + blockShare (inGraph V c g) (fun _ => (1 : EReal)) s := by
  refine (pay5_apply (gidBlk V c t) cnt g).trans (congrArg (cnt (ix2 g (0 : Fin 1)) + ·) (Finset.sum_congr rfl fun r _ => ?_))
  rw [id_block V c t s hs r]

/-- The carried buffers after point n, at their literal types. -/
abbrev sumsAfter (c : Dev nD) (n : ℕ) (h : n < 10) : Vec Ideal S64x64 .f32 :=
  (accAt4 (F := Ideal) V c n (lt_of_lt_of_eq h N4_eq.symm)).1
abbrev countsAfter (c : Dev nD) (n : ℕ) (h : n < 10) : Vec Ideal S64x1 .f32 :=
  (accAt4 (F := Ideal) V c n (lt_of_lt_of_eq h N4_eq.symm)).2

theorem sumsAfter_zero (c : Dev nD) (h : 0 < 10) :
    sumsAfter V c 0 h = k4_pay4 (F := Ideal) (featBlk V c ⟨0, lt_of_lt_of_eq h N4_eq.symm⟩) (gidBlk V c ⟨0, lt_of_lt_of_eq h N4_eq.symm⟩) (k4_pay1 (F := Ideal)) := rfl
theorem sumsAfter_succ (c : Dev nD) (n : ℕ) (h : n + 1 < 10) :
    sumsAfter V c (n + 1) h = k4_pay4 (F := Ideal) (featBlk V c ⟨n + 1, lt_of_lt_of_eq h N4_eq.symm⟩) (gidBlk V c ⟨n + 1, lt_of_lt_of_eq h N4_eq.symm⟩) (sumsAfter V c n (Nat.lt_of_succ_lt h)) := rfl
theorem countsAfter_zero (c : Dev nD) (h : 0 < 10) :
    countsAfter V c 0 h = k4_pay5 (F := Ideal) (gidBlk V c ⟨0, lt_of_lt_of_eq h N4_eq.symm⟩) (k4_pay2 (F := Ideal)) := rfl
theorem countsAfter_succ (c : Dev nD) (n : ℕ) (h : n + 1 < 10) :
    countsAfter V c (n + 1) h = k4_pay5 (F := Ideal) (gidBlk V c ⟨n + 1, lt_of_lt_of_eq h N4_eq.symm⟩) (countsAfter V c n (Nat.lt_of_succ_lt h)) := rfl

/-- After the last point the first carried buffer holds, at (g, k), feature k summed over the nodes of graph g. -/
theorem sums_total (c : Dev nD) (g k : Fin 64) :
    sumsAfter V c 9 (by decide) (ix2 g k) = ∑ e ∈ Finset.univ.filter (inGraph V c g), feats V c (ix2 e k) := by
  refine total_of_shares (inGraph V c g) (fun e => feats V c (ix2 e k)) (fun n h => sumsAfter V c n h (ix2 g k)) ?_ ?_
  · intro h
    show sumsAfter V c 0 h (ix2 g k) = _
    rw [sumsAfter_zero]
    refine (sums_step V c ⟨0, lt_of_lt_of_eq h N4_eq.symm⟩ ⟨0, h⟩ rfl _ g k).trans ?_
    rw [pay1_apply, zero_add]
  · intro n h
    show sumsAfter V c (n + 1) h (ix2 g k) = _
    rw [sumsAfter_succ]
    exact sums_step V c ⟨n + 1, lt_of_lt_of_eq h N4_eq.symm⟩ ⟨n + 1, h⟩ rfl _ g k

/-- And the second, at g, the number of nodes of graph g. -/
theorem counts_total (c : Dev nD) (g : Fin 64) :
    countsAfter V c 9 (by decide) (ix2 g (0 : Fin 1)) = ∑ e ∈ Finset.univ.filter (inGraph V c g), (1 : EReal) := by
  refine total_of_shares (inGraph V c g) (fun _ => (1 : EReal)) (fun n h => countsAfter V c n h (ix2 g (0 : Fin 1))) ?_ ?_
  · intro h
    show countsAfter V c 0 h (ix2 g (0 : Fin 1)) = _
    rw [countsAfter_zero]
    refine (counts_step V c ⟨0, lt_of_lt_of_eq h N4_eq.symm⟩ ⟨0, h⟩ rfl _ g).trans ?_
    rw [pay2_apply, zero_add]
  · intro n h
    show countsAfter V c (n + 1) h (ix2 g (0 : Fin 1)) = _
    rw [countsAfter_succ]
    exact counts_step V c ⟨n + 1, lt_of_lt_of_eq h N4_eq.symm⟩ ⟨n + 1, h⟩ rfl _ g

/-- The nodes of graph g are those that satisfy the membership test. -/
theorem nodesOf_eq (c : Dev nD) (g : Fin 64) : nodesOf (gids V c) g = Finset.univ.filter (inGraph V c g) := by
  unfold nodesOf; rfl

/-! ## The one write-back is the array -/

/-- The head of the carried buffers after the last point, on the four operands as the region finds them. -/
def headOfTotals (c : Dev nD) : FVec Ideal S64x1 .f32 :=
  k4_pay6 (F := Ideal) (sumsAfter V c 9 (by decide)) (countsAfter V c 9 (by decide))
    (V c main_arg8) (V c main_v53) (V c main_arg10) (V c main_v54)

/-- The result window is uncut and its one block is the whole array: what a point leaves in the buffer is what it
    writes back, read through the block as through the array. -/
theorem whole_result_block (t : Fin cfg4.N) (G : S64x1.Idx → Elt Ideal .f32) :
    (cfg4.win 6).cut (grid4.coords t) G = ((cfg4.win 6).blk t).view.read (Elt Ideal) G := by
  obtain ⟨-, -, -, -, -, -, -, -, -, -, -, -, e0, e1⟩ := pool_blocks t
  funext y
  show G y = G (((cfg4.win 6).blk t).view.emb y)
  refine congrArg G (funext fun a => Fin.ext ?_)
  match a with
  | ⟨0, _⟩ => show (y 0).val = win4_6.index t (0 : Fin 2) * 64 + 1 * (y 0).val; omega
  | ⟨1, _⟩ => show (y 1).val = win4_6.index t (1 : Fin 2) * 1 + 1 * (y 1).val; omega

/-- What the last point leaves in the result buffer. -/
theorem left_by_last (c : Dev nD) (t : Fin cfg4.N) (ht : t.val = 9) :
    (dat4 (F := Ideal) V c).after 6 t = headOfTotals V c := by
  rw [after4_6_last V c t ht, head_weights1_block, head_bias1_block, head_weights2_block, head_bias2_block]
  rfl

/-- A point that writes the result back is the last one, and what it writes is the whole of that head. -/
theorem written_back_last (c : Dev nD) (t : Fin cfg4.N) (hf : (cfg4.win 6).flush t = true) :
    (dat4 (F := Ideal) V c).flushed 6 t = ((cfg4.win 6).blk t).view.read (Elt Ideal) (headOfTotals V c) := by
  have ht : t.val = 9 := by
    have h9 := (flush4_6 t).mp hf
    have hN : t.val < 10 := lt_of_lt_of_eq t.isLt N4_eq
    omega
  show (cfg4.win 6).cut (grid4.coords t) ((dat4 V c).after 6 t) = _
  rw [left_by_last V c t ht]
  exact whole_result_block t _

/-- Every entry of the result is in the last point's block. -/
theorem result_covered (i : S64x1.Idx) :
    ∃ t : Fin cfg4.N, (cfg4.win 6).flush t = true ∧ i ∈ ((cfg4.win 6).blk t).view.set := by
  have hi0 : (i 0).val < 64 := (i 0).isLt
  have hi1 : (i 1).val < 1 := (i 1).isLt
  have hlt : 9 < grid4.N := by rw [show grid4.N = 10 from N_4]; decide
  obtain ⟨-, -, -, -, -, -, -, -, -, -, -, -, e0, e1⟩ := pool_blocks ⟨9, hlt⟩
  refine ⟨⟨9, hlt⟩, (flush4_6 _).mpr rfl, ?_⟩
  show i ∈ ((View.whole main_v55).slice (win4_6.rect ⟨9, hlt⟩)).set
  rw [View.set_slice_whole, Rect.mem_set_unit]
  intro a
  match a with
  | ⟨0, _⟩ => show win4_6.index ⟨9, hlt⟩ (0 : Fin 2) * 64 ≤ (i 0).val ∧ (i 0).val < win4_6.index ⟨9, hlt⟩ (0 : Fin 2) * 64 + 64; omega
  | ⟨1, _⟩ => show win4_6.index ⟨9, hlt⟩ (1 : Fin 2) * 1 ≤ (i 1).val ∧ (i 1).val < win4_6.index ⟨9, hlt⟩ (1 : Fin 2) * 1 + 1; omega

/-- After the region the result array is the head of the carried buffers after the last point. -/
theorem result_eq_head (c : Dev nD) : (dat4 (F := Ideal) V c).arrAt 6 cfg4.N = headOfTotals V c :=
  (dat4 (F := Ideal) V c).arrAt_eq_of_cover 6 (headOfTotals V c) (fun t hf => written_back_last V c t hf) result_covered

/-! ## The result at a graph -/

/-- After the region the result array holds, at graph g, the closed formula of the pool and the head. -/
theorem val4_at (c : Dev nD) (g : Fin 64) :
    (dat4 (F := Ideal) V c).arrAt 6 cfg4.N (ix2 g (0 : Fin 1))
      = headAt (V c main_v51) (V c main_v52) (V c main_arg8) (V c main_v53) (V c main_arg10) (V c main_v54) g := by
  rw [result_eq_head]
  unfold headOfTotals
  refine (pay6_apply _ _ _ _ _ _ g).trans ?_
  simp only [sums_total V c g, counts_total V c g, ← nodesOf_eq V c g]
  unfold headAt
  rfl

end

end Cert.KernelIdeal.HandValue

end
-- ==== Proof.Val4R.lean ====
/-
  The mean pool over graphs and the two-layer head, as the reference composes them from host operations, read at a
  graph g: the reference's result at (g, 0) is the closed formula headAt — the feature sums over the nodes of g
  divided by the larger of g's node count and one, through the first layer, the maximum with zero, and the second
  layer. Each host operation is read at an index, outermost first.
-/
import proofs.«413692_j83004537962758_2_alg».proof.Proof.PoolSpec
import proofs.«413692_j83004537962758_2_alg».proof.Proof.LibRowOps
import Idealize.ShloMosaic.Lib.Pipeline.Value
import Idealize.ShloMosaic.PureOps.Ideal.Laws

set_option maxRecDepth 16384

noncomputable section

namespace Cert.KernelIdeal.HandValue

open Cert.ReferenceIdeal Cert.ReferenceIdeal.Gen Idealize.ShloMosaic Idealize.ShloMosaic.ValueIdx

/-! ## The two constant words -/

/-- The word 0x3F800000 is the number one. -/
theorem word_one : Ideal.ofBits .f32 0x3F800000#32 = 1 := by
  simp [Ideal.ofBits, Ideal.ieee, -EReal.coe_mul]; norm_num

/-- A scalar spread over any shape reads the scalar everywhere. -/
theorem spread_scalar_apply {t : Shape} (hb : S_.BroadcastsInDim t (![] : Fin 0 → Fin t.rank))
    (x : FVec Ideal S_ .f32) (i : t.Idx) :
    broadcastInDim t ![] hb x i = x ix0 :=
  broadcastInDim_apply _ hb x i ix0 (fun a => a.elim0)

/-- The zero word spread over a shape is zero everywhere. -/
theorem spread_zero_apply {t : Shape} (hb : S_.BroadcastsInDim t (![] : Fin 0 → Fin t.rank)) (i : t.Idx) :
    broadcastInDim t ![] hb (constant (F := Ideal) S_ .f32 0x00000000#32) i = 0 :=
  (spread_scalar_apply hb _ i).trans Ideal.ofBits_zero_f32

/-- The word of one spread over a shape is one everywhere. -/
theorem spread_one_apply {t : Shape} (hb : S_.BroadcastsInDim t (![] : Fin 0 → Fin t.rank)) (i : t.Idx) :
    broadcastInDim t ![] hb (constant (F := Ideal) S_ .f32 0x3F800000#32) i = 1 :=
  (spread_scalar_apply hb _ i).trans word_one

/-! ## The two scatter-adds: per graph, the feature sums and the node count -/

/-- The reference's row scatter is the row scatter of 100000 update rows into 64 rows of 64 columns. -/
theorem sumScatter_eq : scatter_S64x64_S100000x1_S100000x64_1_0_0_1
    = RowOps.rowScatter 64 100000 64 scatter_S64x64_S100000x1_S100000x64_1_0_0_1_wf := rfl

/-- The reference's vector scatter is the scatter of 100000 scalars into 64 places. -/
theorem countScatter_eq : scatter_S64_S100000x1_S100000_n_0_0_1
    = RowOps.vecScatter 64 100000 scatter_S64_S100000x1_S100000_n_0_0_1_wf := rfl

/-- The accumulating scatter of the node features by graph id, at (g, k): the operand's element plus column k of the
    features summed over the nodes of g. -/
theorem featureSums_apply (x : FVec Ideal S64x64 .f32) (ids : IVec S100000x1 32) (h : FVec Ideal S100000x64 .f32)
    (g k : Fin 64) :
    Host.scatterAdd scatter_S64x64_S100000x1_S100000x64_1_0_0_1 x ids h (ix2 g k)
      = x (ix2 g k) + ∑ e ∈ nodesOf ids g, h (ix2 e k) := by
  show Ideal.hostScatterAdd scatter_S64x64_S100000x1_S100000x64_1_0_0_1 x ids h (ix2 g k) = _
  rw [sumScatter_eq]
  exact RowOps.rowScatterAdd_apply scatter_S64x64_S100000x1_S100000x64_1_0_0_1_wf x ids h g k

/-- The accumulating scatter of one scalar per node by graph id, at g: the operand's element plus the scalars summed
    over the nodes of g. -/
theorem nodeCount_apply (x : FVec Ideal S64 .f32) (ids : IVec S100000x1 32) (u : FVec Ideal S100000 .f32) (g : Fin 64) :
    Host.scatterAdd scatter_S64_S100000x1_S100000_n_0_0_1 x ids u (ix1 g)
      = x (ix1 g) + ∑ e ∈ nodesOf ids g, u (ix1 e) := by
  show Ideal.hostScatterAdd scatter_S64_S100000x1_S100000_n_0_0_1 x ids u (ix1 g) = _
  rw [countScatter_eq]
  exact RowOps.vecScatterAdd_apply scatter_S64_S100000x1_S100000_n_0_0_1_wf x ids u g

/-! ## The column of counts spread across the 64 feature columns -/

/-- A vector of 64 made a column reads the vector at the row. -/
theorem asColumn_apply (y : FVec Ideal S64 .f32) (g : Fin 64) (c : Fin 1) :
    broadcastInDim S64x1 ![0] bcast_S64_S64x1_0 y (ix2 g c) = y (ix1 g) :=
  broadcastInDim_apply _ bcast_S64_S64x1_0 y (ix2 g c) (ix1 g) (fun a => match a with
    | ⟨0, _⟩ => by show g.val = if (64 : Nat) = 1 then 0 else g.val; rw [if_neg (by decide)])

/-- A column of 64 spread across 64 columns reads the column at the row. -/
theorem acrossColumns_apply (y : FVec Ideal S64x1 .f32) (g k : Fin 64) :
    broadcastInDim S64x64 ![0, 1] bcast_S64x1_S64x64_0_1 y (ix2 g k) = y (ix2 g (0 : Fin 1)) :=
  broadcastInDim_apply _ bcast_S64x1_S64x64_0_1 y (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])

/-- The first layer's bias row spread down the 64 graphs reads the row at the column. -/
theorem bias1Rows_apply (y : FVec Ideal S1x32 .f32) (g : Fin 64) (j : Fin 32) :
    broadcastInDim S64x32 ![0, 1] bcast_S1x32_S64x32_0_1 y (ix2 g j) = y (ix2 (0 : Fin 1) j) :=
  broadcastInDim_apply _ bcast_S1x32_S64x32_0_1 y (ix2 g j) (ix2 (0 : Fin 1) j) (fun a => match a with
    | ⟨0, _⟩ => by show 0 = if (1 : Nat) = 1 then 0 else g.val; rw [if_pos rfl]
    | ⟨1, _⟩ => by show j.val = if (32 : Nat) = 1 then 0 else j.val; rw [if_neg (by decide)])

/-- The second layer's one bias spread down the 64 graphs reads it everywhere. -/
theorem bias2Rows_apply (y : FVec Ideal S1x1 .f32) (g : Fin 64) (c : Fin 1) :
    broadcastInDim S64x1 ![0, 1] bcast_S1x1_S64x1_0_1 y (ix2 g c) = y (ix2 (0 : Fin 1) (0 : Fin 1)) :=
  broadcastInDim_apply _ bcast_S1x1_S64x1_0_1 y (ix2 g c) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else c.val; rw [if_pos rfl])

/-- The host's division at an index is the extended reals' division of the elements. -/
theorem hostDivf_apply {s : Shape} (a b : FVec Ideal s .f32) (i : s.Idx) :
    Host.divf a b i = Ideal.div (a i) (b i) := rfl

/-! ## The two layers: each a product contracting one axis -/

theorem layer1_lhs_0 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
theorem layer1_lhs_1 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
theorem layer1_rhs_0 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
theorem layer1_rhs_1 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- The first layer's product at (g, j): the pooled row of g against column j of the weights, over the 64 features. -/
theorem layer1_apply (p : FVec Ideal S64x64 .f32) (w : FVec Ideal S64x32 .f32) (g : Fin 64) (j : Fin 32) :
    Host.dotGeneral dot_S64x64_S64x32_S64x32_1_0_0_1_n_n none p w (ix2 g j) = ∑ k : Fin 64, p (ix2 g k) * w (ix2 k j) := by
  simp only [Host.dotGeneral]
  rw [Ideal.dotGeneral_apply, ← Equiv.sum_comp (ValueIdx.contrEquiv1 dot_S64x64_S64x32_S64x32_1_0_0_1_n_n 64 rfl rfl).symm]
  refine Finset.sum_congr rfl fun k _ => ?_
  have hk := ValueIdx.contrEquiv1_symm_val dot_S64x64_S64x32_S64x32_1_0_0_1_n_n 64 rfl rfl k
  have el : dot_S64x64_S64x32_S64x32_1_0_0_1_n_n.lhsIdx (ix2 g j) ((ValueIdx.contrEquiv1 dot_S64x64_S64x32_S64x32_1_0_0_1_n_n 64 rfl rfl).symm k) = ix2 g k := funext fun a => Fin.ext (by
    match a with
    | ⟨0, _⟩ => exact layer1_lhs_0 _ _
    | ⟨1, _⟩ => exact (layer1_lhs_1 _ _).trans hk)
  have er : dot_S64x64_S64x32_S64x32_1_0_0_1_n_n.rhsIdx (ix2 g j) ((ValueIdx.contrEquiv1 dot_S64x64_S64x32_S64x32_1_0_0_1_n_n 64 rfl rfl).symm k) = ix2 k j := funext fun a => Fin.ext (by
    match a with
    | ⟨0, _⟩ => exact (layer1_rhs_0 _ _).trans hk
    | ⟨1, _⟩ => exact layer1_rhs_1 _ _)
  rw [el, er]

theorem layer2_lhs_0 (i : S64x1.Idx) (q : dot_S64x32_S32x1_S64x1_1_0_0_1_n_n.contr.Idx) :
    (dot_S64x32_S32x1_S64x1_1_0_0_1_n_n.lhsIdx i q 0).val = (i 0).val := by
  unfold DotDims.lhsIdx
  rw [dif_neg (show ¬(0 : Fin S64x32.rank) ∈ dot_S64x32_S32x1_S64x1_1_0_0_1_n_n.lhsBatch by decide), dif_pos (show (0 : Fin S64x32.rank) ∈ dot_S64x32_S32x1_S64x1_1_0_0_1_n_n.lhsNonContracting by decide)]
  rfl
theorem layer2_lhs_1 (i : S64x1.Idx) (q : dot_S64x32_S32x1_S64x1_1_0_0_1_n_n.contr.Idx) :
    (dot_S64x32_S32x1_S64x1_1_0_0_1_n_n.lhsIdx i q 1).val = (q ⟨0, by decide⟩).val :=
  dot_S64x32_S32x1_S64x1_1_0_0_1_n_n.lhsIdx_val_of_single rfl i q
theorem layer2_rhs_0 (i : S64x1.Idx) (q : dot_S64x32_S32x1_S64x1_1_0_0_1_n_n.contr.Idx) :
    (dot_S64x32_S32x1_S64x1_1_0_0_1_n_n.rhsIdx i q 0).val = (q ⟨0, by decide⟩).val :=
  dot_S64x32_S32x1_S64x1_1_0_0_1_n_n.rhsIdx_val_of_single rfl i q
theorem layer2_rhs_1 (i : S64x1.Idx) (q : dot_S64x32_S32x1_S64x1_1_0_0_1_n_n.contr.Idx) :
    (dot_S64x32_S32x1_S64x1_1_0_0_1_n_n.rhsIdx i q 1).val = (i 1).val := by
  unfold DotDims.rhsIdx
  rw [dif_neg (show ¬(1 : Fin S32x1.rank) ∈ dot_S64x32_S32x1_S64x1_1_0_0_1_n_n.rhsBatch by decide), dif_pos (show (1 : Fin S32x1.rank) ∈ dot_S64x32_S32x1_S64x1_1_0_0_1_n_n.rhsNonContracting by decide)]
  rfl

/-- The second layer's product at (g, 0): the hidden row of g against the one column of weights, over the 32 hidden units. -/
theorem layer2_apply (p : FVec Ideal S64x32 .f32) (w : FVec Ideal S32x1 .f32) (g : Fin 64) (c : Fin 1) :
    Host.dotGeneral dot_S64x32_S32x1_S64x1_1_0_0_1_n_n none p w (ix2 g c) = ∑ j : Fin 32, p (ix2 g j) * w (ix2 j c) := by
  simp only [Host.dotGeneral]
  rw [Ideal.dotGeneral_apply, ← Equiv.sum_comp (ValueIdx.contrEquiv1 dot_S64x32_S32x1_S64x1_1_0_0_1_n_n 32 rfl rfl).symm]
  refine Finset.sum_congr rfl fun k _ => ?_
  have hk := ValueIdx.contrEquiv1_symm_val dot_S64x32_S32x1_S64x1_1_0_0_1_n_n 32 rfl rfl k
  have el : dot_S64x32_S32x1_S64x1_1_0_0_1_n_n.lhsIdx (ix2 g c) ((ValueIdx.contrEquiv1 dot_S64x32_S32x1_S64x1_1_0_0_1_n_n 32 rfl rfl).symm k) = ix2 g k := funext fun a => Fin.ext (by
    match a with
    | ⟨0, _⟩ => exact layer2_lhs_0 _ _
    | ⟨1, _⟩ => exact (layer2_lhs_1 _ _).trans hk)
  have er : dot_S64x32_S32x1_S64x1_1_0_0_1_n_n.rhsIdx (ix2 g c) ((ValueIdx.contrEquiv1 dot_S64x32_S32x1_S64x1_1_0_0_1_n_n 32 rfl rfl).symm k) = ix2 k c := funext fun a => Fin.ext (by
    match a with
    | ⟨0, _⟩ => exact (layer2_rhs_0 _ _).trans hk
    | ⟨1, _⟩ => exact layer2_rhs_1 _ _)
  rw [el, er]

/-! ## The stages of the pool and head at an index -/

/-- The mean pool at (g, k): the sum of feature k over the nodes of g divided by the larger of g's node count and one. -/
theorem pooled_apply (h : FVec Ideal S100000x64 .f32) (ids : IVec S100000x1 32) (g k : Fin 64) :
    Host.divf (Host.scatterAdd scatter_S64x64_S100000x1_S100000x64_1_0_0_1
        (broadcastInDim S64x64 ![] bcast_S_S64x64 (constant (F := Ideal) S_ .f32 0x00000000#32)) ids h)
      (broadcastInDim S64x64 ![0, 1] bcast_S64x1_S64x64_0_1 (broadcastInDim S64x1 ![0] bcast_S64_S64x1_0
        (maximumf (Host.scatterAdd scatter_S64_S100000x1_S100000_n_0_0_1
            (broadcastInDim S64 ![] bcast_S_S64 (constant (F := Ideal) S_ .f32 0x00000000#32)) ids
            (broadcastInDim S100000 ![] bcast_S_S100000 (constant (F := Ideal) S_ .f32 0x3F800000#32)))
          (broadcastInDim S64 ![] bcast_S_S64 (constant (F := Ideal) S_ .f32 0x3F800000#32))))) (ix2 g k)
      = Ideal.div (∑ e ∈ nodesOf ids g, h (ix2 e k)) (max (∑ e ∈ nodesOf ids g, (1 : EReal)) 1) := by
  rw [hostDivf_apply, featureSums_apply, spread_zero_apply, zero_add, acrossColumns_apply, asColumn_apply,
    maximumf_apply, nodeCount_apply, spread_zero_apply, zero_add, spread_one_apply]
  refine congrArg (fun z => Ideal.div (∑ e ∈ nodesOf ids g, h (ix2 e k)) (max z 1)) ?_
  exact Finset.sum_congr rfl fun e _ => spread_one_apply _ _

/-- The hidden layer at (g, j), over any pooled array p: the pooled row of g through the first layer's weights, plus
    the bias, with the maximum with zero. -/
theorem hidden_apply (p : FVec Ideal S64x64 .f32) (wm1 : FVec Ideal S64x32 .f32) (bm1r : FVec Ideal S1x32 .f32)
    (g : Fin 64) (j : Fin 32) :
    maximumf (addf (Host.dotGeneral dot_S64x64_S64x32_S64x32_1_0_0_1_n_n none p wm1)
        (broadcastInDim S64x32 ![0, 1] bcast_S1x32_S64x32_0_1 bm1r))
      (broadcastInDim S64x32 ![] bcast_S_S64x32 (constant (F := Ideal) S_ .f32 0x00000000#32)) (ix2 g j)
      = max ((∑ k : Fin 64, p (ix2 g k) * wm1 (ix2 k j)) + bm1r (ix2 (0 : Fin 1) j)) 0 := by
  rw [maximumf_apply, addf_apply, layer1_apply, bias1Rows_apply, spread_zero_apply]

/-- The output layer at (g, 0), over any hidden array q: the hidden row of g through the second layer's weights, plus
    the bias. -/
theorem output_apply (q : FVec Ideal S64x32 .f32) (wm2 : FVec Ideal S32x1 .f32) (bm2r : FVec Ideal S1x1 .f32)
    (g : Fin 64) :
    addf (Host.dotGeneral dot_S64x32_S32x1_S64x1_1_0_0_1_n_n none q wm2)
        (broadcastInDim S64x1 ![0, 1] bcast_S1x1_S64x1_0_1 bm2r) (ix2 g (0 : Fin 1))
      = (∑ j : Fin 32, q (ix2 g j) * wm2 (ix2 j (0 : Fin 1))) + bm2r (ix2 (0 : Fin 1) (0 : Fin 1)) := by
  rw [addf_apply, layer2_apply, bias2Rows_apply]

/-! ## The reference's pool and head at a graph -/

/-- The reference's result for graph g is the closed formula. -/
theorem poolHead_at (h : FVec Ideal S100000x64 .f32) (ids : IVec S100000x1 32) (wm1 : FVec Ideal S64x32 .f32)
    (bm1r : FVec Ideal S1x32 .f32) (wm2 : FVec Ideal S32x1 .f32) (bm2r : FVec Ideal S1x1 .f32) (g : Fin 64) :
    poolHead h ids wm1 bm1r wm2 bm2r (ix2 g (0 : Fin 1)) = headAt h ids wm1 bm1r wm2 bm2r g := by
  unfold poolHead headAt
  rw [output_apply]
  refine congrArg (fun z => z + bm2r (ix2 (0 : Fin 1) (0 : Fin 1))) ?_
  refine Finset.sum_congr rfl fun j _ => ?_
  rw [hidden_apply]
  refine congrArg (fun z => max (z + bm1r (ix2 (0 : Fin 1) j)) 0 * wm2 (ix2 j (0 : Fin 1))) ?_
  refine Finset.sum_congr rfl fun k _ => ?_
  rw [pooled_apply]

end Cert.KernelIdeal.HandValue

end
-- ==== Proof.Val4.lean ====
/-
  The value of region 4 at exact arithmetic, as an equation between whole arrays: after the region has run, its
  output array (64 × 1) is the reference's mean pool and head applied to the region's six input arrays as it
  found them. Both sides are the same closed formula at every graph g.
-/
import proofs.«413692_j83004537962758_2_alg».proof.Proof.Val4K
import proofs.«413692_j83004537962758_2_alg».proof.Proof.Val4R

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The output array after the region: the reference's pool and head of the node features, the graph ids as a column,
    the first layer's weights and bias row, the second layer's weights and bias, as the region found them. -/
theorem val4 (c : Dev nD) : (dat4 (F := Ideal) V c).arrAt 6 cfg4.N
    = poolHead (V c main_v51) (V c main_v52) (V c main_arg8) (V c main_v53) (V c main_arg10) (V c main_v54) := by
  refine funext fun (i : Cert.ReferenceIdeal.S64x1.Idx) => ?_
  obtain ⟨g, z, rfl⟩ : ∃ (g : Fin 64) (z : Fin 1), i = ix2 g z := ⟨i 0, i 1, eq_ix2 i⟩
  obtain rfl : z = 0 := Subsingleton.elim _ _
  exact (val4_at V c g).trans (poolHead_at _ _ _ _ _ _ g).symm

end Cert.KernelIdeal.HandValue

end
-- ==== Proof.PreRange.lean ====
/-
  The certificate's precondition, read back at the edge-index array. The precondition is a conjunction of eleven
  scalar bits joined left to right, so its last conjunct is the outermost: "every entry of the [2 × 1600000] array of
  edge endpoints is at least 0 and less than 100000", printed as two signed compares against broadcast constants,
  and-ed entrywise and reduced by "and" over both axes. From the precondition being 1 this module concludes that
  every edge endpoint, read as a signed integer, is a node number: 0 ≤ endpoint < 100000.
-/
import proofs.«413692_j83004537962758_2_alg».proof.Defs
import proofs.«413692_j83004537962758_2_alg».proof.Proof.Gen.Pre_finite_inputs
import Idealize.ShloMosaic.Lib.ReduceAll
import Idealize.ShloMosaic.Lib.ValueIdx

set_option maxRecDepth 16384

noncomputable section

namespace Cert.KernelIdeal.HandValue

open Idealize.ShloMosaic Idealize.ShloMosaic.ValueIdx Idealize.SL.Sem

/-- The scalar shape has one index. -/
instance scalarIdxSubsingleton : Subsingleton Cert.Pre_finite_inputs.S_.Idx := ⟨fun a b => funext fun d => d.elim0⟩

section
variable [hPre : Cert.Pre_finite_inputs.Facts] {F : FTy → Type} [FloatOps F]

/-- The last stretch of the precondition, read back at one entry: when its bit is 1, the mask "endpoint ≥ 0" it was
    handed is 1 at every entry, and every endpoint is below 100000 as a signed word. The bit is the "and" of the earlier
    conjuncts' bit with the reduction of the entrywise "and" of the two masks; a reduction by "and" over all axes that
    came out 1 met only 1s. -/
theorem tail_bit_one (edges : IVec Cert.Pre_finite_inputs.S2x1600000 32) (earlier : IVec Cert.Pre_finite_inputs.S_ 1)
    (nonneg : IVec Cert.Pre_finite_inputs.S2x1600000 1)
    (h : Cert.Pre_finite_inputs.fn_part3 (F := F) edges earlier nonneg ix0 = 1#1) (i : Cert.Pre_finite_inputs.S2x1600000.Idx) :
    nonneg i = 1#1 ∧ IntOp.cmpi .slt (edges i) 100000#32 = 1#1 := by
  unfold Cert.Pre_finite_inputs.fn_part3 at h
  have hall := (IntOp.andi_eq_one.1 h).2
  have hi := Host.reduce_andi_all _ _ _ _ ix0 hall i
  exact IntOp.andi_eq_one.1 hi

/-- Every edge endpoint is a node number, from the precondition being 1. The mask the last stretch is handed is the
    signed compare "endpoint ≥ 0" against the broadcast constant 0, which reads 0 at every entry. -/
theorem edge_index_range (a0 : FVec F Cert.Pre_finite_inputs.S100000x128 .f32) (a1 : IVec Cert.Pre_finite_inputs.S2x1600000 32)
    (a2 : FVec F Cert.Pre_finite_inputs.S1600000 .f32) (a3 : IVec Cert.Pre_finite_inputs.S100000 32)
    (a4 : FVec F Cert.Pre_finite_inputs.S128x64 .f32) (a5 : FVec F Cert.Pre_finite_inputs.S64 .f32)
    (a6 : FVec F Cert.Pre_finite_inputs.S64x64 .f32) (a7 : FVec F Cert.Pre_finite_inputs.S64 .f32)
    (a8 : FVec F Cert.Pre_finite_inputs.S64x32 .f32) (a9 : FVec F Cert.Pre_finite_inputs.S32 .f32)
    (a10 : FVec F Cert.Pre_finite_inputs.S32x1 .f32) (a11 : FVec F Cert.Pre_finite_inputs.S1 .f32)
    (h : Cert.Pre_finite_inputs.fn (F := F) a0 a1 a2 a3 a4 a5 a6 a7 a8 a9 a10 a11 = (fun _ => 1#1)) :
    ∀ (r : Fin 2) (e : Fin 1600000), 0 ≤ (a1 (ix2 r e)).toInt ∧ (a1 (ix2 r e)).toInt < 100000 := by
  intro r e
  have h0 := congrFun h ix0
  unfold Cert.Pre_finite_inputs.fn Cert.Pre_finite_inputs.fn_part1 Cert.Pre_finite_inputs.fn_part2 at h0
  obtain ⟨hge, hlt⟩ := tail_bit_one (F := F) a1 _ _ h0 (ix2 r e)
  have hge' : IntOp.cmpi .sge (a1 (ix2 r e)) 0#32 = 1#1 := hge
  have z : (0#32 : BitVec 32).toInt = 0 := by decide
  have k : (100000#32 : BitVec 32).toInt = 100000 := by decide
  exact ⟨z ▸ IntOp.cmpi_sge.1 hge', k ▸ IntOp.cmpi_slt.1 hlt⟩

end

/-- The same over a memory: on every core, the edge-index argument holds node numbers. -/
theorem edge_index_range_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ (r : Fin 2) (e : Fin 1600000),
      0 ≤ ((m ((c.tc : Thread Cert.KernelIdeal.nD Cert.KernelIdeal.τ).loc Cert.KernelIdeal.main_arg1)) (ix2 r e)).toInt
      ∧ ((m ((c.tc : Thread Cert.KernelIdeal.nD Cert.KernelIdeal.τ).loc Cert.KernelIdeal.main_arg1)) (ix2 r e)).toInt < 100000 :=
  edge_index_range (F := Ideal) _ _ _ _ _ _ _ _ _ _ _ _ (hpre c)

end Cert.KernelIdeal.HandValue

end
-- ==== Proof.Result.lean ====
/-
  The kernel program's result is the reference's, for every memory of which the precondition holds. Between its
  items the run leaves the core's buffers at a chain of valuations: the launch contents; after each host stretch,
  that stretch applied to what was there; after each kernel region, what was there with the region's output array
  replaced. Each region's output array is that region's value of the buffers it found — x · W₁ and h · W₂ for the
  two projections, max (a + b) 0 for the two epilogues, the mean pool with the two-layer head for the last — and a
  region changes no other buffer. The precondition makes every edge endpoint a node number. Under exactly these
  facts the chain ends with the result buffer at the reference's composed stages of the twelve arguments.
-/
import proofs.«413692_j83004537962758_2_alg».proof.Proof.Bridge
import proofs.«413692_j83004537962758_2_alg».proof.Proof.RunAll
import proofs.«413692_j83004537962758_2_alg».proof.Proof.Val0
import proofs.«413692_j83004537962758_2_alg».proof.Proof.Val1
import proofs.«413692_j83004537962758_2_alg».proof.Proof.Val2
import proofs.«413692_j83004537962758_2_alg».proof.Proof.Val3
import proofs.«413692_j83004537962758_2_alg».proof.Proof.Val4
import proofs.«413692_j83004537962758_2_alg».proof.Proof.PreRange

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.StableHlo Idealize.ShloMosaic.ValueIdx

/-- On every core the run ends with the result buffer at the reference's result of the arguments as launched. The
    host steps of the chain are the stretches by definition; each region's step is its kept-buffers fact and its
    output fact followed by the region's value; the edge endpoints are node numbers by the precondition. -/
theorem kernel_result [hPre : Cert.Pre_finite_inputs.Facts] (m : (ℓ : Loc nD τ sig) → Buf (Elt Ideal) ℓ) (ρ : Dev nD → PrngReg)
    (hpre : Cert.Pre_KernelIdeal m) (c : Dev nD) :
    Hand.W13 (F := Ideal) m ρ c (Proc.devRef .tc main_v55)
      = Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  result_is_reference (Hand.W0 m ρ c) (Hand.W3 m ρ c) (Hand.W4 m ρ c) (Hand.W6 m ρ c) (Hand.W7 m ρ c) (Hand.W8 m ρ c) (Hand.W10 m ρ c) (Hand.W11 m ρ c) (Hand.W12 m ρ c) (Hand.W13 m ρ c)
    (by unfold open3; rfl)
    (Hand.W4_kept m ρ c)
    ((Hand.W4_out m ρ c).trans (val0 (Hand.V3 m ρ) c))
    (by unfold agg1; rfl)
    (Hand.W7_kept m ρ c)
    ((Hand.W7_out m ρ c).trans (val1 (Hand.V6 m ρ) c))
    (Hand.W8_kept m ρ c)
    ((Hand.W8_out m ρ c).trans (val2 (Hand.V7 m ρ) c))
    (by unfold agg2; rfl)
    (Hand.W11_kept m ρ c)
    ((Hand.W11_out m ρ c).trans (val3 (Hand.V10 m ρ) c))
    (by unfold tail4; rfl)
    ((Hand.W13_out m ρ c).trans (val4 (Hand.V12 m ρ) c))
    (edge_index_range_of_pre m hpre c)

end Cert.KernelIdeal.HandValue

end
-- ==== Proof.RefRun.lean ====
/-
  The reference program's run and its read-at-an-index lemmas, brought into scope for the modules that compare the
  reference's result with the kernel's.
-/
import proofs.«413692_j83004537962758_2_alg».proof.Proof.Gen.ReferenceIdeal.Run
import proofs.«413692_j83004537962758_2_alg».proof.Proof.Gen.ReferenceIdeal.Read
-- ==== Proof.lean ====
/-
  The claims of the certificate of a two-layer graph convolution with a mean pool and a two-layer head, on 100000
  nodes with 128 features, 1600000 weighted edges and 64 graphs.

  What both programs compute. From the edge list they make row and col (the edges' two endpoints, then every node
  once for a self-loop), w (the edge weights, then a one per self-loop), the weighted in-degree deg (the sum of w
  over the edges ending at a node), dinv = 1/√deg where deg is positive and 0 elsewhere, and the normalisation
  norm = dinv[row] · w · dinv[col]. A layer sends features h to max (A (h · W) + b) 0, where A adds into every
  node, over the edges ending there, norm times the source node's row; there are two layers, with weights
  128 × 64 and 64 × 64. Then per graph the node features are averaged (the sum over the graph's nodes divided by
  the larger of their number and one), and the head is a dense layer to 32 with a maximum with zero and a dense
  layer to one number per graph.

  How they differ. The reference is host operations throughout. The kernel program computes the two products h · W,
  the two epilogues max (· + b) 0 and the pool with the head in five TensorCore regions, each a pipeline over ten
  blocks of 10000 rows; the normalisation, the row gathers and scatter-adds of A and a few reshapes stay on the
  host, the same operations as the reference's.

  Why they agree, over the extended reals where every operation is exact and a change of float format is the
  identity. The host stretches are the reference's own stages of the same inputs. A projection region leaves, block
  by block, the rows of the product, each entry the same sum over the contraction index as the reference's
  dot_general, the truncations to bf16 being the identity. An epilogue region is entrywise the same
  max (a + b) 0. The pooling region adds up, block by block, each graph's feature sums and node counts — a sum
  over the nodes split into ten — and at the last block divides and applies the head, which is the reference's
  scatter-adds, division and two dense layers. The kernel program's row gather wraps a negative index round and
  replaces a row gathered at an index outside the table by not-a-number, where the reference's gathers plainly; the
  two are the same gather when every index is a node number.

  The precondition: every float argument holds finite numbers, and every entry of the edge list is at least 0 and
  below 100000. The second part is what the row gathers need; it holds of every edge list the layer is meant for.

  The frame claims (each program runs to the end without a fault and leaves its arguments as they were) come from
  the run of the regions over their pipelines, at words and at extended reals from one text, and for the reference
  from its run with the result dropped. The idealization rewrote no operation, so that claim is True.
-/
import proofs.«413692_j83004537962758_2_alg».proof.Defs
import proofs.«413692_j83004537962758_2_alg».proof.Proof.Gen.Kernel
import proofs.«413692_j83004537962758_2_alg».proof.Proof.Gen.Kernel.Skeleton
import proofs.«413692_j83004537962758_2_alg».proof.Proof.Gen.Kernel.Launch
import proofs.«413692_j83004537962758_2_alg».proof.Proof.Gen.Kernel.Regions
import proofs.«413692_j83004537962758_2_alg».proof.Proof.Gen.Kernel.Points
import proofs.«413692_j83004537962758_2_alg».proof.Proof.Gen.KernelIdeal
import proofs.«413692_j83004537962758_2_alg».proof.Proof.Gen.KernelIdeal.Skeleton
import proofs.«413692_j83004537962758_2_alg».proof.Proof.Gen.KernelIdeal.Launch
import proofs.«413692_j83004537962758_2_alg».proof.Proof.Gen.KernelIdeal.Regions
import proofs.«413692_j83004537962758_2_alg».proof.Proof.Gen.KernelIdeal.Points
import proofs.«413692_j83004537962758_2_alg».proof.Proof.Gen.ReferenceIdeal
import proofs.«413692_j83004537962758_2_alg».proof.Proof.Gen.Pre_finite_inputs
import proofs.«413692_j83004537962758_2_alg».proof.Proof.RunAll
import proofs.«413692_j83004537962758_2_alg».proof.Proof.KRunAll
import proofs.«413692_j83004537962758_2_alg».proof.Proof.Result
import proofs.«413692_j83004537962758_2_alg».proof.Proof.RefRun
import Idealize.ShloMosaic.Adequacy
import Idealize.ShloMosaic.Init

set_option maxRecDepth 16384

noncomputable section

namespace Cert.Proof

open Idealize.ShloMosaic Idealize.SL.Sem

/-- The kernel program at words runs to the end and leaves its arguments. -/
theorem frame_word : Cert.frame_Kernel := fun m ρ _ => Cert.Kernel.Hand.frame_all (F := Bits) m ρ

/-- The same text at extended reals. -/
theorem frame_ideal : Cert.frame_KernelIdeal := fun m ρ _ => Cert.KernelIdeal.Hand.frame_all (F := Ideal) m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and the result buffers end equal: the kernel
    program's at what its last region wrote, which is the reference's stages of the arguments; the reference's at
    those stages of its own arguments, which are the same arrays. -/
theorem algebraic : Cert.algebraic_KernelIdeal_ReferenceIdeal := by
  intro m ρ m' ρ' hpre hagree
  refine ⟨fun c => Cert.KernelIdeal.Hand.W13 (F := Ideal) m ρ c (Proc.devRef .tc Cert.KernelIdeal.main_v55), Cert.KernelIdeal.Hand.result_all (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v88_eq, e0, e1, e2, e3, e4, e5, e6, e7, e8, e9, e10, e11]
  exact (Cert.KernelIdeal.HandValue.kernel_result m ρ hpre c).symm

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
